-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x512 : Shape := ⟨2, ![40000, 512]⟩
abbrev S640000 : Shape := ⟨1, ![640000]⟩
abbrev S40000 : Shape := ⟨1, ![40000]⟩
abbrev S512x128 : Shape := ⟨2, ![512, 128]⟩
abbrev S128 : Shape := ⟨1, ![128]⟩
abbrev S128x128 : Shape := ⟨2, ![128, 128]⟩
abbrev S_ : Shape := ⟨0, ![]⟩

class Facts : Prop where
  bcast_S_S40000x512 : S_.BroadcastsInDim S40000x512 (![] : Fin 0 → Fin S40000x512.rank)
  reducesTo_S40000x512_S_d0_1 : S40000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S40000x512 .f32) (main_arg1 : IVec S640000 32) (main_arg2 : IVec S640000 32) (main_arg3 : IVec S40000 32) (main_arg4 : FVec F S512x128 .f32) (main_arg5 : FVec F S128 .f32) (main_arg6 : FVec F S128x128 .f32) (main_arg7 : FVec F S128 .f32) : IVec S_ 1 :=
  let main_v0 : FVec F S40000x512 .f32 := Host.absf main_arg0
  let main_cst : FVec F S_ .f32 := constant S_ .f32 0x7F800000#32
  let main_v1 : FVec F S40000x512 .f32 := broadcastInDim S40000x512 ![] bcast_S_S40000x512 main_cst
  let main_v2 : IVec S40000x512 1 := cmpf .olt main_v0 main_v1
  let main_c : IVec S_ 1 := constantI S_ 1 1#1
  let main_v3 : IVec S_ 1 := (fun x v => Host.reduce IntOp.andi x v reducesTo_S40000x512_S_d0_1 h_S_) main_v2 main_c
  let main_v4 : FVec F S512x128 .f32 := Host.absf main_arg4
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_v13 main_v16
-- ==== Kernel.lean ====
abbrev S40000x512 : Shape := ⟨2, ![40000, 512]⟩
abbrev S640000 : Shape := ⟨1, ![640000]⟩
abbrev S40000 : Shape := ⟨1, ![40000]⟩
abbrev S512x128 : Shape := ⟨2, ![512, 128]⟩
abbrev S128 : Shape := ⟨1, ![128]⟩
abbrev S128x128 : Shape := ⟨2, ![128, 128]⟩
abbrev S_ : Shape := ⟨0, ![]⟩
abbrev S640000x1 : Shape := ⟨2, ![640000, 1]⟩
abbrev S40000x1 : Shape := ⟨2, ![40000, 1]⟩
abbrev S1x64 : Shape := ⟨2, ![1, 64]⟩
abbrev S40000x64 : Shape := ⟨2, ![40000, 64]⟩
abbrev S64 : Shape := ⟨1, ![64]⟩
abbrev S64x1 : Shape := ⟨2, ![64, 1]⟩
abbrev S40000x128 : Shape := ⟨2, ![40000, 128]⟩
abbrev S4000x512 : Shape := ⟨2, ![4000, 512]⟩
abbrev S4000x1 : Shape := ⟨2, ![4000, 1]⟩
abbrev S4000x128 : Shape := ⟨2, ![4000, 128]⟩
abbrev S640000x128 : Shape := ⟨2, ![640000, 128]⟩
abbrev S1x128 : Shape := ⟨2, ![1, 128]⟩
abbrev S2x64x128 : Shape := ⟨3, ![2, 64, 128]⟩
abbrev S2000x128 : Shape := ⟨2, ![2000, 128]⟩
abbrev S2000x1 : Shape := ⟨2, ![2000, 1]⟩
abbrev S2000x64 : Shape := ⟨2, ![2000, 64]⟩
abbrev S1x64x128 : Shape := ⟨3, ![1, 64, 128]⟩
abbrev S64x128 : Shape := ⟨2, ![64, 128]⟩

abbrev nBuf : Space → Nat
  | .hbm => 104
  | .vmem => 30
  | .smem => 0
  | _ => 0

abbrev bufTy : (tb : Table) → Fin (tcTables nBuf tb) → BufTy
  | .hbm, ⟨0, _⟩ => ⟨S40000x512, .f32⟩
  | .hbm, ⟨1, _⟩ => ⟨S640000, .i32⟩
  | .hbm, ⟨2, _⟩ => ⟨S640000, .i32⟩
  | .hbm, ⟨3, _⟩ => ⟨S40000, .i32⟩
  | .hbm, ⟨4, _⟩ => ⟨S512x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S640000, .f32⟩
  | .hbm, ⟨10, _⟩ => ⟨S_, .f32⟩
  | .hbm, ⟨11, _⟩ => ⟨S40000, .f32⟩
  | .hbm, ⟨12, _⟩ => ⟨S640000x1, .i32⟩
  | .hbm, ⟨13, _⟩ => ⟨S40000, .f32⟩
  | .hbm, ⟨14, _⟩ => ⟨S_, .f32⟩
  | .hbm, ⟨15, _⟩ => ⟨S40000, .f32⟩
  | .hbm, ⟨16, _⟩ => ⟨S640000x1, .i32⟩
  | .hbm, ⟨17, _⟩ => ⟨S40000, .f32⟩
  | .hbm, ⟨18, _⟩ => ⟨S_, .f32⟩
  | .hbm, ⟨19, _⟩ => ⟨S40000, .f32⟩
  | .hbm, ⟨20, _⟩ => ⟨S40000, .i1⟩
  | .hbm, ⟨21, _⟩ => ⟨S_, .f32⟩
  | .hbm, ⟨22, _⟩ => ⟨S40000, .f32⟩
  | .hbm, ⟨23, _⟩ => ⟨S40000, .f32⟩
  | .hbm, ⟨24, _⟩ => ⟨S40000, .f32⟩
  | .hbm, ⟨25, _⟩ => ⟨S_, .f32⟩
  | .hbm, ⟨26, _⟩ => ⟨S_, .f32⟩
  | .hbm, ⟨27, _⟩ => ⟨S40000, .f32⟩
  | .hbm, ⟨28, _⟩ => ⟨S40000, .f32⟩
  | .hbm, ⟨29, _⟩ => ⟨S_, .f32⟩
  | .hbm, ⟨30, _⟩ => ⟨S40000, .f32⟩
  | .hbm, ⟨31, _⟩ => ⟨S40000, .i1⟩
  | .hbm, ⟨32, _⟩ => ⟨S_, .f32⟩
  | .hbm, ⟨33, _⟩ => ⟨S40000, .f32⟩
  | .hbm, ⟨34, _⟩ => ⟨S40000, .f32⟩
  | .hbm, ⟨35, _⟩ => ⟨S40000, .f32⟩
  | .hbm, ⟨36, _⟩ => ⟨S_, .f32⟩
  | .hbm, ⟨37, _⟩ => ⟨S_, .f32⟩
  | .hbm, ⟨38, _⟩ => ⟨S40000, .f32⟩
  | .hbm, ⟨39, _⟩ => ⟨S40000, .f32⟩
  | .hbm, ⟨40, _⟩ => ⟨S40000x1, .i32⟩
  | .hbm, ⟨41, _⟩ => ⟨S1x64, .i32⟩
  | .hbm, ⟨42, _⟩ => ⟨S40000x64, .i32⟩
  | .hbm, ⟨43, _⟩ => ⟨S40000x64, .i32⟩
  | .hbm, ⟨44, _⟩ => ⟨S40000x64, .i1⟩
  | .hbm, ⟨45, _⟩ => ⟨S40000x64, .bf16⟩
  | .hbm, ⟨46, _⟩ => ⟨S_, .f32⟩
  | .hbm, ⟨47, _⟩ => ⟨S40000, .f32⟩
  | .hbm, ⟨48, _⟩ => ⟨S_, .f32⟩
  | .hbm, ⟨49, _⟩ => ⟨S64, .f32⟩
  | .hbm, ⟨50, _⟩ => ⟨S40000x1, .i32⟩
  | .hbm, ⟨51, _⟩ => ⟨S64, .f32⟩
  | .hbm, ⟨52, _⟩ => ⟨S_, .f32⟩
  | .hbm, ⟨53, _⟩ => ⟨S64, .f32⟩
  | .hbm, ⟨54, _⟩ => ⟨S64, .f32⟩
  | .hbm, ⟨55, _⟩ => ⟨S64x1, .f32⟩
  | .hbm, ⟨56, _⟩ => ⟨S40000x1, .f32⟩
  | .hbm, ⟨57, _⟩ => ⟨S40000x128, .f32⟩
  | .hbm, ⟨58, _⟩ => ⟨S_, .i32⟩
  | .hbm, ⟨59, _⟩ => ⟨S640000, .i32⟩
  | .hbm, ⟨60, _⟩ => ⟨S640000, .i1⟩
  | .hbm, ⟨61, _⟩ => ⟨S_, .i32⟩
  | .hbm, ⟨62, _⟩ => ⟨S640000, .i32⟩
  | .hbm, ⟨63, _⟩ => ⟨S640000, .i32⟩
  | .hbm, ⟨64, _⟩ => ⟨S640000, .i32⟩
  | .hbm, ⟨65, _⟩ => ⟨S640000x1, .i32⟩
  | .hbm, ⟨66, _⟩ => ⟨S640000x128, .f32⟩
  | .hbm, ⟨67, _⟩ => ⟨S_, .f32⟩
  | .hbm, ⟨68, _⟩ => ⟨S40000x128, .f32⟩
  | .hbm, ⟨69, _⟩ => ⟨S640000x1, .i32⟩
  | .hbm, ⟨70, _⟩ => ⟨S40000x128, .f32⟩
  | .hbm, ⟨71, _⟩ => ⟨S40000x1, .f32⟩
  | .hbm, ⟨72, _⟩ => ⟨S40000x1, .f32⟩
  | .hbm, ⟨73, _⟩ => ⟨S1x128, .f32⟩
  | .hbm, ⟨74, _⟩ => ⟨S40000x128, .f32⟩
  | .hbm, ⟨75, _⟩ => ⟨S2x64x128, .f32⟩
  | .hbm, ⟨76, _⟩ => ⟨S_, .f32⟩
  | .hbm, ⟨77, _⟩ => ⟨S64x128, .f32⟩
  | .hbm, ⟨78, _⟩ => ⟨S64x128, .f32⟩
  | .hbm, ⟨79, _⟩ => ⟨S64x128, .f32⟩
  | .hbm, ⟨80, _⟩ => ⟨S_, .i32⟩
  | .hbm, ⟨81, _⟩ => ⟨S640000, .i32⟩
  | .hbm, ⟨82, _⟩ => ⟨S640000, .i1⟩
  | .hbm, ⟨83, _⟩ => ⟨S_, .i32⟩
  | .hbm, ⟨84, _⟩ => ⟨S640000, .i32⟩
  | .hbm, ⟨85, _⟩ => ⟨S640000, .i32⟩
  | .hbm, ⟨86, _⟩ => ⟨S640000, .i32⟩
  | .hbm, ⟨87, _⟩ => ⟨S640000x1, .i32⟩
  | .hbm, ⟨88, _⟩ => ⟨S640000x128, .f32⟩
  | .hbm, ⟨89, _⟩ => ⟨S_, .f32⟩
  | .hbm, ⟨90, _⟩ => ⟨S40000x128, .f32⟩
  | .hbm, ⟨91, _⟩ => ⟨S640000x1, .i32⟩
  | .hbm, ⟨92, _⟩ => ⟨S40000x128, .f32⟩
  | .hbm, ⟨93, _⟩ => ⟨S40000x1, .f32⟩
  | .hbm, ⟨94, _⟩ => ⟨S1x128, .f32⟩
  | .hbm, ⟨95, _⟩ => ⟨S2x64x128, .f32⟩
  | .hbm, ⟨96, _⟩ => ⟨S_, .f32⟩
  | .hbm, ⟨97, _⟩ => ⟨S64x128, .f32⟩
  | .hbm, ⟨98, _⟩ => ⟨S64x128, .f32⟩
  | .hbm, ⟨99, _⟩ => ⟨S64x128, .f32⟩
  | .hbm, ⟨100, _⟩ => ⟨S_, .f32⟩
  | .hbm, ⟨101, _⟩ => ⟨S64x128, .f32⟩
  | .hbm, ⟨102, _⟩ => ⟨S64x128, .f32⟩
  | .hbm, ⟨103, _⟩ => ⟨S64x128, .f32⟩
  | .local _ .vmem, ⟨0, _⟩ => ⟨S4000x512, .f32⟩
  | .local _ .vmem, ⟨1, _⟩ => ⟨S4000x512, .f32⟩
  | .local _ .vmem, ⟨2, _⟩ => ⟨S4000x1, .f32⟩
  | .local _ .vmem, ⟨3, _⟩ => ⟨S4000x1, .f32⟩
  | .local _ .vmem, ⟨4, _⟩ => ⟨S512x128, .f32⟩
  | .local _ .vmem, ⟨5, _⟩ => ⟨S4000x128, .f32⟩
  | .local _ .vmem, ⟨6, _⟩ => ⟨S4000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x64, .bf16⟩
  | .local _ .vmem, ⟨13, _⟩ => ⟨S2000x64, .bf16⟩
  | .local _ .vmem, ⟨14, _⟩ => ⟨S2000x1, .f32⟩
  | .local _ .vmem, ⟨15, _⟩ => ⟨S2000x1, .f32⟩
  | .local _ .vmem, ⟨16, _⟩ => ⟨S128x128, .f32⟩
  | .local _ .vmem, ⟨17, _⟩ => ⟨S2000x128, .f32⟩
  | .local _ .vmem, ⟨18, _⟩ => ⟨S2000x128, .f32⟩
  | .local _ .vmem, ⟨19, _⟩ => ⟨S1x64x128, .f32⟩
  | .local _ .vmem, ⟨20, _⟩ => ⟨S1x64x128, .f32⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S1x128, .f32⟩
  | .local _ .vmem, ⟨26, _⟩ => ⟨S2000x64, .bf16⟩
  | .local _ .vmem, ⟨27, _⟩ => ⟨S2000x64, .bf16⟩
  | .local _ .vmem, ⟨28, _⟩ => ⟨S1x64x128, .f32⟩
  | .local _ .vmem, ⟨29, _⟩ => ⟨S1x64x128, .f32⟩
  | _, _ => ⟨S40000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v12 : Ref sig .tc := ⟨.hbm, 28, rfl⟩
abbrev main_cst_5 : Ref sig .tc := ⟨.hbm, 29, rfl⟩
abbrev main_v13 : Ref sig .tc := ⟨.hbm, 30, rfl⟩
abbrev main_v14 : Ref sig .tc := ⟨.hbm, 31, rfl⟩
abbrev main_cst_6 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_7 : Ref sig .tc := ⟨.hbm, 36, rfl⟩
abbrev main_call1_v0 : Ref sig .tc := ⟨.hbm, 37, rfl⟩
abbrev main_call1_v1 : Ref sig .tc := ⟨.hbm, 38, rfl⟩
abbrev main_v18 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_v19 : Ref sig .tc := ⟨.hbm, 45, rfl⟩
abbrev main_cst_8 : Ref sig .tc := ⟨.hbm, 46, rfl⟩
abbrev main_v20 : Ref sig .tc := ⟨.hbm, 47, rfl⟩
abbrev main_cst_9 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_10 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c : Ref sig .tc := ⟨.hbm, 58, rfl⟩
abbrev main_v29 : Ref sig .tc := ⟨.hbm, 59, rfl⟩
abbrev main_v30 : Ref sig .tc := ⟨.hbm, 60, rfl⟩
abbrev main_c_11 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_12 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42_0 : Ref sig .tc := ⟨.hbm, 74, rfl⟩
abbrev main_v42_1 : Ref sig .tc := ⟨.hbm, 75, rfl⟩
abbrev main_cst_13 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_c_14 : Ref sig .tc := ⟨.hbm, 80, rfl⟩
abbrev main_v46 : Ref sig .tc := ⟨.hbm, 81, rfl⟩
abbrev main_v47 : Ref sig .tc := ⟨.hbm, 82, rfl⟩
abbrev main_c_15 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_16 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_17 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_18 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem6_0 : DmaSem sig := 17
abbrev cc1_sem6_1 : DmaSem sig := 18
abbrev cc1_sem7_0 : DmaSem sig := 19
abbrev cc1_sem7_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem3_1 : DmaSem sig := 27
abbrev cc2_sem4_0 : DmaSem sig := 28
abbrev cc2_sem4_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 10], ![false, false]⟩

def cc1_transform_0 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x64x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev grid2 : Pipeline.Grid := ⟨2, ![2, 10], ![false, false]⟩

def cc2_transform_0 (i : grid2.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S2000x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x64x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S40000_S40000x1_0 : S40000.BroadcastsInDim S40000x1 (![0] : Fin 1 → Fin S40000x1.rank)
  bcast_S40000x1_S40000x64_0_1 : S40000x1.BroadcastsInDim S40000x64 (![0, 1] : Fin 2 → Fin S40000x64.rank)
  bcast_S1x64_S40000x64_0_1 : S1x64.BroadcastsInDim S40000x64 (![0, 1] : Fin 2 → Fin S40000x64.rank)
  bcast_S_S64 : S_.BroadcastsInDim S64 (![] : Fin 0 → Fin S64.rank)
  bcast_S64_S64x1_0 : S64.BroadcastsInDim S64x1 (![0] : Fin 1 → Fin S64x1.rank)
  shapeCasts_S40000_S40000x1 : S40000.ShapeCasts S40000x1
  inb_S4000x512_S4000x512_0_0 : ∀ a, (![0, 0] : Fin 2 → Nat) a + S4000x512.size a ≤ S4000x512.size a
  h_S4000x512 : 0 < S4000x512.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x512 : S4000x1.Broadcasts S4000x512
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S4000x128_S4000x128_0_0 : ∀ a, (![0, 0] : Fin 2 → Nat) a + S4000x128.size a ≤ S4000x128.size a
  h_S4000x128 : 0 < S4000x128.numel
  bcast_S_S40000x128 : S_.BroadcastsInDim S40000x128 (![] : Fin 0 → Fin S40000x128.rank)
  shapeCasts_S128_S1x128 : S128.ShapeCasts S1x128
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S128x128_S128x128_0_0 : ∀ a, (![0, 0] : Fin 2 → Nat) a + S128x128.size a ≤ S128x128.size a
  h_S128x128 : 0 < S128x128.numel
  reducesTo_S2x64x128_S64x128_d0 : S2x64x128.ReducesTo [0] S64x128
  h_S_ : 0 < S_.numel
  bcast_S64x1_S64x128_0_1 : S64x1.BroadcastsInDim S64x128 (![0, 1] : Fin 2 → Fin S64x128.rank)
  bcast_S_S64x128 : S_.BroadcastsInDim S64x128 (![] : Fin 0 → Fin S64x128.rank)
  scatter_S40000_S640000x1_S640000_n_0_0_1_wf : ScatterDims.WF S40000 S640000x1 S640000 [] [0] [0] 1
  scatter_S64_S40000x1_S40000_n_0_0_1_wf : ScatterDims.WF S64 S40000x1 S40000 [] [0] [0] 1
  dot_S4000x512_S512x128_S4000x128_1_0_0_1_n_n_wf : DotDims.WF S4000x512 S512x128 S4000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S2000x64_S2000x128_S64x128_0_0_1_1_n_n_wf : DotDims.WF S2000x64 S2000x128 S64x128 [0] [0] [1] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S40000x512.size a
  hwx0_0 : ∀ i : grid0.Coords, EltTy.bits .f32 = 32 ∨ (Rect.block (s := S40000x512) S4000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S40000x1.size a
  hwx0_1 : ∀ i : grid0.Coords, EltTy.bits .f32 = 32 ∨ (Rect.block (s := S40000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S40000x128.size a
  hwx0_3 : ∀ i : grid0.Coords, EltTy.bits .f32 = 32 ∨ (Rect.block (s := S40000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S40000x128.size a
  hwx1_0 : ∀ i : grid1.Coords, EltTy.bits .f32 = 32 ∨ (Rect.block (s := S40000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S40000x1.size a
  hwx1_1 : ∀ i : grid1.Coords, EltTy.bits .f32 = 32 ∨ (Rect.block (s := S40000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S40000x64.size a
  hwx1_3 : ∀ i : grid1.Coords, EltTy.bits .bf16 = 32 ∨ (Rect.block (s := S40000x64) S2000x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S40000x1.size a
  hwx1_4 : ∀ i : grid1.Coords, EltTy.bits .f32 = 32 ∨ (Rect.block (s := S40000x1) S2000x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S40000x128.size a
  hwx1_6 : ∀ i : grid1.Coords, EltTy.bits .f32 = 32 ∨ (Rect.block (s := S40000x128) S2000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x64x128.size a ≤ S2x64x128.size a
  hwx1_7 : ∀ i : grid1.Coords, EltTy.bits .f32 = 32 ∨ (Rect.block (s := S2x64x128) S1x64x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S40000x128.size a
  hwx2_0 : ∀ i : grid2.Coords, EltTy.bits .f32 = 32 ∨ (Rect.block (s := S40000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S40000x1.size a
  hwx2_1 : ∀ i : grid2.Coords, EltTy.bits .f32 = 32 ∨ (Rect.block (s := S40000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S40000x64.size a
  hwx2_3 : ∀ i : grid2.Coords, EltTy.bits .bf16 = 32 ∨ (Rect.block (s := S40000x64) S2000x64.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x64x128.size a ≤ S2x64x128.size a
  hwx2_4 : ∀ i : grid2.Coords, EltTy.bits .f32 = 32 ∨ (Rect.block (s := S2x64x128) S1x64x128.size (cc2_transform_4 i) (hinb2_4 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def scatter_S64_S40000x1_S40000_n_0_0_1 : ScatterDims S64 S40000x1 S40000 where
  updateWindowDims := []
  insertedWindowDims := [0]
  scatterDimsToOperandDims := [0]
  indexVectorDim := 1
  wf := scatter_S64_S40000x1_S40000_n_0_0_1_wf
def dot_S4000x512_S512x128_S4000x128_1_0_0_1_n_n : DotDims S4000x512 S512x128 S4000x128 where
  lhsContracting := [1]
  rhsContracting := [0]
  lhsNonContracting := [0]
  rhsNonContracting := [1]
  lhsBatch := []
  rhsBatch := []
  wf := dot_S4000x512_S512x128_S4000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S2000x64_S2000x128_S64x128_0_0_1_1_n_n : DotDims S2000x64 S2000x128 S64x128 where
  lhsContracting := [0]
  rhsContracting := [0]
  lhsNonContracting := [1]
  rhsNonContracting := [1]
  lhsBatch := []
  rhsBatch := []
  wf := dot_S2000x64_S2000x128_S64x128_0_0_1_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v38) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S2000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v40) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42_0) S2000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v42_1) S1x64x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v55) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S2000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x64x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S40000x512 : Shape := ⟨2, ![40000, 512]⟩
abbrev S640000 : Shape := ⟨1, ![640000]⟩
abbrev S40000 : Shape := ⟨1, ![40000]⟩
abbrev S512x128 : Shape := ⟨2, ![512, 128]⟩
abbrev S128 : Shape := ⟨1, ![128]⟩
abbrev S128x128 : Shape := ⟨2, ![128, 128]⟩
abbrev S_ : Shape := ⟨0, ![]⟩
abbrev S640000x1 : Shape := ⟨2, ![640000, 1]⟩
abbrev S40000x1 : Shape := ⟨2, ![40000, 1]⟩
abbrev S40000x128 : Shape := ⟨2, ![40000, 128]⟩
abbrev S640000x128 : Shape := ⟨2, ![640000, 128]⟩
abbrev S1x128 : Shape := ⟨2, ![1, 128]⟩
abbrev S64x128 : Shape := ⟨2, ![64, 128]⟩
abbrev S64 : Shape := ⟨1, ![64]⟩
abbrev S64x1 : Shape := ⟨2, ![64, 1]⟩

abbrev nBuf : Space → Nat
  | .hbm => 142
  | .vmem => 0
  | .smem => 0
  | _ => 0

abbrev hbmTy0_0 (i : Nat) : BufTy := match i % 128 with
  | 0 => ⟨S40000x512, .f32⟩
  | 1 => ⟨S640000, .i32⟩
  | 2 => ⟨S640000, .i32⟩
  | 3 => ⟨S40000, .i32⟩
  | 4 => ⟨S512x128, .f32⟩
  | 5 => ⟨S128, .f32⟩
  | 6 => ⟨S128x128, .f32⟩
  | 7 => ⟨S128, .f32⟩
  | 8 => ⟨S_, .f32⟩
  | 9 => ⟨S640000, .f32⟩
  | 10 => ⟨S_, .f32⟩
  | 11 => ⟨S40000, .f32⟩
  | 12 => ⟨S640000x1, .i32⟩
  | 13 => ⟨S40000, .f32⟩
  | 14 => ⟨S_, .f32⟩
  | 15 => ⟨S40000, .f32⟩
  | 16 => ⟨S640000x1, .i32⟩
  | 17 => ⟨S40000, .f32⟩
  | 18 => ⟨S_, .f32⟩
  | 19 => ⟨S40000, .f32⟩
  | 20 => ⟨S40000, .i1⟩
  | 21 => ⟨S_, .f32⟩
  | 22 => ⟨S40000, .f32⟩
  | 23 => ⟨S40000, .f32⟩
  | 24 => ⟨S40000, .f32⟩
  | 25 => ⟨S_, .f32⟩
  | 26 => ⟨S_, .f32⟩
  | 27 => ⟨S40000, .f32⟩
  | 28 => ⟨S40000, .f32⟩
  | 29 => ⟨S_, .f32⟩
  | 30 => ⟨S40000, .f32⟩
  | 31 => ⟨S40000, .i1⟩
  | 32 => ⟨S_, .f32⟩
  | 33 => ⟨S40000, .f32⟩
  | 34 => ⟨S40000, .f32⟩
  | 35 => ⟨S40000, .f32⟩
  | 36 => ⟨S_, .f32⟩
  | 37 => ⟨S_, .f32⟩
  | 38 => ⟨S40000, .f32⟩
  | 39 => ⟨S40000, .f32⟩
  | 40 => ⟨S40000x1, .f32⟩
  | 41 => ⟨S40000x512, .f32⟩
  | 42 => ⟨S40000x512, .f32⟩
  | 43 => ⟨S40000x128, .f32⟩
  | 44 => ⟨S_, .i32⟩
  | 45 => ⟨S640000, .i32⟩
  | 46 => ⟨S640000, .i1⟩
  | 47 => ⟨S_, .i32⟩
  | 48 => ⟨S640000, .i32⟩
  | 49 => ⟨S640000, .i32⟩
  | 50 => ⟨S640000, .i32⟩
  | 51 => ⟨S640000x1, .i32⟩
  | 52 => ⟨S640000x128, .f32⟩
  | 53 => ⟨S_, .f32⟩
  | 54 => ⟨S40000x128, .f32⟩
  | 55 => ⟨S640000x1, .i32⟩
  | 56 => ⟨S40000x128, .f32⟩
  | 57 => ⟨S40000x1, .f32⟩
  | 58 => ⟨S40000x128, .f32⟩
  | 59 => ⟨S40000x128, .f32⟩
  | 60 => ⟨S1x128, .f32⟩
  | 61 => ⟨S40000x128, .f32⟩
  | 62 => ⟨S40000x128, .f32⟩
  | 63 => ⟨S_, .f32⟩
  | 64 => ⟨S40000x128, .f32⟩
  | 65 => ⟨S40000x128, .f32⟩
  | 66 => ⟨S_, .f32⟩
  | 67 => ⟨S64x128, .f32⟩
  | 68 => ⟨S40000x1, .i32⟩
  | 69 => ⟨S64x128, .f32⟩
  | 70 => ⟨S_, .f32⟩
  | 71 => ⟨S40000, .f32⟩
  | 72 => ⟨S_, .f32⟩
  | 73 => ⟨S64, .f32⟩
  | 74 => ⟨S40000x1, .i32⟩
  | 75 => ⟨S64, .f32⟩
  | 76 => ⟨S_, .f32⟩
  | 77 => ⟨S64, .f32⟩
  | 78 => ⟨S64, .f32⟩
  | 79 => ⟨S64x1, .f32⟩
  | 80 => ⟨S64x128, .f32⟩
  | 81 => ⟨S64x128, .f32⟩
  | 82 => ⟨S40000x1, .f32⟩
  | 83 => ⟨S40000x128, .f32⟩
  | 84 => ⟨S40000x128, .f32⟩
  | 85 => ⟨S40000x128, .f32⟩
  | 86 => ⟨S_, .i32⟩
  | 87 => ⟨S640000, .i32⟩
  | 88 => ⟨S640000, .i1⟩
  | 89 => ⟨S_, .i32⟩
  | 90 => ⟨S640000, .i32⟩
  | 91 => ⟨S640000, .i32⟩
  | 92 => ⟨S640000, .i32⟩
  | 93 => ⟨S640000x1, .i32⟩
  | 94 => ⟨S640000x128, .f32⟩
  | 95 => ⟨S_, .f32⟩
  | 96 => ⟨S40000x128, .f32⟩
  | 97 => ⟨S640000x1, .i32⟩
  | 98 => ⟨S40000x128, .f32⟩
  | 99 => ⟨S40000x1, .f32⟩
  | 100 => ⟨S40000x128, .f32⟩
  | 101 => ⟨S40000x128, .f32⟩
  | 102 => ⟨S1x128, .f32⟩
  | 103 => ⟨S40000x128, .f32⟩
  | 104 => ⟨S40000x128, .f32⟩
  | 105 => ⟨S_, .f32⟩
  | 106 => ⟨S40000x128, .f32⟩
  | 107 => ⟨S40000x128, .f32⟩
  | 108 => ⟨S_, .f32⟩
  | 109 => ⟨S64x128, .f32⟩
  | 110 => ⟨S40000x1, .i32⟩
  | 111 => ⟨S64x128, .f32⟩
  | 112 => ⟨S_, .f32⟩
  | 113 => ⟨S40000, .f32⟩
  | 114 => ⟨S_, .f32⟩
  | 115 => ⟨S64, .f32⟩
  | 116 => ⟨S40000x1, .i32⟩
  | 117 => ⟨S64, .f32⟩
  | 118 => ⟨S_, .f32⟩
  | 119 => ⟨S64, .f32⟩
  | 120 => ⟨S64, .f32⟩
  | 121 => ⟨S64x1, .f32⟩
  | 122 => ⟨S64x128, .f32⟩
  | 123 => ⟨S64x128, .f32⟩
  | 124 => ⟨S_, .f32⟩
  | 125 => ⟨S64x128, .f32⟩
  | 126 => ⟨S40000x1, .i32⟩
  | 127 => ⟨S64x128, .f32⟩
  | _ => ⟨S40000x512, .f32⟩

abbrev hbmTy0_1 (i : Nat) : BufTy := match i % 128 with
  | 0 => ⟨S_, .f32⟩
  | 1 => ⟨S40000, .f32⟩
  | 2 => ⟨S_, .f32⟩
  | 3 => ⟨S64, .f32⟩
  | 4 => ⟨S40000x1, .i32⟩
  | 5 => ⟨S64, .f32⟩
  | 6 => ⟨S_, .f32⟩
  | 7 => ⟨S64, .f32⟩
  | 8 => ⟨S64, .f32⟩
  | 9 => ⟨S64x1, .f32⟩
  | 10 => ⟨S64x128, .f32⟩
  | 11 => ⟨S64x128, .f32⟩
  | 12 => ⟨S64x128, .f32⟩
  | 13 => ⟨S64x128, .f32⟩
  | _ => ⟨S40000x512, .f32⟩

abbrev hbmTy (i : Nat) : BufTy := match i / 128 with
  | 0 => hbmTy0_0 i
  | 1 => hbmTy0_1 i
  | _ => ⟨S40000x512, .f32⟩

abbrev bufTy : (tb : Table) → Fin (tcTables nBuf tb) → BufTy
  | .hbm, ⟨i, _⟩ => hbmTy i
  | _, _ => ⟨S40000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v12 : Ref sig .tc := ⟨.hbm, 28, rfl⟩
abbrev main_cst_5 : Ref sig .tc := ⟨.hbm, 29, rfl⟩
abbrev main_v13 : Ref sig .tc := ⟨.hbm, 30, rfl⟩
abbrev main_v14 : Ref sig .tc := ⟨.hbm, 31, rfl⟩
abbrev main_cst_6 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_7 : Ref sig .tc := ⟨.hbm, 36, rfl⟩
abbrev main_call1_v0 : Ref sig .tc := ⟨.hbm, 37, rfl⟩
abbrev main_call1_v1 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c : Ref sig .tc := ⟨.hbm, 44, rfl⟩
abbrev main_v23 : Ref sig .tc := ⟨.hbm, 45, rfl⟩
abbrev main_v24 : Ref sig .tc := ⟨.hbm, 46, rfl⟩
abbrev main_c_8 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_9 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_call2_cst : Ref sig .tc := ⟨.hbm, 63, rfl⟩
abbrev main_call2_v0 : Ref sig .tc := ⟨.hbm, 64, rfl⟩
abbrev main_v39 : Ref sig .tc := ⟨.hbm, 65, rfl⟩
abbrev main_cst_10 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_11 : Ref sig .tc := ⟨.hbm, 70, rfl⟩
abbrev main_v43 : Ref sig .tc := ⟨.hbm, 71, rfl⟩
abbrev main_cst_12 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_13 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_14 : Ref sig .tc := ⟨.hbm, 86, rfl⟩
abbrev main_v56 : Ref sig .tc := ⟨.hbm, 87, rfl⟩
abbrev main_v57 : Ref sig .tc := ⟨.hbm, 88, rfl⟩
abbrev main_c_15 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_16 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_call3_cst : Ref sig .tc := ⟨.hbm, 105, rfl⟩
abbrev main_call3_v0 : Ref sig .tc := ⟨.hbm, 106, rfl⟩
abbrev main_v72 : Ref sig .tc := ⟨.hbm, 107, rfl⟩
abbrev main_cst_17 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_18 : Ref sig .tc := ⟨.hbm, 112, rfl⟩
abbrev main_v76 : Ref sig .tc := ⟨.hbm, 113, rfl⟩
abbrev main_cst_19 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_20 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_21 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_22 : Ref sig .tc := ⟨.hbm, 128, rfl⟩
abbrev main_v88 : Ref sig .tc := ⟨.hbm, 129, rfl⟩
abbrev main_cst_23 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_24 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S40000_S40000x1_0 : S40000.BroadcastsInDim S40000x1 (![0] : Fin 1 → Fin S40000x1.rank)
  bcast_S40000x1_S40000x512_0_1 : S40000x1.BroadcastsInDim S40000x512 (![0, 1] : Fin 2 → Fin S40000x512.rank)
  bcast_S_S40000x128 : S_.BroadcastsInDim S40000x128 (![] : Fin 0 → Fin S40000x128.rank)
  bcast_S40000x1_S40000x128_0_1 : S40000x1.BroadcastsInDim S40000x128 (![0, 1] : Fin 2 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S40000_S640000x1_S640000_n_0_0_1_wf : ScatterDims.WF S40000 S640000x1 S640000 [] [0] [0] 1
  dot_S40000x512_S512x128_S40000x128_1_0_0_1_n_n_wf : DotDims.WF S40000x512 S512x128 S40000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S64x128_S40000x1_S40000x128_1_0_0_1_wf : ScatterDims.WF S64x128 S40000x1 S40000x128 [1] [0] [0] 1
  scatter_S64_S40000x1_S40000_n_0_0_1_wf : ScatterDims.WF S64 S40000x1 S40000 [] [0] [0] 1
  dot_S40000x128_S128x128_S40000x128_1_0_0_1_n_n_wf : DotDims.WF S40000x128 S128x128 S40000x128 [1] [0] [0] [1] [] []

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x512_S512x128_S40000x128_1_0_0_1_n_n : DotDims S40000x512 S512x128 S40000x128 where
  lhsContracting := [1]
  rhsContracting := [0]
  lhsNonContracting := [0]
  rhsNonContracting := [1]
  lhsBatch := []
  rhsBatch := []
  wf := dot_S40000x512_S512x128_S40000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S64x128_S40000x1_S40000x128_1_0_0_1 : ScatterDims S64x128 S40000x1 S40000x128 where
  updateWindowDims := [1]
  insertedWindowDims := [0]
  scatterDimsToOperandDims := [0]
  indexVectorDim := 1
  wf := scatter_S64x128_S40000x1_S40000x128_1_0_0_1_wf
def scatter_S64_S40000x1_S40000_n_0_0_1 : ScatterDims S64 S40000x1 S40000 where
  updateWindowDims := []
  insertedWindowDims := [0]
  scatterDimsToOperandDims := [0]
  indexVectorDim := 1
  wf := scatter_S64_S40000x1_S40000_n_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf

class Facts : Prop extends Facts₀ where

variable [Facts]
-- ==== Proof.GcnSpec.lean ====
/-
  The graph-convolution network as mathematics, over the extended reals, with no program in sight.

  Nodes are numbered 0 … 39999 and come in 20 tiles of 2000 consecutive nodes; tiles 0 … 9 belong to the first
  half and tiles 10 … 19 to the second, so node `(h·10 + j)·2000 + r` is row `r` of tile `j` of half `h`
  (`node`). A layer first scales each node's feature row by a per-node factor and multiplies by a weight
  matrix (`proj`); after the neighbourhood sums it scales each row again, adds a bias row and clamps at zero
  (`post`). Pooling sums the rows of the nodes of each graph: written with a 0/1 membership table `oh` (node × graph)
  it is, per half, the sum over that half's tiles and rows of `oh · H` (`poolParts`), and the two halves together
  give the sum over every node (`poolParts_sum`).
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.GcnSpec

/-- Row `r` of tile `j` of half `h`, as a node number. -/
def node (h : Fin 2) (j : Fin 10) (r : Fin 2000) : Fin 40000 :=
  ⟨(h.val * 10 + j.val) * 2000 + r.val, by have := h.isLt; have := j.isLt; have := r.isLt; omega⟩

/-- Row `r` of tile `t` (of all 20, or of the 10 of the first projection), as a node number. -/
def nodeOf {T R : Nat} (hTR : T * R = 40000) (t : Fin T) (r : Fin R) : Fin 40000 :=
  ⟨t.val * R + r.val, by
    have h1 := t.isLt; have h2 := r.isLt
    have : t.val * R + r.val < T * R := by
      calc t.val * R + r.val < t.val * R + R := by omega
        _ = (t.val + 1) * R := by ring
        _ ≤ T * R := Nat.mul_le_mul_right R (by omega)
    omega⟩

/-- The scaled projection: row `n` of `X` times its factor `s n`, then times the matrix `W`. -/
def proj {K : Nat} (X : FVec Ideal ⟨2, ![40000, K]⟩ .f32) (s : FVec Ideal ⟨2, ![40000, 1]⟩ .f32)
    (W : FVec Ideal ⟨2, ![K, 128]⟩ .f32) : FVec Ideal ⟨2, ![40000, 128]⟩ .f32 :=
  fun i => ∑ k : Fin K, (X (ix2 (i 0) k) * s (ix2 (i 0) 0)) * W (ix2 k (i 1))

/-- After the neighbourhood sum `A`: scale row `n` by `s n`, add the bias row `b`, clamp at zero. -/
def post (A : FVec Ideal ⟨2, ![40000, 128]⟩ .f32) (s : FVec Ideal ⟨2, ![40000, 1]⟩ .f32)
    (b : FVec Ideal ⟨2, ![1, 128]⟩ .f32) : FVec Ideal ⟨2, ![40000, 128]⟩ .f32 :=
  fun i => max (A (ix2 (i 0) (i 1)) * s (ix2 (i 0) 0) + b (ix2 0 (i 1))) 0

/-- The pooled sums of one half: over its ten tiles and their rows, membership times feature. -/
def poolParts (oh : FVec Ideal ⟨2, ![40000, 64]⟩ .bf16) (H : FVec Ideal ⟨2, ![40000, 128]⟩ .f32) :
    FVec Ideal ⟨3, ![2, 64, 128]⟩ .f32 :=
  fun i => ∑ j : Fin 10, ∑ r : Fin 2000, oh (ix2 (node (i 0) j r) (i 1)) * H (ix2 (node (i 0) j r) (i 2))

/-- The numbering is a bijection between (half, tile, row) and node numbers: a node number `n` is row `n % 2000` of tile
    `n / 2000 % 10` of half `n / 20000` (division with remainder, twice). -/
def nodeEquiv : Fin 2 × Fin 10 × Fin 2000 ≃ Fin 40000 where
  toFun p := node p.1 p.2.1 p.2.2
  invFun n := (⟨n.val / 20000, by have := n.isLt; omega⟩, ⟨n.val / 2000 % 10, by omega⟩, ⟨n.val % 2000, by omega⟩)
  left_inv p := by
    obtain ⟨h, j, r⟩ := p
    have hh := h.isLt; have hj := j.isLt; have hr := r.isLt
    refine Prod.ext (Fin.ext ?_) (Prod.ext (Fin.ext ?_) (Fin.ext ?_))
    · show ((h.val * 10 + j.val) * 2000 + r.val) / 20000 = h.val
      omega
    · show ((h.val * 10 + j.val) * 2000 + r.val) / 2000 % 10 = j.val
      omega
    · show ((h.val * 10 + j.val) * 2000 + r.val) % 2000 = r.val
      omega
  right_inv n := by
    have hn := n.isLt
    refine Fin.ext ?_
    show (n.val / 20000 * 10 + n.val / 2000 % 10) * 2000 + n.val % 2000 = n.val
    omega

/-- The two halves together are the sum over every node. -/
theorem poolParts_sum (oh : FVec Ideal ⟨2, ![40000, 64]⟩ .bf16) (H : FVec Ideal ⟨2, ![40000, 128]⟩ .f32)
    (g : Fin 64) (d : Fin 128) :
    ∑ h : Fin 2, poolParts oh H (ix3 h g d) = ∑ n : Fin 40000, oh (ix2 n g) * H (ix2 n d) := by
  -- a finite sum in a commutative monoid may be taken along a bijection of its index set; then the sum over triples
  -- is the iterated sum over half, tile and row, which is what the two halves' parts add up to
  rw [← Equiv.sum_comp nodeEquiv (fun n => oh (ix2 n g) * H (ix2 n d)), Fintype.sum_prod_type]
  refine Finset.sum_congr rfl fun h _ => ?_
  rw [Fintype.sum_prod_type]
  rfl

/-- Twice a value is the value added to itself, on all of the extended reals (the infinities included). -/
theorem two_mul_ereal (a : EReal) : (2 : EReal) * a = a + a := by
  -- the extended reals do not distribute in general, so the three kinds of value are taken one by one
  induction a using EReal.rec with
  | bot => rw [EReal.mul_bot_of_pos (by norm_num : (0 : EReal) < 2)]; rfl
  | coe x =>
    have h2 : (2 : EReal) = ((2 : ℝ) : EReal) := rfl
    rw [h2, ← EReal.coe_mul, ← EReal.coe_add, two_mul]
  | top => rw [EReal.mul_top_of_pos (by norm_num : (0 : EReal) < 2)]; rfl

end Cert.GcnSpec

end
-- ==== Proof.HostDefs.lean ====
/-
  The host side of the idealized kernel's program, as named functions of its arguments over the extended reals: each is the
  composition of the host operations @main applies, in the program's own terms, so that what a buffer holds at a segment
  boundary can be named without opening it.

  `deg e` counts, per node, the edges whose endpoint list `e` names it; `isq e` is that degree to the power −1/2, and 0
  for a node no edge names. `aggr src dst P` gathers row `src k` of `P` for every edge `k` and adds it into row `dst k`.
  `onehot batch` is the 0/1 table "node `n` belongs to graph `g`", `cnt batch` the number of nodes of each graph, at least 1.
  `pooled` adds the two halves' pooled sums and divides by the counts; `kernelOut` is the whole network: two layers, the
  first layer's pooled average plus twice the second's.
-/
import proofs.«417829_j5978594476289_3_alg».proof.KernelIdeal
import proofs.«417829_j5978594476289_3_alg».proof.Proof.Gen.KernelIdeal
import proofs.«417829_j5978594476289_3_alg».proof.Proof.GcnSpec

noncomputable section

open Idealize.ShloMosaic

namespace Cert.KernelIdeal.HostVal

open Cert.KernelIdeal Cert.KernelIdeal.Facts₀ Cert.KernelIdeal.Facts

/-- Per node, the number of edges whose endpoint list `e` names it (a scatter of ones into zeros). -/
def deg (e : (⟨S640000, .i32⟩ : BufTy).Contents (Elt Ideal)) : (⟨S40000, .f32⟩ : BufTy).Contents (Elt Ideal) :=
  Host.scatterAdd scatter_S40000_S640000x1_S640000_n_0_0_1
    (broadcastInDim S40000 ![] bcast_S_S40000 (constant (F := Ideal) S_ .f32 0x00000000#32))
    (broadcastInDim S640000x1 ![0] bcast_S640000_S640000x1_0 e)
    (broadcastInDim S640000 ![] bcast_S_S640000 (constant (F := Ideal) S_ .f32 0x3F800000#32))

/-- The degree to the power −1/2 where the degree is positive, else 0. -/
def isq (e : (⟨S640000, .i32⟩ : BufTy).Contents (Elt Ideal)) : (⟨S40000, .f32⟩ : BufTy).Contents (Elt Ideal) :=
  select (cmpf (F := Ideal) .ogt (deg e) (broadcastInDim S40000 ![] bcast_S_S40000 (constant (F := Ideal) S_ .f32 0x00000000#32)))
    (Host.rsqrt (F := Ideal) (maximumf (deg e) (broadcastInDim S40000 ![] bcast_S_S40000 (constant (F := Ideal) S_ .f32 0x3F800000#32))))
    (broadcastInDim S40000 ![] bcast_S_S40000 (id (constant (F := Ideal) S_ .f32 0x00000000#32)))

/-- A per-node vector as a one-column array. -/
def col (v : (⟨S40000, .f32⟩ : BufTy).Contents (Elt Ideal)) : (⟨S40000x1, .f32⟩ : BufTy).Contents (Elt Ideal) :=
  fun i => shapeCast S40000x1 v shapeCasts_S40000_S40000x1 i

/-- A bias vector as a one-row array. -/
def row (b : (⟨S128, .f32⟩ : BufTy).Contents (Elt Ideal)) : (⟨S1x128, .f32⟩ : BufTy).Contents (Elt Ideal) :=
  fun i => shapeCast S1x128 b shapeCasts_S128_S1x128 i

/-- The source endpoints as gather positions: a negative one counted from the end. -/
def srcPos (src : (⟨S640000, .i32⟩ : BufTy).Contents (Elt Ideal)) : (⟨S640000, .i32⟩ : BufTy).Contents (Elt Ideal) :=
  select (cmpi .slt src (broadcastInDim S640000 ![] bcast_S_S640000 (constantI S_ 32 0#32)))
    (addi src (broadcastInDim S640000 ![] bcast_S_S640000 (constantI S_ 32 40000#32))) src

/-- The neighbourhood sum: row `src k` of `P` added into row `dst k`, over all edges `k`. -/
def aggr (src dst : (⟨S640000, .i32⟩ : BufTy).Contents (Elt Ideal)) (P : (⟨S40000x128, .f32⟩ : BufTy).Contents (Elt Ideal)) :
    (⟨S40000x128, .f32⟩ : BufTy).Contents (Elt Ideal) :=
  Host.scatterAdd scatter_S40000x128_S640000x1_S640000x128_1_0_0_1
    (broadcastInDim S40000x128 ![] bcast_S_S40000x128 (constant (F := Ideal) S_ .f32 0x00000000#32))
    (broadcastInDim S640000x1 ![0] bcast_S640000_S640000x1_0 dst)
    (Host.gather gather_S40000x128_S640000x1_S640000x128_1_0_n_n_0_1_1128 P
      (broadcastInDim S640000x1 ![0] bcast_S640000_S640000x1_0 (srcPos src)))

/-- The membership table: 1 where node `n`'s graph number is `g`, else 0. -/
def onehot (batch : (⟨S40000, .i32⟩ : BufTy).Contents (Elt Ideal)) : (⟨S40000x64, .bf16⟩ : BufTy).Contents (Elt Ideal) :=
  uitofp (F := Ideal) .bf16
    (cmpi .eq
      (broadcastInDim S40000x64 ![0, 1] bcast_S40000x1_S40000x64_0_1 (broadcastInDim S40000x1 ![0] bcast_S40000_S40000x1_0 batch))
      (broadcastInDim S40000x64 ![0, 1] bcast_S1x64_S40000x64_0_1 (iotaInDim S1x64 32 1)))

/-- The number of nodes of each graph, at least 1, as a one-column array. -/
def cnt (batch : (⟨S40000, .i32⟩ : BufTy).Contents (Elt Ideal)) : (⟨S64x1, .f32⟩ : BufTy).Contents (Elt Ideal) :=
  broadcastInDim S64x1 ![0] bcast_S64_S64x1_0
    (maximumf
      (Host.scatterAdd scatter_S64_S40000x1_S40000_n_0_0_1
        (broadcastInDim S64 ![] bcast_S_S64 (constant (F := Ideal) S_ .f32 0x00000000#32))
        (broadcastInDim S40000x1 ![0] bcast_S40000_S40000x1_0 batch)
        (broadcastInDim S40000 ![] bcast_S_S40000 (constant (F := Ideal) S_ .f32 0x3F800000#32)))
      (broadcastInDim S64 ![] bcast_S_S64 (constant (F := Ideal) S_ .f32 0x3F800000#32)))

/-- The two halves' pooled sums added, then each graph's row divided by its node count. -/
def pooled (parts : (⟨S2x64x128, .f32⟩ : BufTy).Contents (Elt Ideal)) (batch : (⟨S40000, .i32⟩ : BufTy).Contents (Elt Ideal)) :
    (⟨S64x128, .f32⟩ : BufTy).Contents (Elt Ideal) :=
  Host.divf (F := Ideal)
    (Host.reduceAdd (F := Ideal) parts (constant (F := Ideal) S_ .f32 0x00000000#32) reducesTo_S2x64x128_S64x128_d0 h_S_)
    (broadcastInDim S64x128 ![0, 1] bcast_S64x1_S64x128_0_1 (cnt batch))

/-- The first pooled average plus twice the second. -/
def combine (s a : (⟨S64x128, .f32⟩ : BufTy).Contents (Elt Ideal)) : (⟨S64x128, .f32⟩ : BufTy).Contents (Elt Ideal) :=
  addf s (mulf (broadcastInDim S64x128 ![] bcast_S_S64x128 (constant (F := Ideal) S_ .f32 0x40000000#32)) a)

/-- The first layer's output rows. -/
def layer1 (x : (⟨S40000x512, .f32⟩ : BufTy).Contents (Elt Ideal)) (src dst : (⟨S640000, .i32⟩ : BufTy).Contents (Elt Ideal))
    (W1 : (⟨S512x128, .f32⟩ : BufTy).Contents (Elt Ideal)) (b1 : (⟨S128, .f32⟩ : BufTy).Contents (Elt Ideal)) :
    (⟨S40000x128, .f32⟩ : BufTy).Contents (Elt Ideal) :=
  Cert.GcnSpec.post (aggr src dst (Cert.GcnSpec.proj (K := 512) x (col (isq src)) W1)) (col (isq dst)) (row b1)

/-- The second layer's output rows, from the first's. -/
def layer2 (h1 : (⟨S40000x128, .f32⟩ : BufTy).Contents (Elt Ideal)) (src dst : (⟨S640000, .i32⟩ : BufTy).Contents (Elt Ideal))
    (W2 : (⟨S128x128, .f32⟩ : BufTy).Contents (Elt Ideal)) (b2 : (⟨S128, .f32⟩ : BufTy).Contents (Elt Ideal)) :
    (⟨S40000x128, .f32⟩ : BufTy).Contents (Elt Ideal) :=
  Cert.GcnSpec.post (aggr src dst (Cert.GcnSpec.proj (K := 128) h1 (col (isq src)) W2)) (col (isq dst)) (row b2)

/-- The whole network as the kernel's program computes it. -/
def kernelOut (x : (⟨S40000x512, .f32⟩ : BufTy).Contents (Elt Ideal)) (src dst : (⟨S640000, .i32⟩ : BufTy).Contents (Elt Ideal))
    (batch : (⟨S40000, .i32⟩ : BufTy).Contents (Elt Ideal)) (W1 : (⟨S512x128, .f32⟩ : BufTy).Contents (Elt Ideal))
    (b1 : (⟨S128, .f32⟩ : BufTy).Contents (Elt Ideal)) (W2 : (⟨S128x128, .f32⟩ : BufTy).Contents (Elt Ideal))
    (b2 : (⟨S128, .f32⟩ : BufTy).Contents (Elt Ideal)) : (⟨S64x128, .f32⟩ : BufTy).Contents (Elt Ideal) :=
  combine
    (pooled (Cert.GcnSpec.poolParts (onehot batch) (layer1 x src dst W1 b1)) batch)
    (pooled (Cert.GcnSpec.poolParts (onehot batch) (layer2 (layer1 x src dst W1 b1) src dst W2 b2)) batch)

end Cert.KernelIdeal.HostVal

end
-- ==== Proof.Region0.lean ====
/-
  Region 0, the first projection, read as a value: the ten row blocks of 4000 nodes that the grid writes back are
  the rows of ONE array, the scaled projection of the whole feature array.
-/
import proofs.«417829_j5978594476289_3_alg».proof.Proof.Gen.KernelIdeal.Frame
import proofs.«417829_j5978594476289_3_alg».proof.Proof.GcnSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

-- the contents of the TensorCore's buffers when the region is entered: any
variable (V : (c : Dev nD) → (b : Ref sig .tc) → Buf (Elt Ideal) ((c : Thread nD τ).loc b))

/-! ## The body's payload at an index -/

/-- The one-column factor spread over the 512 lanes of its row: lane `k` of row `p` reads the column's row `p`. -/
theorem column_spread_apply (v : FVec Ideal S4000x1 .f32) (p : Fin 4000) (k : Fin 512) :
    broadcastTo S4000x512 v broadcasts_S4000x1_S4000x512 (ix2 p k) = v (ix2 p 0) :=
  broadcastTo_apply v broadcasts_S4000x1_S4000x512 (ix2 p k) (ix2 p 0) (fun a => match a with
    | ⟨0, _⟩ => by show p.val = if (4000 : Nat) = 1 then 0 else p.val; rw [if_neg (by decide)]
    | ⟨1, _⟩ => by show (0 : Nat) = if (1 : Nat) = 1 then 0 else k.val; rw [if_pos rfl])

/-- The product's left operand is read at the output's row -/
theorem lhs_row (i : S4000x128.Idx) (q : dot_S4000x512_S512x128_S4000x128_1_0_0_1_n_n.contr.Idx) :
    (dot_S4000x512_S512x128_S4000x128_1_0_0_1_n_n.lhsIdx i q 0).val = (i 0).val := by
  unfold DotDims.lhsIdx
  rw [dif_neg (show ¬(0 : Fin S4000x512.rank) ∈ dot_S4000x512_S512x128_S4000x128_1_0_0_1_n_n.lhsBatch by decide), dif_pos (show (0 : Fin S4000x512.rank) ∈ dot_S4000x512_S512x128_S4000x128_1_0_0_1_n_n.lhsNonContracting by decide)]
  rfl
/-- and the summation index, -/
theorem lhs_lane (i : S4000x128.Idx) (q : dot_S4000x512_S512x128_S4000x128_1_0_0_1_n_n.contr.Idx) :
    (dot_S4000x512_S512x128_S4000x128_1_0_0_1_n_n.lhsIdx i q 1).val = (q ⟨0, by decide⟩).val :=
  dot_S4000x512_S512x128_S4000x128_1_0_0_1_n_n.lhsIdx_val_of_single rfl i q
/-- the right operand at the summation index -/
theorem rhs_row (i : S4000x128.Idx) (q : dot_S4000x512_S512x128_S4000x128_1_0_0_1_n_n.contr.Idx) :
    (dot_S4000x512_S512x128_S4000x128_1_0_0_1_n_n.rhsIdx i q 0).val = (q ⟨0, by decide⟩).val :=
  dot_S4000x512_S512x128_S4000x128_1_0_0_1_n_n.rhsIdx_val_of_single rfl i q
/-- and the output's column. -/
theorem rhs_col (i : S4000x128.Idx) (q : dot_S4000x512_S512x128_S4000x128_1_0_0_1_n_n.contr.Idx) :
    (dot_S4000x512_S512x128_S4000x128_1_0_0_1_n_n.rhsIdx i q 1).val = (i 1).val := by
  unfold DotDims.rhsIdx
  rw [dif_neg (show ¬(1 : Fin S512x128.rank) ∈ dot_S4000x512_S512x128_S4000x128_1_0_0_1_n_n.rhsBatch by decide), dif_pos (show (1 : Fin S512x128.rank) ∈ dot_S4000x512_S512x128_S4000x128_1_0_0_1_n_n.rhsNonContracting by decide)]
  rfl

/-- One block's payload at row `p`, column `q`: the sum over the 512 features `k` of (feature × the row's factor) × weight.
    The format changes are the identity on ideal values and the accumulator is zero. -/
theorem pay_apply (x0 : Vec Ideal S4000x512 .f32) (x1 : Vec Ideal S4000x1 .f32) (x2 : Vec Ideal S512x128 .f32)
    (p : Fin 4000) (q : Fin 128) :
    (k0_pay1 (F := Ideal) x0 x1 x2) (ix2 p q) = ∑ k : Fin 512, (x0 (ix2 p k) * x1 (ix2 p 0)) * x2 (ix2 k q) := by
  unfold k0_pay1
  simp only [shapeCast_self, matmul]
  rw [Ideal.matmul_constant_zero_apply,
    ← Equiv.sum_comp (contrEquiv1 dot_S4000x512_S512x128_S4000x128_1_0_0_1_n_n 512 rfl rfl).symm]
  refine Finset.sum_congr rfl fun k _ => ?_
  have hk := contrEquiv1_symm_val dot_S4000x512_S512x128_S4000x128_1_0_0_1_n_n 512 rfl rfl k
  have el : dot_S4000x512_S512x128_S4000x128_1_0_0_1_n_n.lhsIdx (ix2 p q)
      ((contrEquiv1 dot_S4000x512_S512x128_S4000x128_1_0_0_1_n_n 512 rfl rfl).symm k) = ix2 p k :=
    funext fun a => Fin.ext (by
      match a with
      | ⟨0, _⟩ => exact lhs_row _ _
      | ⟨1, _⟩ => exact (lhs_lane _ _).trans hk)
  have er : dot_S4000x512_S512x128_S4000x128_1_0_0_1_n_n.rhsIdx (ix2 p q)
      ((contrEquiv1 dot_S4000x512_S512x128_S4000x128_1_0_0_1_n_n 512 rfl rfl).symm k) = ix2 k q :=
    funext fun a => Fin.ext (by
      match a with
      | ⟨0, _⟩ => exact (rhs_row _ _).trans hk
      | ⟨1, _⟩ => exact rhs_col _ _)
  rw [el, er, truncf_apply, truncf_apply, mulf_apply, column_spread_apply]

/-! ## One block: the payload of the loaded blocks is the projection's rows -/

/-- The offset of a whole-buffer access. -/
theorem origin2 : (![0, 0] : Fin 2 → Nat) = fun _ => 0 :=
  funext fun a => match a with | ⟨0, _⟩ => rfl | ⟨1, _⟩ => rfl

/-- Row `p` of row block `b` is node `b · 4000 + p`. -/
abbrev rowOf (b : Fin 10) (p : Fin 4000) : Fin 40000 := Cert.GcnSpec.nodeOf (T := 10) (R := 4000) (by decide) b p

/-- If the three loaded blocks are row block `b` of the features, row block `b` of the factors and all of the weights, the
    payload at row `p`, column `q` is the scaled projection at node `b · 4000 + p`, column `q`. -/
theorem pay_eq_proj (X : FVec Ideal ⟨2, ![40000, 512]⟩ .f32) (s : FVec Ideal ⟨2, ![40000, 1]⟩ .f32)
    (W : FVec Ideal ⟨2, ![512, 128]⟩ .f32) (b : Fin 10)
    (x0 : Vec Ideal S4000x512 .f32) (x1 : Vec Ideal S4000x1 .f32) (x2 : Vec Ideal S512x128 .f32)
    (h0 : ∀ (p : Fin 4000) (k : Fin 512), x0 (ix2 p k) = X (ix2 (rowOf b p) k))
    (h1 : ∀ p : Fin 4000, x1 (ix2 p 0) = s (ix2 (rowOf b p) 0))
    (h2 : ∀ (k : Fin 512) (q : Fin 128), x2 (ix2 k q) = W (ix2 k q))
    (p : Fin 4000) (q : Fin 128) :
    (k0_pay1 (F := Ideal) x0 x1 x2) (ix2 p q) = Cert.GcnSpec.proj (K := 512) X s W (ix2 (rowOf b p) q) := by
  rw [pay_apply]
  show _ = ∑ k : Fin 512, (X (ix2 (rowOf b p) k) * s (ix2 (rowOf b p) 0)) * W (ix2 k q)
  exact Finset.sum_congr rfl fun k _ => by rw [h0, h1, h2]

/-! ## The blocks' places in their arrays -/

/-- The index maps over the grid: at point `t` the features', the factors' and the output's block is row block `t`,
    column block 0; the weights' is the whole matrix. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A point of the grid as a row-block number. -/
def blockOf (t : Fin cfg0.N) : Fin 10 := ⟨t.val, by have h : t.val < grid0.N := t.isLt; rw [N_0] at h; exact h⟩

/-! ## What a point writes back -/

/-- Point `t` writes back row block `t` of the scaled projection of the arrays as the region finds them: the output's
    block and the features' and factors' blocks sit at the same rows, and the weights' block is the whole matrix. -/
theorem flushed_eq (c : Dev nD) (t : Fin cfg0.N) :
    (dat0 (F := Ideal) V c).flushed 3 t
      = ((cfg0.win 3).blk t).view.read (Elt Ideal)
          (Cert.GcnSpec.proj (K := 512) (V c main_arg0) (V c main_v27) (V c main_arg4)) := by
  show (cfg0.win 3).cut (grid0.coords t) ((dat0 (F := Ideal) V c).after 3 t) = _
  rw [after0_3]
  unfold out0_3
  rw [View.canon_unit_zero origin2]
  simp only [View.ld_unit_zero (S := S4000x512) origin2, View.ld_unit_zero (S := S4000x1) origin2,
    View.ld_unit_zero (S := S512x128) origin2]
  obtain ⟨e00, e01, e10, e11, e20, e21, e30, e31⟩ := index_facts t
  have h0 : ∀ (p : Fin 4000) (k : Fin 512),
      iblk0 (F := Ideal) V c 0 t (ix2 p k) = V c main_arg0 (ix2 (rowOf (blockOf t) p) k) := fun p k => by
    show V c main_arg0 (((cfg0.win 0).blk t).view.emb (ix2 p k)) = _
    refine congrArg _ (funext fun a => Fin.ext ?_)
    match a with
    | ⟨0, _⟩ => show win0_0.index t (0 : Fin 2) * 4000 + 1 * p.val = t.val * 4000 + p.val; omega
    | ⟨1, _⟩ => show win0_0.index t (1 : Fin 2) * 512 + 1 * k.val = k.val; omega
  have h1 : ∀ p : Fin 4000,
      iblk0 (F := Ideal) V c 1 t (ix2 p 0) = V c main_v27 (ix2 (rowOf (blockOf t) p) 0) := fun p => by
    show V c main_v27 (((cfg0.win 1).blk t).view.emb (ix2 p 0)) = _
    refine congrArg _ (funext fun a => Fin.ext ?_)
    match a with
    | ⟨0, _⟩ => show win0_1.index t (0 : Fin 2) * 4000 + 1 * p.val = t.val * 4000 + p.val; omega
    | ⟨1, _⟩ => show win0_1.index t (1 : Fin 2) * 1 + 1 * 0 = 0; omega
  have h2 : ∀ (k : Fin 512) (q : Fin 128),
      iblk0 (F := Ideal) V c 2 t (ix2 k q) = V c main_arg4 (ix2 k q) := fun k q => by
    show V c main_arg4 (((cfg0.win 2).blk t).view.emb (ix2 k q)) = _
    refine congrArg _ (funext fun a => Fin.ext ?_)
    match a with
    | ⟨0, _⟩ => show win0_2.index t (0 : Fin 2) * 512 + 1 * k.val = k.val; omega
    | ⟨1, _⟩ => show win0_2.index t (1 : Fin 2) * 128 + 1 * q.val = q.val; omega
  funext j
  obtain ⟨p, q, rfl⟩ : ∃ (p : Fin 4000) (q : Fin 128), j = ix2 p q := ⟨j 0, j 1, eq_ix2 j⟩
  refine (pay_eq_proj (V c main_arg0) (V c main_v27) (V c main_arg4) (blockOf t) _ _ _ h0 h1 h2 p q).trans ?_
  show Cert.GcnSpec.proj (K := 512) (V c main_arg0) (V c main_v27) (V c main_arg4) (ix2 (rowOf (blockOf t) p) q)
    = Cert.GcnSpec.proj (K := 512) (V c main_arg0) (V c main_v27) (V c main_arg4) (((cfg0.win 3).blk t).view.emb (ix2 p q))
  refine congrArg _ (funext fun a => Fin.ext ?_)
  match a with
  | ⟨0, _⟩ => show t.val * 4000 + p.val = win0_3.index t (0 : Fin 2) * 4000 + 1 * p.val; omega
  | ⟨1, _⟩ => show q.val = win0_3.index t (1 : Fin 2) * 128 + 1 * q.val; omega

/-! ## The blocks tile the array -/

/-- An index of the output array is in point `t`'s block iff each coordinate is in the block's range on its axis. -/
theorem mem_block (t : Fin cfg0.N) (i : S40000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v28).slice (win0_3.rect t)).set ↔ _
  rw [View.set_slice_whole, Rect.mem_set_unit]
  exact Iff.rfl

/-- Node `n` is a row of row block `n / 4000`, which the point of that number writes back: every index is covered. -/
theorem covered (i : S40000x128.Idx) :
    ∃ t : Fin cfg0.N, (cfg0.win 3).flush t = true ∧ i ∈ ((cfg0.win 3).blk t).view.set := by
  have hi0 : (i 0).val < 40000 := (i 0).isLt
  have hi1 : (i 1).val < 128 := (i 1).isLt
  have ht : (i 0).val / 4000 < grid0.N := by rw [N_0]; omega
  obtain ⟨e00, e01, e10, e11, e20, e21, e30, e31⟩ := index_facts ⟨(i 0).val / 4000, ht⟩
  refine ⟨⟨(i 0).val / 4000, ht⟩, flush0_3 _, ?_⟩
  rw [mem_block]
  intro a
  match a with
  | ⟨0, _⟩ =>
    show win0_3.index ⟨(i 0).val / 4000, ht⟩ (0 : Fin 2) * 4000 ≤ (i 0).val
      ∧ (i 0).val < win0_3.index ⟨(i 0).val / 4000, ht⟩ (0 : Fin 2) * 4000 + 4000
    rw [e30]
    show (i 0).val / 4000 * 4000 ≤ (i 0).val ∧ (i 0).val < (i 0).val / 4000 * 4000 + 4000
    omega
  | ⟨1, _⟩ =>
    show win0_3.index ⟨(i 0).val / 4000, ht⟩ (1 : Fin 2) * 128 ≤ (i 1).val
      ∧ (i 1).val < win0_3.index ⟨(i 0).val / 4000, ht⟩ (1 : Fin 2) * 128 + 128
    rw [e31]
    omega

/-- After the region its output array holds, at node `n` and column `d`, the sum over `k` of
    `x n k · s n · W k d`: each block is that function on its own 4000 rows, and the blocks tile the array. -/
theorem arr0_3 (c : Dev nD) :
    (dat0 (F := Ideal) V c).arrAt 3 cfg0.N
      = Cert.GcnSpec.proj (K := 512) (V c main_arg0) (V c main_v27) (V c main_arg4) :=
  (dat0 (F := Ideal) V c).arrAt_eq_of_cover 3
    (Cert.GcnSpec.proj (K := 512) (V c main_arg0) (V c main_v27) (V c main_arg4))
    (fun t _ => flushed_eq V c t) covered

end Cert.KernelIdeal.Region0

end
-- ==== Proof.Region1Proj.lean ====
/-
  Region 1's projection output, read as a value. Its grid is 2 halves × 10 tiles of 2000 nodes, point `t` working on tile
  `t`; at each point the body forms the layer's output rows of the tile, `h = max (A · s_in + b) 0`, scales row `n` by
  `s_out n` and multiplies by the weight matrix, and stores the product as the tile's rows of the output. Whether the point
  is the first of its half changes only the pooled window, not this one. So each block is the scaled projection of the
  whole layer output on its own 2000 rows, and the twenty blocks tile the array.
-/
import proofs.«417829_j5978594476289_3_alg».proof.Proof.Gen.KernelIdeal.Frame
import proofs.«417829_j5978594476289_3_alg».proof.Proof.GcnSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Region1Proj

open Cert.KernelIdeal Cert.KernelIdeal.Gen

/-- The offset of a whole-buffer access. -/
theorem origin2 : (![0, 0] : Fin 2 → Nat) = fun _ => 0 :=
  funext fun a => match a with | ⟨0, _⟩ => rfl | ⟨1, _⟩ => rfl

/-! ## What either case of the body leaves in the projection window: one store, the product of the loaded blocks -/

section Pieces
variable {F : FTy → Type} [FloatOps F]

/-- At a half's first point. -/
theorem out_A_6 (c : Dev nD) (i : grid1.Coords) (a2 : Memref sig .tc .vmem S2000x128 .f32) (h2 : a2.IsWhole) (a3 : Memref sig .tc .vmem S2000x1 .f32) (h3 : a3.IsWhole) (a4 : Memref sig .tc .vmem S1x128 .f32) (h4 : a4.IsWhole) (a5 : Memref sig .tc .vmem S2000x64 .bf16) (h5 : a5.IsWhole) (a6 : Memref sig .tc .vmem S2000x1 .f32) (h6 : a6.IsWhole) (a7 : Memref sig .tc .vmem S128x128 .f32) (h7 : a7.IsWhole) (a8 : Memref sig .tc .vmem S2000x128 .f32) (h8 : a8.IsWhole) (a9 : Memref sig .tc .vmem S1x64x128 .f32) (h9 : a9.IsWhole) (hc : cond1_0 i) (x0 : Vec F S2000x128 .f32) (x1 : Vec F S2000x1 .f32) (x2 : Vec F S1x128 .f32) (x3 : Vec F S2000x64 .bf16) (x4 : Vec F S2000x1 .f32) (x5 : Vec F S128x128 .f32) :
    out1_A_6 c i a2 h2 a3 h3 a4 h4 a5 h5 a6 h6 a7 h7 a8 h8 a9 h9 hc x0 x1 x2 x3 x4 x5 = k1_pay4 x0 x1 x2 x4 x5 := by
  unfold out1_A_6
  rw [View.read_writes_eq_canon _ _ _ (cover1_A_6 c i a2 h2 a3 h3 a4 h4 a5 h5 a6 h6 a7 h7 a8 h8 a9 h9 hc x0 x1 x2 x3 x4 x5)]
  unfold kernelRun1_A
  dsimp only
  sl_unfold_words
  rw [View.canon_unit_zero origin2]
  simp only [View.readAt_eq_ld, h2.read_unread, h3.read_unread, h4.read_unread, h6.read_unread, h7.read_unread,
    View.ld_unit_zero (S := S2000x128) origin2, View.ld_unit_zero (S := S2000x1) origin2,
    View.ld_unit_zero (S := S1x128) origin2, View.ld_unit_zero (S := S128x128) origin2]

/-- At every other point (whatever the pooled window holds). -/
theorem out_B_6 (c : Dev nD) (i : grid1.Coords) (a2 : Memref sig .tc .vmem S2000x128 .f32) (h2 : a2.IsWhole) (a3 : Memref sig .tc .vmem S2000x1 .f32) (h3 : a3.IsWhole) (a4 : Memref sig .tc .vmem S1x128 .f32) (h4 : a4.IsWhole) (a5 : Memref sig .tc .vmem S2000x64 .bf16) (h5 : a5.IsWhole) (a6 : Memref sig .tc .vmem S2000x1 .f32) (h6 : a6.IsWhole) (a7 : Memref sig .tc .vmem S128x128 .f32) (h7 : a7.IsWhole) (a8 : Memref sig .tc .vmem S2000x128 .f32) (h8 : a8.IsWhole) (a9 : Memref sig .tc .vmem S1x64x128 .f32) (h9 : a9.IsWhole) (hc : ¬cond1_0 i) (x0 : Vec F S2000x128 .f32) (x1 : Vec F S2000x1 .f32) (x2 : Vec F S1x128 .f32) (x3 : Vec F S2000x64 .bf16) (x4 : Vec F S2000x1 .f32) (x5 : Vec F S128x128 .f32) (xo7 : Vec F S1x64x128 .f32) :
    out1_B_6 c i a2 h2 a3 h3 a4 h4 a5 h5 a6 h6 a7 h7 a8 h8 a9 h9 hc x0 x1 x2 x3 x4 x5 xo7 = k1_pay4 x0 x1 x2 x4 x5 := by
  unfold out1_B_6
  rw [View.read_writes_eq_canon _ _ _ (cover1_B_6 c i a2 h2 a3 h3 a4 h4 a5 h5 a6 h6 a7 h7 a8 h8 a9 h9 hc x0 x1 x2 x3 x4 x5 xo7)]
  unfold kernelRun1_B
  dsimp only
  sl_unfold_words
  rw [View.canon_unit_zero origin2]
  simp only [View.readAt_eq_ld, h2.read_unread, h3.read_unread, h4.read_unread, h6.read_unread, h7.read_unread,
    View.ld_unit_zero (S := S2000x128) origin2, View.ld_unit_zero (S := S2000x1) origin2,
    View.ld_unit_zero (S := S1x128) origin2, View.ld_unit_zero (S := S128x128) origin2]

end Pieces

/-! ## The product at an index -/

/-- A one-column factor spread over the 128 lanes of its row: lane `k` of row `p` reads the column's row `p`. -/
theorem column_spread_apply (v : FVec Ideal S2000x1 .f32) (p : Fin 2000) (k : Fin 128) :
    broadcastTo S2000x128 v broadcasts_S2000x1_S2000x128 (ix2 p k) = v (ix2 p 0) :=
  broadcastTo_apply v broadcasts_S2000x1_S2000x128 (ix2 p k) (ix2 p 0) (fun a => match a with
    | ⟨0, _⟩ => by show p.val = if (2000 : Nat) = 1 then 0 else p.val; rw [if_neg (by decide)]
    | ⟨1, _⟩ => by show (0 : Nat) = if (1 : Nat) = 1 then 0 else k.val; rw [if_pos rfl])

/-- The bias row spread over the 2000 rows: row `p`, lane `k` reads the bias at `k`. -/
theorem row_spread_apply (v : FVec Ideal S1x128 .f32) (p : Fin 2000) (k : Fin 128) :
    broadcastTo S2000x128 v broadcasts_S1x128_S2000x128 (ix2 p k) = v (ix2 0 k) :=
  broadcastTo_apply v broadcasts_S1x128_S2000x128 (ix2 p k) (ix2 0 k) (fun a => match a with
    | ⟨0, _⟩ => by show (0 : Nat) = if (1 : Nat) = 1 then 0 else p.val; rw [if_pos rfl]
    | ⟨1, _⟩ => by show k.val = if (128 : Nat) = 1 then 0 else k.val; rw [if_neg (by decide)])

/-- The layer's output rows of a tile, at row `p` and lane `k`: scale, add the bias, clamp at zero. -/
theorem relu_apply (v3 : Vec Ideal S2000x128 .f32) (v5 : Vec Ideal S2000x1 .f32) (v9 : Vec Ideal S1x128 .f32)
    (p : Fin 2000) (k : Fin 128) :
    (k1_pay2 (F := Ideal) v3 v5 v9) (ix2 p k) = max (v3 (ix2 p k) * v5 (ix2 p 0) + v9 (ix2 0 k)) 0 := by
  unfold k1_pay2
  simp only [shapeCast_self]
  rw [maximumf_apply, addf_apply, mulf_apply, column_spread_apply, row_spread_apply, broadcast_apply]
  exact congrArg (max _) Ideal.ofBits_zero_f32

/-- The product's left operand is read at the output's row -/
theorem lhs_row (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- and the summation index, -/
theorem lhs_lane (i : S2000x128.Idx) (q : dot_S2000x128_S128x128_S2000x128_1_0_0_1_n_n.contr.Idx) : (dot_S2000x128_S128x128_S2000x128_1_0_0_1_n_n.lhsIdx i q 1).val = (q ⟨0, by decide⟩).val :=
  dot_S2000x128_S128x128_S2000x128_1_0_0_1_n_n.lhsIdx_val_of_single rfl i q
/-- the right operand at the summation index -/
theorem rhs_row (i : S2000x128.Idx) (q : dot_S2000x128_S128x128_S2000x128_1_0_0_1_n_n.contr.Idx) : (dot_S2000x128_S128x128_S2000x128_1_0_0_1_n_n.rhsIdx i q 0).val = (q ⟨0, by decide⟩).val :=
  dot_S2000x128_S128x128_S2000x128_1_0_0_1_n_n.rhsIdx_val_of_single rfl i q
/-- and the output's column. -/
theorem rhs_col (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- One tile's product at row `p`, column `q`: the sum over the 128 features `k` of (output row × the row's factor) × weight.
    The format changes are the identity on ideal values and the accumulator is zero. -/
theorem pay_apply (v3 : Vec Ideal S2000x128 .f32) (v5 : Vec Ideal S2000x1 .f32) (v9 : Vec Ideal S1x128 .f32)
    (v25 : Vec Ideal S2000x1 .f32) (v30 : Vec Ideal S128x128 .f32) (p : Fin 2000) (q : Fin 128) :
    (k1_pay4 (F := Ideal) v3 v5 v9 v25 v30) (ix2 p q)
      = ∑ k : Fin 128, (max (v3 (ix2 p k) * v5 (ix2 p 0) + v9 (ix2 0 k)) 0 * v25 (ix2 p 0)) * v30 (ix2 k q) := by
  unfold k1_pay4
  simp only [shapeCast_self, matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k :=
    funext fun a => Fin.ext (by
      match a with
      | ⟨0, _⟩ => exact lhs_row _ _
      | ⟨1, _⟩ => exact (lhs_lane _ _).trans hk)
  have er : dot_S2000x128_S128x128_S2000x128_1_0_0_1_n_n.rhsIdx (ix2 p q) ((contrEquiv1 dot_S2000x128_S128x128_S2000x128_1_0_0_1_n_n 128 rfl rfl).symm k) = ix2 k q :=
    funext fun a => Fin.ext (by
      match a with
      | ⟨0, _⟩ => exact (rhs_row _ _).trans hk
      | ⟨1, _⟩ => exact rhs_col _ _)
  rw [el, er, truncf_apply, truncf_apply, mulf_apply, column_spread_apply, relu_apply]

/-- Row `p` of tile `b` is node `b · 2000 + p`. -/
abbrev rowOf (b : Fin 20) (p : Fin 2000) : Fin 40000 := Cert.GcnSpec.nodeOf (T := 20) (R := 2000) (by decide) b p

/-- If the five loaded blocks are tile `b` of the neighbourhood sums and of the two factor columns, and all of the bias row
    and of the weights, the product at row `p`, column `q` is the scaled projection of the layer output at node
    `b · 2000 + p`, column `q`. -/
theorem pay_eq_proj (A : FVec Ideal ⟨2, ![40000, 128]⟩ .f32) (si : FVec Ideal ⟨2, ![40000, 1]⟩ .f32)
    (bb : FVec Ideal ⟨2, ![1, 128]⟩ .f32) (so : FVec Ideal ⟨2, ![40000, 1]⟩ .f32) (W : FVec Ideal ⟨2, ![128, 128]⟩ .f32)
    (b : Fin 20) (v3 : Vec Ideal S2000x128 .f32) (v5 : Vec Ideal S2000x1 .f32) (v9 : Vec Ideal S1x128 .f32)
    (v25 : Vec Ideal S2000x1 .f32) (v30 : Vec Ideal S128x128 .f32)
    (h3 : ∀ (p : Fin 2000) (k : Fin 128), v3 (ix2 p k) = A (ix2 (rowOf b p) k))
    (h5 : ∀ p : Fin 2000, v5 (ix2 p 0) = si (ix2 (rowOf b p) 0))
    (h9 : ∀ k : Fin 128, v9 (ix2 0 k) = bb (ix2 0 k))
    (h25 : ∀ p : Fin 2000, v25 (ix2 p 0) = so (ix2 (rowOf b p) 0))
    (h30 : ∀ (k : Fin 128) (q : Fin 128), v30 (ix2 k q) = W (ix2 k q))
    (p : Fin 2000) (q : Fin 128) :
    (k1_pay4 (F := Ideal) v3 v5 v9 v25 v30) (ix2 p q)
      = Cert.GcnSpec.proj (K := 128) (Cert.GcnSpec.post A si bb) so W (ix2 (rowOf b p) q) := by
  rw [pay_apply]
  show _ = ∑ k : Fin 128, (max (A (ix2 (rowOf b p) k) * si (ix2 (rowOf b p) 0) + bb (ix2 0 k)) 0 * so (ix2 (rowOf b p) 0)) * W (ix2 k q)
  exact Finset.sum_congr rfl fun k _ => by rw [h3, h5, h9, h25, h30]

/-! ## The blocks' places in their arrays, and what a point writes back -/

-- the contents of the TensorCore's buffers when the region is entered: any
variable (V : (c : Dev nD) → (b : Ref sig .tc) → Buf (Elt Ideal) ((c : Thread nD τ).loc b))

/-- The index maps over the grid: at point `t` the per-node windows' block is row block `t`, column block 0; the bias row's and
    the weights' is the whole array. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- A point of the grid as a tile number. -/
def tileOf (t : Fin cfg1.N) : Fin 20 := ⟨t.val, by have h : t.val < grid1.N := t.isLt; rw [N_1] at h; exact h⟩

/-- After the body at point `t` the projection window's buffer holds the product of the point's blocks, at a half's first
    point and at the others alike. -/
theorem after6 (c : Dev nD) (t : Fin cfg1.N) :
    (dat1 (F := Ideal) V c).after 6 t
      = k1_pay4 (F := Ideal) (iblk1 V c 0 t) (iblk1 V c 1 t) (iblk1 V c 2 t) (iblk1 V c 4 t) (iblk1 V c 5 t) := by
  rw [after1_6]
  by_cases h0 : t.val % 10 = 0
  · rw [outsAt1_A V c t h0]
    dsimp only
    exact out_A_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0)
      (iblk1 V c 0 t) (iblk1 V c 1 t) (iblk1 V c 2 t) (iblk1 V c 3 t) (iblk1 V c 4 t) (iblk1 V c 5 t)
  · rw [outsAt1_B V c t h0]
    dsimp only
    exact out_B_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h))
      (iblk1 V c 0 t) (iblk1 V c 1 t) (iblk1 V c 2 t) (iblk1 V c 3 t) (iblk1 V c 4 t) (iblk1 V c 5 t)
      (outsAt1 V c (t.val - 1) (Nat.lt_of_le_of_lt (Nat.sub_le _ _) t.isLt)).2

/-- Point `t` writes back tile `t`'s rows of the scaled projection of the layer output of the arrays as the region finds them. -/
theorem flushed_eq (c : Dev nD) (t : Fin cfg1.N) :
    (dat1 (F := Ideal) V c).flushed 6 t
      = ((cfg1.win 6).blk t).view.read (Elt Ideal)
          (Cert.GcnSpec.proj (K := 128) (Cert.GcnSpec.post (V c main_v38) (V c main_v39) (V c main_v41)) (V c main_v40) (V c main_arg6)) := by
  show (cfg1.win 6).cut (grid1.coords t) ((dat1 (F := Ideal) V c).after 6 t) = _
  rw [after6]
  obtain ⟨e00, e01, e10, e11, e20, e21, e40, e41, e50, e51, e60, e61⟩ := index_facts t
  have h3 : ∀ (p : Fin 2000) (k : Fin 128),
      iblk1 (F := Ideal) V c 0 t (ix2 p k) = V c main_v38 (ix2 (rowOf (tileOf t) p) k) := fun p k => by
    show V c main_v38 (((cfg1.win 0).blk t).view.emb (ix2 p k)) = _
    refine congrArg _ (funext fun a => Fin.ext ?_)
    match a with
    | ⟨0, _⟩ => show win1_0.index t (0 : Fin 2) * 2000 + 1 * p.val = t.val * 2000 + p.val; omega
    | ⟨1, _⟩ => show win1_0.index t (1 : Fin 2) * 128 + 1 * k.val = k.val; omega
  have h5 : ∀ p : Fin 2000,
      iblk1 (F := Ideal) V c 1 t (ix2 p 0) = V c main_v39 (ix2 (rowOf (tileOf t) p) 0) := fun p => by
    show V c main_v39 (((cfg1.win 1).blk t).view.emb (ix2 p 0)) = _
    refine congrArg _ (funext fun a => Fin.ext ?_)
    match a with
    | ⟨0, _⟩ => show win1_1.index t (0 : Fin 2) * 2000 + 1 * p.val = t.val * 2000 + p.val; omega
    | ⟨1, _⟩ => show win1_1.index t (1 : Fin 2) * 1 + 1 * 0 = 0; omega
  have h9 : ∀ k : Fin 128,
      iblk1 (F := Ideal) V c 2 t (ix2 0 k) = V c main_v41 (ix2 0 k) := fun k => by
    show V c main_v41 (((cfg1.win 2).blk t).view.emb (ix2 0 k)) = _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * k.val = k.val; omega
  have h25 : ∀ p : Fin 2000,
      iblk1 (F := Ideal) V c 4 t (ix2 p 0) = V c main_v40 (ix2 (rowOf (tileOf t) p) 0) := fun p => by
    show V c main_v40 (((cfg1.win 4).blk t).view.emb (ix2 p 0)) = _
    refine congrArg _ (funext fun a => Fin.ext ?_)
    match a with
    | ⟨0, _⟩ => show win1_4.index t (0 : Fin 2) * 2000 + 1 * p.val = t.val * 2000 + p.val; omega
    | ⟨1, _⟩ => show win1_4.index t (1 : Fin 2) * 1 + 1 * 0 = 0; omega
  have h30 : ∀ (k : Fin 128) (q : Fin 128),
      iblk1 (F := Ideal) V c 5 t (ix2 k q) = V c main_arg6 (ix2 k q) := fun k q => by
    show V c main_arg6 (((cfg1.win 5).blk t).view.emb (ix2 k q)) = _
    refine congrArg _ (funext fun a => Fin.ext ?_)
    match a with
    | ⟨0, _⟩ => show win1_5.index t (0 : Fin 2) * 128 + 1 * k.val = k.val; omega
    | ⟨1, _⟩ => show win1_5.index t (1 : Fin 2) * 128 + 1 * q.val = q.val; omega
  funext j
  obtain ⟨p, q, rfl⟩ : ∃ (p : Fin 2000) (q : Fin 128), j = ix2 p q := ⟨j 0, j 1, eq_ix2 j⟩
  refine (pay_eq_proj (V c main_v38) (V c main_v39) (V c main_v41) (V c main_v40) (V c main_arg6) (tileOf t)
    _ _ _ _ _ h3 h5 h9 h25 h30 p q).trans ?_
  show Cert.GcnSpec.proj (K := 128) (Cert.GcnSpec.post (V c main_v38) (V c main_v39) (V c main_v41)) (V c main_v40) (V c main_arg6) (ix2 (rowOf (tileOf t) p) q)
    = Cert.GcnSpec.proj (K := 128) (Cert.GcnSpec.post (V c main_v38) (V c main_v39) (V c main_v41)) (V c main_v40) (V c main_arg6) (((cfg1.win 6).blk t).view.emb (ix2 p q))
  refine congrArg _ (funext fun a => Fin.ext ?_)
  match a with
  | ⟨0, _⟩ => show t.val * 2000 + p.val = win1_6.index t (0 : Fin 2) * 2000 + 1 * p.val; omega
  | ⟨1, _⟩ => show q.val = win1_6.index t (1 : Fin 2) * 128 + 1 * q.val; omega

/-! ## The blocks tile the array -/

/-- An index of the output array is in point `t`'s block iff each coordinate is in the block's range on its axis. -/
theorem mem_block (t : Fin cfg1.N) (i : S40000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v42_0).slice (win1_6.rect t)).set ↔ _
  rw [View.set_slice_whole, Rect.mem_set_unit]
  exact Iff.rfl

/-- Node `n` is a row of tile `n / 2000`, which the point of that number writes back: every index is covered. -/
theorem covered (i : S40000x128.Idx) :
    ∃ t : Fin cfg1.N, (cfg1.win 6).flush t = true ∧ i ∈ ((cfg1.win 6).blk t).view.set := by
  have hi0 : (i 0).val < 40000 := (i 0).isLt
  have hi1 : (i 1).val < 128 := (i 1).isLt
  have ht : (i 0).val / 2000 < grid1.N := by rw [N_1]; omega
  obtain ⟨e00, e01, e10, e11, e20, e21, e40, e41, e50, e51, e60, e61⟩ := index_facts ⟨(i 0).val / 2000, ht⟩
  refine ⟨⟨(i 0).val / 2000, ht⟩, flush1_6 _, ?_⟩
  rw [mem_block]
  intro a
  match a with
  | ⟨0, _⟩ =>
    show win1_6.index ⟨(i 0).val / 2000, ht⟩ (0 : Fin 2) * 2000 ≤ (i 0).val
      ∧ (i 0).val < win1_6.index ⟨(i 0).val / 2000, ht⟩ (0 : Fin 2) * 2000 + 2000
    rw [e60]
    show (i 0).val / 2000 * 2000 ≤ (i 0).val ∧ (i 0).val < (i 0).val / 2000 * 2000 + 2000
    omega
  | ⟨1, _⟩ =>
    show win1_6.index ⟨(i 0).val / 2000, ht⟩ (1 : Fin 2) * 128 ≤ (i 1).val
      ∧ (i 1).val < win1_6.index ⟨(i 0).val / 2000, ht⟩ (1 : Fin 2) * 128 + 128
    rw [e61]
    omega

/-- After the region the projection output holds, at node `n` and column `d`, the sum over `k` of
    `h n k · s_out n · W k d` with `h = max (A · s_in + b) 0`: each block is that function on its own 2000 rows, and the
    blocks tile the array. -/
theorem proj_value (c : Dev nD) :
    (dat1 (F := Ideal) V c).arrAt 6 cfg1.N
      = Cert.GcnSpec.proj (K := 128) (Cert.GcnSpec.post (V c main_v38) (V c main_v39) (V c main_v41)) (V c main_v40) (V c main_arg6) :=
  (dat1 (F := Ideal) V c).arrAt_eq_of_cover 6
    (Cert.GcnSpec.proj (K := 128) (Cert.GcnSpec.post (V c main_v38) (V c main_v39) (V c main_v41)) (V c main_v40) (V c main_arg6))
    (fun t _ => flushed_eq V c t) covered

end Cert.KernelIdeal.Region1Proj

end
-- ==== Proof.Region1.lean ====
/-
  Region 1, read as values. Its grid is 2 halves × 10 tiles of 2000 nodes. Per tile it forms the layer's output rows
  `h = max (A·s_in + b) 0`, writes the next projection `(h·s_out)·W` of those rows, and adds `ohᵀ·h` of the tile into the
  half's running pooled sum, which is cleared at the half's first tile and written back after its last.
-/
import proofs.«417829_j5978594476289_3_alg».proof.Proof.Gen.KernelIdeal.Frame
import proofs.«417829_j5978594476289_3_alg».proof.Proof.GcnSpec
import proofs.«417829_j5978594476289_3_alg».proof.Proof.Region1Proj
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

/-! ## What each control case leaves in the pooled block

The body's stores through the whole-block rectangle, read back: at a half's first tile the update payload over the
zero block just stored, at every other tile the update payload over what the block held. -/

section Pieces
variable {F : FTy → Type} [FloatOps F]

/-- The whole-block rectangle's offsets are zero on every axis (rank 2, rank 3). -/
theorem hz2 : (![0, 0] : Fin 2 → Nat) = fun _ => 0 := funext fun a => by fin_cases a <;> rfl
theorem hz3 : (![0, 0, 0] : Fin 3 → Nat) = fun _ => 0 := funext fun a => by fin_cases a <;> rfl

/-- First tile of a half, pooled block: the update payload over the zero block stored just before it. -/
theorem piece_A_7 (c : Dev nD) (i : grid1.Coords) (a2 : Memref sig .tc .vmem S2000x128 .f32) (h2 : a2.IsWhole)
    (a3 : Memref sig .tc .vmem S2000x1 .f32) (h3 : a3.IsWhole) (a4 : Memref sig .tc .vmem S1x128 .f32) (h4 : a4.IsWhole)
    (a5 : Memref sig .tc .vmem S2000x64 .bf16) (h5 : a5.IsWhole) (a6 : Memref sig .tc .vmem S2000x1 .f32) (h6 : a6.IsWhole)
    (a7 : Memref sig .tc .vmem S128x128 .f32) (h7 : a7.IsWhole) (a8 : Memref sig .tc .vmem S2000x128 .f32) (h8 : a8.IsWhole)
    (a9 : Memref sig .tc .vmem S1x64x128 .f32) (h9 : a9.IsWhole) (hc : cond1_0 i)
    (x0 : Vec F S2000x128 .f32) (x1 : Vec F S2000x1 .f32) (x2 : Vec F S1x128 .f32) (x3 : Vec F S2000x64 .bf16)
    (x4 : Vec F S2000x1 .f32) (x5 : Vec F S128x128 .f32) :
    out1_A_7 c i a2 h2 a3 h3 a4 h4 a5 h5 a6 h6 a7 h7 a8 h8 a9 h9 hc x0 x1 x2 x3 x4 x5 = k1_pay3 x0 x1 x2 x3 (k1_pay1 (F := F)) := by
  unfold out1_A_7
  rw [View.read_writes_eq_canon _ _ _ (cover1_A_7 c i a2 h2 a3 h3 a4 h4 a5 h5 a6 h6 a7 h7 a8 h8 a9 h9 hc x0 x1 x2 x3 x4 x5)]
  unfold kernelRun1_A
  dsimp only
  sl_unfold_words
  rw [View.canon_cons_unit_zero (S := S1x64x128) hz3]
  simp only [View.readAt_eq_ld, h2.read_unread, h3.read_unread, h4.read_unread, h5.read_unread, h6.read_unread, h7.read_unread,
    View.ld_unit_zero (S := S2000x128) hz2, View.ld_unit_zero (S := S2000x1) hz2, View.ld_unit_zero (S := S1x128) hz2,
    View.ld_unit_zero (S := S2000x64) hz2, View.ld_unit_zero (S := S128x128) hz2, View.readCov_unit_zero (S := S1x64x128) _ hz3]

/-- Later tiles, pooled block: the update payload over what the block held. -/
theorem piece_B_7 (c : Dev nD) (i : grid1.Coords) (a2 : Memref sig .tc .vmem S2000x128 .f32) (h2 : a2.IsWhole)
    (a3 : Memref sig .tc .vmem S2000x1 .f32) (h3 : a3.IsWhole) (a4 : Memref sig .tc .vmem S1x128 .f32) (h4 : a4.IsWhole)
    (a5 : Memref sig .tc .vmem S2000x64 .bf16) (h5 : a5.IsWhole) (a6 : Memref sig .tc .vmem S2000x1 .f32) (h6 : a6.IsWhole)
    (a7 : Memref sig .tc .vmem S128x128 .f32) (h7 : a7.IsWhole) (a8 : Memref sig .tc .vmem S2000x128 .f32) (h8 : a8.IsWhole)
    (a9 : Memref sig .tc .vmem S1x64x128 .f32) (h9 : a9.IsWhole) (hc : ¬cond1_0 i)
    (x0 : Vec F S2000x128 .f32) (x1 : Vec F S2000x1 .f32) (x2 : Vec F S1x128 .f32) (x3 : Vec F S2000x64 .bf16)
    (x4 : Vec F S2000x1 .f32) (x5 : Vec F S128x128 .f32) (xo : Vec F S1x64x128 .f32) :
    out1_B_7 c i a2 h2 a3 h3 a4 h4 a5 h5 a6 h6 a7 h7 a8 h8 a9 h9 hc x0 x1 x2 x3 x4 x5 xo = k1_pay3 x0 x1 x2 x3 xo := by
  unfold out1_B_7
  rw [View.read_writes_eq_canon _ _ _ (cover1_B_7 c i a2 h2 a3 h3 a4 h4 a5 h5 a6 h6 a7 h7 a8 h8 a9 h9 hc x0 x1 x2 x3 x4 x5 xo)]
  unfold kernelRun1_B
  dsimp only
  sl_unfold_words
  rw [View.canon_unit_zero hz3]
  simp only [View.readAt_eq_ld, h2.read_unread, h3.read_unread, h4.read_unread, h5.read_unread, h6.read_unread, h7.read_unread,
    View.ld_unit_zero (S := S2000x128) hz2, View.ld_unit_zero (S := S2000x1) hz2, View.ld_unit_zero (S := S1x128) hz2,
    View.ld_unit_zero (S := S2000x64) hz2, View.ld_unit_zero (S := S128x128) hz2, h9.read_unread, View.ld_unit_zero (S := S1x64x128) hz3]

end Pieces

/-! ## The payloads at an index, over the extended reals -/

section Payloads

/-- A column broadcast along the rows' entries: `[a, 1]` to `[a, b]` reads, at `(p, c)`, row `p`'s one entry. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The layer's output rows of one tile: scale the row, add the bias row, clamp at zero. -/
theorem pay2_apply (x0 : FVec Ideal S2000x128 .f32) (x1 : FVec Ideal S2000x1 .f32) (x2 : FVec Ideal S1x128 .f32)
    (r : Fin 2000) (d : Fin 128) :
    k1_pay2 (F := Ideal) x0 x1 x2 (ix2 r d)
      = max (x0 (ix2 r d) * x1 (ix2 r (0 : Fin 1)) + x2 (ix2 (0 : Fin 1) d)) 0 := by
  unfold k1_pay2
  rw [maximumf_apply, addf_apply, mulf_apply, broadcast_apply, shapeCast_self, shapeCast_self, shapeCast_self,
    broadcastTo_a1_ab_apply, broadcastTo_1b_ab_apply]
  exact congrArg (max _) Ideal.ofBits_zero_f32

/-- The product contracted over the 2000 rows of both operands, added to an accumulator: entry `(g, d)` is the
    accumulator's plus the sum over the rows of the left entry in column `g` times the right entry in column `d`. -/
theorem matmul_cols_apply (A : FVec Ideal S2000x64 .bf16) (B : FVec Ideal S2000x128 .bf16) (acc : FVec Ideal S64x128 .f32)
    (g : Fin 64) (d : Fin 128) :
    matmul dot_S2000x64_S2000x128_S64x128_0_0_1_1_n_n none A B acc (ix2 g d)
      = acc (ix2 g d) + ∑ r : Fin 2000, A (ix2 r g) * B (ix2 r d) := by
  show FloatOps.matmul _ none A B _ (ix2 g d) = _
  rw [Ideal.matmul_apply,
    ← Equiv.sum_comp (contrEquiv1 dot_S2000x64_S2000x128_S64x128_0_0_1_1_n_n 2000 rfl rfl).symm]
  refine congrArg (acc (ix2 g d) + ·) (Finset.sum_congr rfl fun k _ => ?_)
  have ck := contrEquiv1_symm_val dot_S2000x64_S2000x128_S64x128_0_0_1_1_n_n 2000 rfl rfl k
  have l2 : dot_S2000x64_S2000x128_S64x128_0_0_1_1_n_n.lhsIdx (ix2 g d) ((contrEquiv1 _ 2000 rfl rfl).symm k) = ix2 k g := by
    funext ax; apply Fin.ext
    match ax with
    | ⟨0, _⟩ => simp [DotDims.lhsIdx, dot_S2000x64_S2000x128_S64x128_0_0_1_1_n_n]; exact ck
    | ⟨1, _⟩ => simp [DotDims.lhsIdx, dot_S2000x64_S2000x128_S64x128_0_0_1_1_n_n]; rfl
  have r2 : dot_S2000x64_S2000x128_S64x128_0_0_1_1_n_n.rhsIdx (ix2 g d) ((contrEquiv1 _ 2000 rfl rfl).symm k) = ix2 k d := by
    funext ax; apply Fin.ext
    match ax with
    | ⟨0, _⟩ => simp [DotDims.rhsIdx, dot_S2000x64_S2000x128_S64x128_0_0_1_1_n_n]; exact ck
    | ⟨1, _⟩ => simp [DotDims.rhsIdx, dot_S2000x64_S2000x128_S64x128_0_0_1_1_n_n]; rfl
  rw [l2, r2]

/-- The zero block stored at a half's first tile. -/
theorem pay1_apply (u : Fin 1) (g : Fin 64) (d : Fin 128) : k1_pay1 (F := Ideal) (ix3 u g d) = 0 := by
  unfold k1_pay1
  rw [shapeCast_ab_1ab_apply, broadcast_apply]
  exact Ideal.ofBits_zero_f32

/-- The pooled update: what the block held, plus the sum over the tile's rows of membership times output row. -/
theorem pay3_apply (x0 : FVec Ideal S2000x128 .f32) (x1 : FVec Ideal S2000x1 .f32) (x2 : FVec Ideal S1x128 .f32)
    (x3 : FVec Ideal S2000x64 .bf16) (xo : FVec Ideal S1x64x128 .f32) (u : Fin 1) (g : Fin 64) (d : Fin 128) :
    k1_pay3 (F := Ideal) x0 x1 x2 x3 xo (ix3 u g d)
      = xo (ix3 (0 : Fin 1) g d) + ∑ r : Fin 2000, x3 (ix2 r g) * k1_pay2 (F := Ideal) x0 x1 x2 (ix2 r d) := by
  unfold k1_pay3
  rw [shapeCast_ab_1ab_apply, addf_apply, shapeCast_1ab_ab_apply, matmul_cols_apply, constant_apply,
    Ideal.ofBits_zero_f32, zero_add]
  refine congrArg (_ + ·) (Finset.sum_congr rfl fun r _ => ?_)
  rw [shapeCast_self, truncf_apply]

end Payloads

/-! ## The tile's blocks are rows of the arrays

Point `t` of the grid (20 points, `t = 10·half + tile`) reads row block `t` of every per-node array — rows
`2000·t + r` — and the whole of the bias row. -/

section Blocks

-- the contents of the TensorCore's buffers when the region is entered: any
variable (V : (c : Dev nD) → (b : Ref sig .tc) → Buf (Elt Ideal) ((c : Thread nD τ).loc b))

/-- Row `r` of row block `T`, as a node number (read modulo the node count, so that it is defined for every `T`;
    for the twenty blocks of the grid nothing wraps). -/
def rowAt (T : ℕ) (r : Fin 2000) : Fin 40000 := ⟨(T * 2000 + r.val) % 40000, Nat.mod_lt _ (by decide)⟩

/-- The neighbourhood sums, the per-node factor, the bias row and the membership table, as the region finds them. -/
abbrev aA (c : Dev nD) : FVec Ideal ⟨2, ![40000, 128]⟩ .f32 := V c main_v38
abbrev aSin (c : Dev nD) : FVec Ideal ⟨2, ![40000, 1]⟩ .f32 := V c main_v39
abbrev aB (c : Dev nD) : FVec Ideal ⟨2, ![1, 128]⟩ .f32 := V c main_v41
abbrev aOh (c : Dev nD) : FVec Ideal ⟨2, ![40000, 64]⟩ .bf16 := V c main_v19

/-- The layer's output on every node. -/
abbrev Hout (c : Dev nD) : FVec Ideal ⟨2, ![40000, 128]⟩ .f32 := Cert.GcnSpec.post (aA V c) (aSin V c) (aB V c)

/-- Their blocks at point `t`. -/
abbrev bA (c : Dev nD) (t : Fin cfg1.N) : FVec Ideal S2000x128 .f32 := iblk1 V c 0 t
abbrev bSin (c : Dev nD) (t : Fin cfg1.N) : FVec Ideal S2000x1 .f32 := iblk1 V c 1 t
abbrev bB (c : Dev nD) (t : Fin cfg1.N) : FVec Ideal S1x128 .f32 := iblk1 V c 2 t
abbrev bOh (c : Dev nD) (t : Fin cfg1.N) : FVec Ideal S2000x64 .bf16 := iblk1 V c 3 t

/-- The windows' block indices over the grid, decided point by point: the per-node windows sit at row block `t`,
    the bias row at its one block, the pooled output at its half's block. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = t.val ∧ win1_3.index t (1 : Fin 2) = 0)
    ∧ (win1_7.index t (0 : Fin 3) = t.val / 10 ∧ win1_7.index t (1 : Fin 3) = 0 ∧ win1_7.index t (2 : Fin 3) = 0) :=
  (by decide +kernel : ∀ t : Fin grid1.N, _)

theorem lt20 (t : Fin cfg1.N) : t.val < 20 := lt_of_lt_of_eq t.isLt (show cfg1.N = 20 from N_1)

theorem bA_apply (c : Dev nD) (t : Fin cfg1.N) (r : Fin 2000) (d : Fin 128) :
    bA V c t (ix2 r d) = aA V c (ix2 (rowAt t.val r) d) := by
  obtain ⟨⟨e0, e1⟩, -⟩ := idx_facts t
  have ht := lt20 t
  show V c main_v38 (((cfg1.win 0).blk t).view.emb (ix2 r d)) = V c main_v38 _
  refine congrArg (V c main_v38) (funext fun a => Fin.ext ?_)
  match a with
  | ⟨0, _⟩ =>
    show win1_0.index t (0 : Fin 2) * 2000 + 1 * r.val = (t.val * 2000 + r.val) % 40000
    rw [e0]; have := r.isLt; omega
  | ⟨1, _⟩ =>
    show win1_0.index t (1 : Fin 2) * 128 + 1 * d.val = d.val
    rw [e1]; omega

theorem bSin_apply (c : Dev nD) (t : Fin cfg1.N) (r : Fin 2000) :
    bSin V c t (ix2 r (0 : Fin 1)) = aSin V c (ix2 (rowAt t.val r) (0 : Fin 1)) := by
  obtain ⟨-, ⟨e0, e1⟩, -⟩ := idx_facts t
  have ht := lt20 t
  show V c main_v39 (((cfg1.win 1).blk t).view.emb (ix2 r (0 : Fin 1))) = V c main_v39 _
  refine congrArg (V c main_v39) (funext fun a => Fin.ext ?_)
  match a with
  | ⟨0, _⟩ =>
    show win1_1.index t (0 : Fin 2) * 2000 + 1 * r.val = (t.val * 2000 + r.val) % 40000
    rw [e0]; have := r.isLt; omega
  | ⟨1, _⟩ =>
    show win1_1.index t (1 : Fin 2) * 1 + 1 * 0 = 0
    rw [e1]

theorem bB_apply (c : Dev nD) (t : Fin cfg1.N) (d : Fin 128) :
    bB V c t (ix2 (0 : Fin 1) d) = aB V c (ix2 (0 : Fin 1) d) := by
  obtain ⟨-, -, ⟨e0, e1⟩, -⟩ := idx_facts t
  show V c main_v41 (((cfg1.win 2).blk t).view.emb (ix2 (0 : Fin 1) d)) = V c main_v41 _
  refine congrArg (V c main_v41) (funext fun a => Fin.ext ?_)
  match a with
  | ⟨0, _⟩ =>
    show win1_2.index t (0 : Fin 2) * 1 + 1 * 0 = 0
    rw [e0]
  | ⟨1, _⟩ =>
    show win1_2.index t (1 : Fin 2) * 128 + 1 * d.val = d.val
    rw [e1]; omega

theorem bOh_apply (c : Dev nD) (t : Fin cfg1.N) (r : Fin 2000) (g : Fin 64) :
    bOh V c t (ix2 r g) = aOh V c (ix2 (rowAt t.val r) g) := by
  obtain ⟨-, -, -, ⟨e0, e1⟩, -⟩ := idx_facts t
  have ht := lt20 t
  show V c main_v19 (((cfg1.win 3).blk t).view.emb (ix2 r g)) = V c main_v19 _
  refine congrArg (V c main_v19) (funext fun a => Fin.ext ?_)
  match a with
  | ⟨0, _⟩ =>
    show win1_3.index t (0 : Fin 2) * 2000 + 1 * r.val = (t.val * 2000 + r.val) % 40000
    rw [e0]; have := r.isLt; omega
  | ⟨1, _⟩ =>
    show win1_3.index t (1 : Fin 2) * 64 + 1 * g.val = g.val
    rw [e1]; omega

/-- The tile's output rows are the layer's output on the tile's nodes. -/
theorem pay2_block (c : Dev nD) (t : Fin cfg1.N) (r : Fin 2000) (d : Fin 128) :
    k1_pay2 (F := Ideal) (bA V c t) (bSin V c t) (bB V c t) (ix2 r d) = Hout V c (ix2 (rowAt t.val r) d) := by
  rw [pay2_apply, bA_apply, bSin_apply, bB_apply]
  rfl

end Blocks

/-! ## The pooled block after each point

After point `t` the half's pooled block holds the sum, over the tiles of the half up to `t`'s and over their rows,
of membership times layer output: the first tile of a half starts from the zero block, every later tile adds its
own rows' sum to what the block held. -/

section Pooled

variable (V : (c : Dev nD) → (b : Ref sig .tc) → Buf (Elt Ideal) ((c : Thread nD τ).loc b))

/-- Row block `T`'s contribution to entry `(g, d)` of a pooled sum. -/
def tileSum (c : Dev nD) (T : ℕ) (g : Fin 64) (d : Fin 128) : EReal :=
  ∑ r : Fin 2000, aOh V c (ix2 (rowAt T r) g) * Hout V c (ix2 (rowAt T r) d)

/-- At a half's first point the pooled block is the update over the zero block. -/
theorem pooled_first (c : Dev nD) (t : Fin cfg1.N) (h0 : t.val % 10 = 0) :
    (outsAt1 V c t.val t.isLt).2
      = k1_pay3 (F := Ideal) (bA V c t) (bSin V c t) (bB V c t) (bOh V c t) (k1_pay1 (F := Ideal)) := by
  rw [outsAt1_A V c t h0]
  dsimp only
  exact piece_A_7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t) (iblk1 V c 5 t)

/-- At every other point it is the update over what the point before left. -/
theorem pooled_next (c : Dev nD) (t : Fin cfg1.N) (h0 : ¬t.val % 10 = 0) :
    (outsAt1 V c t.val t.isLt).2
      = k1_pay3 (F := Ideal) (bA V c t) (bSin V c t) (bB V c t) (bOh V c t)
          (outsAt1 V c (t.val - 1) (Nat.lt_of_le_of_lt (Nat.sub_le _ _) t.isLt)).2 := by
  rw [outsAt1_B V c t h0]
  dsimp only
  exact piece_B_7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2

/-- The tile's own sum, read through the blocks, is its row block's contribution. -/
theorem tile_rows (c : Dev nD) (t : Fin cfg1.N) (g : Fin 64) (d : Fin 128) :
    ∑ r : Fin 2000, bOh V c t (ix2 r g) * k1_pay2 (F := Ideal) (bA V c t) (bSin V c t) (bB V c t) (ix2 r d)
      = tileSum V c t.val g d :=
  Finset.sum_congr rfl fun r _ => by rw [bOh_apply, pay2_block]

/-- THE RUNNING SUM: after point `n` the pooled block holds the contributions of the row blocks from the first of
    `n`'s half up to `n`. -/
theorem pooled_inv (c : Dev nD) : ∀ (n : ℕ) (hn : n < cfg1.N) (u : Fin 1) (g : Fin 64) (d : Fin 128),
    (outsAt1 V c n hn).2 (ix3 u g d) = ∑ i ∈ Finset.range (n % 10 + 1), tileSum V c (n - n % 10 + i) g d
  | 0, hn, u, g, d => by
    have e := congrFun (pooled_first V c ⟨0, hn⟩ rfl) (ix3 u g d)
    refine e.trans ?_
    rw [pay3_apply, pay1_apply, zero_add, tile_rows]
    simp
  | n + 1, hn, u, g, d => by
    by_cases h0 : (n + 1) % 10 = 0
    · have e := congrFun (pooled_first V c ⟨n + 1, hn⟩ h0) (ix3 u g d)
      refine e.trans ?_
      rw [pay3_apply, pay1_apply, zero_add, tile_rows, h0]
      simp
    · have e := congrFun (pooled_next V c ⟨n + 1, hn⟩ h0) (ix3 u g d)
      refine e.trans ?_
      rw [pay3_apply, tile_rows]
      have ih := pooled_inv c n (Nat.lt_of_succ_lt hn) (0 : Fin 1) g d
      have e1 : (n + 1) % 10 = n % 10 + 1 := by omega
      have e2 : n + 1 - (n % 10 + 1) = n - n % 10 := by omega
      have e3 : n - n % 10 + (n % 10 + 1) = n + 1 := by omega
      rw [e1, e2, Finset.sum_range_succ, e3]
      exact congrArg (· + tileSum V c (n + 1) g d) ih

end Pooled

/-! ## The pooled array after the run

The pooled window is written back after each half's last point only, and the two halves' blocks are the whole array. -/

section PooledArray

variable (V : (c : Dev nD) → (b : Ref sig .tc) → Buf (Elt Ideal) ((c : Thread nD τ).loc b))

/-- Row block `10·h + j` is tile `j` of half `h`. -/
theorem rowAt_node (h : Fin 2) (j : Fin 10) (r : Fin 2000) : rowAt (h.val * 10 + j.val) r = Cert.GcnSpec.node h j r := by
  apply Fin.ext
  show ((h.val * 10 + j.val) * 2000 + r.val) % 40000 = (h.val * 10 + j.val) * 2000 + r.val
  have := h.isLt; have := j.isLt; have := r.isLt; omega

/-- What a half's last point writes back is that half's block of the pooled sums. -/
theorem flushed7_eq (c : Dev nD) (t : Fin cfg1.N) (hf : (cfg1.win 7).flush t = true) :
    (dat1 (F := Ideal) V c).flushed 7 t
      = ((cfg1.win 7).blk t).view.read (Elt Ideal) (Cert.GcnSpec.poolParts (aOh V c) (Hout V c)) := by
  have h9 : t.val % 10 = 9 := (flush1_7 t).mp hf
  have ht := lt20 t
  obtain ⟨-, -, -, -, ⟨e0, e1, e2⟩⟩ := idx_facts t
  show (cfg1.win 7).cut (grid1.coords t) ((dat1 V c).after 7 t) = _
  rw [after1_7]
  funext y
  obtain ⟨u, g, d, rfl⟩ : ∃ (u : Fin 1) (g : Fin 64) (d : Fin 128), y = ix3 u g d := ⟨y 0, y 1, y 2, eq_ix3 y⟩
  show (outsAt1 V c t.val t.isLt).2 (ix3 u g d)
    = Cert.GcnSpec.poolParts (aOh V c) (Hout V c) (((cfg1.win 7).blk t).view.emb (ix3 u g d))
  have hemb : ((cfg1.win 7).blk t).view.emb (ix3 u g d) = ix3 (⟨t.val / 10, by omega⟩ : Fin 2) g d := by
    funext a; apply Fin.ext
    match a with
    | ⟨0, _⟩ => show win1_7.index t (0 : Fin 3) * 1 + 1 * u.val = t.val / 10; rw [e0]; have := u.isLt; omega
    | ⟨1, _⟩ => show win1_7.index t (1 : Fin 3) * 64 + 1 * g.val = g.val; rw [e1]; omega
    | ⟨2, _⟩ => show win1_7.index t (2 : Fin 3) * 128 + 1 * d.val = d.val; rw [e2]; omega
  rw [hemb, pooled_inv V c t.val t.isLt u g d, h9, Finset.sum_range]
  show _ = ∑ j : Fin 10, ∑ r : Fin 2000,
      aOh V c (ix2 (Cert.GcnSpec.node (⟨t.val / 10, by omega⟩ : Fin 2) j r) g)
        * Hout V c (ix2 (Cert.GcnSpec.node (⟨t.val / 10, by omega⟩ : Fin 2) j r) d)
  refine Finset.sum_congr rfl fun j _ => ?_
  have ej : t.val - 9 + j.val = (⟨t.val / 10, by omega⟩ : Fin 2).val * 10 + j.val := by
    show _ = t.val / 10 * 10 + j.val; omega
  rw [ej]
  unfold tileSum
  exact Finset.sum_congr rfl fun r _ => by rw [rowAt_node]

end PooledArray

/-! ## The two output arrays after the run -/

-- the contents of the TensorCore's buffers when the region is entered: any
variable (V : (c : Dev nD) → (b : Ref sig .tc) → Buf (Elt Ideal) ((c : Thread nD τ).loc b))

/-- The projection output: the rows of ONE array, the scaled projection of the whole layer output. -/
theorem arr1_6 (c : Dev nD) :
    (dat1 (F := Ideal) V c).arrAt 6 cfg1.N
      = Cert.GcnSpec.proj (K := 128) (Cert.GcnSpec.post (V c main_v38) (V c main_v39) (V c main_v41)) (V c main_v40) (V c main_arg6) :=
  Region1Proj.proj_value V c

/-- The pooled sums: half `h`'s block holds the sum over that half's tiles and rows of membership times layer output. -/
theorem arr1_7 (c : Dev nD) :
    (dat1 (F := Ideal) V c).arrAt 7 cfg1.N
      = Cert.GcnSpec.poolParts (V c main_v19) (Cert.GcnSpec.post (V c main_v38) (V c main_v39) (V c main_v41)) :=
  (dat1 (F := Ideal) V c).arrAt_eq_of_cover 7 (Cert.GcnSpec.poolParts (aOh V c) (Hout V c)) (flushed7_eq V c) fun i => by
    -- entry `(h, g, d)` lies in the block written back after half `h`'s last point, `10·h + 9`
    have hi0 : (i 0).val < 2 := (i 0).isLt
    have hi1 : (i 1).val < 64 := (i 1).isLt
    have hi2 : (i 2).val < 128 := (i 2).isLt
    have hN : cfg1.N = 20 := N_1
    obtain ⟨t, ht⟩ : ∃ t : Fin cfg1.N, t.val = (i 0).val * 10 + 9 := ⟨⟨(i 0).val * 10 + 9, by omega⟩, rfl⟩
    obtain ⟨-, -, -, -, ⟨e0, e1, e2⟩⟩ := idx_facts t
    refine ⟨t, (flush1_7 t).mpr (by omega), ?_⟩
    show i ∈ ((View.whole main_v42_1).slice (win1_7.rect t)).set
    rw [View.set_slice_whole, Rect.mem_set_unit]
    intro a
    match a with
    | ⟨0, _⟩ =>
      show win1_7.index t (0 : Fin 3) * 1 ≤ (i 0).val ∧ (i 0).val < win1_7.index t (0 : Fin 3) * 1 + 1
      rw [e0]; omega
    | ⟨1, _⟩ =>
      show win1_7.index t (1 : Fin 3) * 64 ≤ (i 1).val ∧ (i 1).val < win1_7.index t (1 : Fin 3) * 64 + 64
      rw [e1]; omega
    | ⟨2, _⟩ =>
      show win1_7.index t (2 : Fin 3) * 128 ≤ (i 2).val ∧ (i 2).val < win1_7.index t (2 : Fin 3) * 128 + 128
      rw [e2]; omega

end Cert.KernelIdeal.Region1

end
-- ==== Proof.Region2.lean ====
/-
  Region 2, read as a value. The same grid of 2 halves × 10 tiles of 2000 nodes; per tile it forms the second layer's output
  rows `h = max (A·s_in + b) 0` and adds `ohᵀ·h` of the tile into the half's running pooled sum, cleared at the half's first
  tile and written back after its last.

  The order of the argument: what each of the two control cases leaves in the pooled staging block, as the update's term
  over the blocks it loaded; that term at one index (a sum over the tile's 2000 rows of membership times clamped layer
  output, on top of the block as loaded); each window's block at a point as rows of its array; the running sum over the
  tiles of a half, by induction on the point; and the write-back at the half's last tile, whose block is the half's slab of
  the pooled array.
-/
import proofs.«417829_j5978594476289_3_alg».proof.Proof.Gen.KernelIdeal.Frame
import proofs.«417829_j5978594476289_3_alg».proof.Proof.GcnSpec
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

section Pieces
variable {F : FTy → Type} [FloatOps F]

/-- All-zero offsets, at rank 3 and rank 2. -/
theorem zeros3 : (![0, 0, 0] : Fin 3 → Nat) = fun _ => 0 := funext fun a => by fin_cases a <;> rfl
theorem zeros2 : (![0, 0] : Fin 2 → Nat) = fun _ => 0 := funext fun a => by fin_cases a <;> rfl

/-- Past a half's first point the body's one store leaves the update of the blocks it loaded and of what the
    staging block held. -/
theorem piece_B (c : Dev nD) (i : grid2.Coords) (a2 : Memref sig .tc .vmem S2000x128 .f32) (h2 : a2.IsWhole)
    (a3 : Memref sig .tc .vmem S2000x1 .f32) (h3 : a3.IsWhole) (a4 : Memref sig .tc .vmem S1x128 .f32) (h4 : a4.IsWhole)
    (a5 : Memref sig .tc .vmem S2000x64 .bf16) (h5 : a5.IsWhole) (a6 : Memref sig .tc .vmem S1x64x128 .f32) (h6 : a6.IsWhole)
    (hc : ¬cond2_0 i) (x0 : Vec F S2000x128 .f32) (x1 : Vec F S2000x1 .f32) (x2 : Vec F S1x128 .f32)
    (x3 : Vec F S2000x64 .bf16) (xo : Vec F S1x64x128 .f32) :
    out2_B_4 c i a2 h2 a3 h3 a4 h4 a5 h5 a6 h6 hc x0 x1 x2 x3 xo = k2_pay2 x0 x1 x2 x3 xo := by
  unfold out2_B_4
  rw [View.read_writes_eq_canon _ _ _ (cover2_B_4 c i a2 h2 a3 h3 a4 h4 a5 h5 a6 h6 hc x0 x1 x2 x3 xo)]
  unfold kernelRun2_B
  dsimp only
  sl_unfold_words
  rw [View.canon_unit_zero zeros3]
  simp only [View.readAt_eq_ld, h2.read_unread, h3.read_unread, h4.read_unread, h5.read_unread, h6.read_unread,
    View.ld_unit_zero (S := S2000x128) zeros2, View.ld_unit_zero (S := S2000x1) zeros2, View.ld_unit_zero (S := S1x128) zeros2,
    View.ld_unit_zero (S := S2000x64) zeros2, View.ld_unit_zero (S := S1x64x128) zeros3]

/-- At a half's first point the body first clears the staging block, reads the cleared block back, and leaves the
    update over it. -/
theorem piece_A (c : Dev nD) (i : grid2.Coords) (a2 : Memref sig .tc .vmem S2000x128 .f32) (h2 : a2.IsWhole)
    (a3 : Memref sig .tc .vmem S2000x1 .f32) (h3 : a3.IsWhole) (a4 : Memref sig .tc .vmem S1x128 .f32) (h4 : a4.IsWhole)
    (a5 : Memref sig .tc .vmem S2000x64 .bf16) (h5 : a5.IsWhole) (a6 : Memref sig .tc .vmem S1x64x128 .f32) (h6 : a6.IsWhole)
    (hc : cond2_0 i) (x0 : Vec F S2000x128 .f32) (x1 : Vec F S2000x1 .f32) (x2 : Vec F S1x128 .f32)
    (x3 : Vec F S2000x64 .bf16) :
    out2_A_4 c i a2 h2 a3 h3 a4 h4 a5 h5 a6 h6 hc x0 x1 x2 x3 = k2_pay2 x0 x1 x2 x3 (k2_pay1 (F := F)) := by
  unfold out2_A_4
  rw [View.read_writes_eq_canon _ _ _ (cover2_A_4 c i a2 h2 a3 h3 a4 h4 a5 h5 a6 h6 hc x0 x1 x2 x3)]
  unfold kernelRun2_A
  dsimp only
  sl_unfold_words
  rw [View.canon_cons_unit_zero (S := S1x64x128) zeros3, View.readCov_unit_zero (S := S1x64x128) _ zeros3]
  simp only [View.readAt_eq_ld, h2.read_unread, h3.read_unread, h4.read_unread, h5.read_unread,
    View.ld_unit_zero (S := S2000x128) zeros2, View.ld_unit_zero (S := S2000x1) zeros2, View.ld_unit_zero (S := S1x128) zeros2,
    View.ld_unit_zero (S := S2000x64) zeros2]

end Pieces

/-- Column [2000,1] broadcast along the lanes. -/
theorem bcast_col_apply {α : Type} (v : (⟨2, ![2000, 1]⟩ : Shape).Idx → α) (h : (⟨2, ![2000, 1]⟩ : Shape).Broadcasts ⟨2, ![2000, 128]⟩)
    (r : Fin 2000) (d : Fin 128) : broadcastTo ⟨2, ![2000, 128]⟩ v h (ix2 r d) = v (ix2 r (0 : Fin 1)) := by
  refine broadcastTo_apply v h (ix2 r d) (ix2 r (0 : Fin 1)) fun ax => ?_
  match ax with
  | ⟨0, _⟩ => rfl
  | ⟨1, _⟩ => rfl

/-- The pooled update's dimension numbers: both operands contracted along their rows. -/
abbrev Dpool := dot_S2000x64_S2000x128_S64x128_0_0_1_1_n_n

/-- The operands' coordinates at an output index and a contraction position, axis by axis. -/
theorem lhs_ax0 (j : S64x128.Idx) (k : Dpool.contr.Idx) : (Dpool.lhsIdx j k 0).val = (k ⟨0, by decide⟩).val :=
  Dpool.lhsIdx_val_of_single (cl := 0) rfl j k
theorem rhs_ax0 (j : S64x128.Idx) (k : Dpool.contr.Idx) : (Dpool.rhsIdx j k 0).val = (k ⟨0, by decide⟩).val :=
  Dpool.rhsIdx_val_of_single (cr := 0) rfl j k
theorem lhs_ax1 (j : S64x128.Idx) (k : Dpool.contr.Idx) : (Dpool.lhsIdx j k 1).val = (j 0).val := by
  simp [DotDims.lhsIdx, Dpool, dot_S2000x64_S2000x128_S64x128_0_0_1_1_n_n]; rfl
theorem rhs_ax1 (j : S64x128.Idx) (k : Dpool.contr.Idx) : (Dpool.rhsIdx j k 1).val = (j 1).val := by
  simp [DotDims.rhsIdx, Dpool, dot_S2000x64_S2000x128_S64x128_0_0_1_1_n_n]; rfl

/-- The pooled update's matrix product at an index: rows contracted. -/
theorem pool_matmul_apply (L : FVec Ideal S2000x64 .bf16) (R : FVec Ideal S2000x128 .bf16) (g : Fin 64) (d : Fin 128) :
    matmul Dpool none L R (constant S64x128 .f32 0x00000000#32) (ix2 g d) = ∑ r : Fin 2000, L (ix2 r g) * R (ix2 r d) := by
  show FloatOps.matmul Dpool none L R (constant S64x128 .f32 0x00000000#32) (ix2 g d) = _
  rw [Ideal.matmul_constant_zero_apply, ← Equiv.sum_comp (contrEquiv1 Dpool 2000 rfl rfl).symm]
  refine Finset.sum_congr rfl fun r _ => ?_
  have hk := contrEquiv1_symm_val Dpool 2000 rfl rfl r
  have hl : Dpool.lhsIdx (ix2 g d) ((contrEquiv1 Dpool 2000 rfl rfl).symm r) = ix2 r g := by
    funext ax; apply Fin.ext
    match ax with
    | ⟨0, _⟩ => exact (lhs_ax0 _ _).trans hk
    | ⟨1, _⟩ => exact lhs_ax1 _ _
  have hr : Dpool.rhsIdx (ix2 g d) ((contrEquiv1 Dpool 2000 rfl rfl).symm r) = ix2 r d := by
    funext ax; apply Fin.ext
    match ax with
    | ⟨0, _⟩ => exact (rhs_ax0 _ _).trans hk
    | ⟨1, _⟩ => exact rhs_ax1 _ _
  rw [hl, hr]

/-- The layer output on a tile: scale the row, add the bias row, clamp at zero; the change of format is the identity. -/
theorem relu_apply (A : FVec Ideal S2000x128 .f32) (s : FVec Ideal S2000x1 .f32) (b : FVec Ideal S1x128 .f32)
    (r : Fin 2000) (d : Fin 128) :
    (truncf .bf16 (maximumf (addf (mulf (shapeCast S2000x128 A shapeCasts_S2000x128_S2000x128)
        (broadcastTo S2000x128 (shapeCast S2000x1 s shapeCasts_S2000x1_S2000x1) broadcasts_S2000x1_S2000x128))
        (broadcastTo S2000x128 (shapeCast S1x128 b shapeCasts_S1x128_S1x128) broadcasts_S1x128_S2000x128))
        (broadcast S2000x128 (Scalar.ofBits (F := Ideal) .f32 0x00000000#32))) bitsLt_bf16_f32 : FVec Ideal S2000x128 .bf16) (ix2 r d)
      = max (A (ix2 r d) * s (ix2 r (0 : Fin 1)) + b (ix2 (0 : Fin 1) d)) 0 := by
  rw [shapeCast_self, shapeCast_self, shapeCast_self]
  show max (A (ix2 r d) * broadcastTo S2000x128 s broadcasts_S2000x1_S2000x128 (ix2 r d)
    + broadcastTo S2000x128 b broadcasts_S1x128_S2000x128 (ix2 r d)) (Ideal.ofBits .f32 0x00000000#32) = _
  rw [bcast_col_apply, broadcastTo_1b_ab_apply, Ideal.ofBits_zero_f32]

/-- The cleared block is zero everywhere. -/
theorem pay1_apply (u : Fin 1) (g : Fin 64) (d : Fin 128) : (k2_pay1 (F := Ideal)) (ix3 u g d) = 0 := by
  unfold k2_pay1
  refine (shapeCast_ab_1ab_apply _ _ u g d).trans ?_
  show Ideal.ofBits .f32 0x00000000#32 = 0
  exact Ideal.ofBits_zero_f32

/-- The update at an index: the block as loaded, plus over the tile's rows membership times layer output. -/
theorem pay2_apply (A : FVec Ideal S2000x128 .f32) (s : FVec Ideal S2000x1 .f32) (b : FVec Ideal S1x128 .f32)
    (oh : FVec Ideal S2000x64 .bf16) (acc : FVec Ideal S1x64x128 .f32) (u : Fin 1) (g : Fin 64) (d : Fin 128) :
    k2_pay2 (F := Ideal) A s b oh acc (ix3 u g d)
      = acc (ix3 (0 : Fin 1) g d)
        + ∑ r : Fin 2000, oh (ix2 r g) * max (A (ix2 r d) * s (ix2 r (0 : Fin 1)) + b (ix2 (0 : Fin 1) d)) 0 := by
  unfold k2_pay2
  refine (shapeCast_ab_1ab_apply _ _ u g d).trans ?_
  refine (addf_apply _ _ (ix2 g d)).trans ?_
  refine congrArg₂ (· + ·) (shapeCast_1ab_ab_apply acc _ g d) ?_
  refine (pool_matmul_apply _ _ g d).trans ?_
  refine Finset.sum_congr rfl fun r _ => ?_
  refine congrArg₂ (· * ·) (congrFun (shapeCast_self oh _) (ix2 r g)) ?_
  exact relu_apply A s b r d

-- the contents of the TensorCore's buffers when the region is entered: any
variable (V : (c : Dev nD) → (b : Ref sig .tc) → Buf (Elt Ideal) ((c : Thread nD τ).loc b))

/-- The printed index maps over the grid: the per-node windows' row block is the point's number, the bias row stays,
    the pooled block follows the half. -/
theorem blockIndex_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 3) = t.val / 10 ∧ win2_4.index t (1 : Fin 3) = 0 ∧ win2_4.index t (2 : Fin 3) = 0 :=
  (by decide +kernel : ∀ t : Fin grid2.N, _)

theorem lt20 (t : Fin cfg2.N) : t.val < 20 := lt_of_lt_of_eq t.isLt (show cfg2.N = 20 from N_2)

/-- The half and the tile of a point. -/
abbrev halfOf (t : Fin cfg2.N) : Fin 2 := ⟨t.val / 10, by have := lt20 t; omega⟩
abbrev tileOf (t : Fin cfg2.N) : Fin 10 := ⟨t.val % 10, Nat.mod_lt _ (by decide)⟩

/-- The windows' blocks at a point and the arrays they are cut from, at their literal types. -/
abbrev Ablk (c : Dev nD) (t : Fin cfg2.N) : FVec Ideal S2000x128 .f32 := iblk2 V c 0 t
abbrev sblk (c : Dev nD) (t : Fin cfg2.N) : FVec Ideal S2000x1 .f32 := iblk2 V c 1 t
abbrev bblk (c : Dev nD) (t : Fin cfg2.N) : FVec Ideal S1x128 .f32 := iblk2 V c 2 t
abbrev ohblk (c : Dev nD) (t : Fin cfg2.N) : FVec Ideal S2000x64 .bf16 := iblk2 V c 3 t
abbrev Aarr (c : Dev nD) : FVec Ideal ⟨2, ![40000, 128]⟩ .f32 := V c main_v55
abbrev sarr (c : Dev nD) : FVec Ideal ⟨2, ![40000, 1]⟩ .f32 := V c main_v56
abbrev barr (c : Dev nD) : FVec Ideal ⟨2, ![1, 128]⟩ .f32 := V c main_v57
abbrev oharr (c : Dev nD) : FVec Ideal ⟨2, ![40000, 64]⟩ .bf16 := V c main_v19

open Cert.GcnSpec (node post poolParts)

/-- Row `r` of the neighbourhood sums' block at a point is the node's row. -/
theorem Ablk_apply (c : Dev nD) (t : Fin cfg2.N) (r : Fin 2000) (d : Fin 128) :
    Ablk V c t (ix2 r d) = Aarr V c (ix2 (node (halfOf t) (tileOf t) r) d) := by
  show V c main_v55 (((cfg2.win 0).blk t).view.emb (ix2 r d)) = V c main_v55 (ix2 (node (halfOf t) (tileOf t) r) d)
  refine congrArg (V c main_v55) (funext fun a => Fin.ext ?_)
  obtain ⟨e0, e1, -⟩ := blockIndex_facts t
  match a with
  | ⟨0, _⟩ =>
    show win2_0.index t (0 : Fin 2) * 2000 + 1 * r.val = (t.val / 10 * 10 + t.val % 10) * 2000 + r.val
    rw [e0]; omega
  | ⟨1, _⟩ =>
    show win2_0.index t (1 : Fin 2) * 128 + 1 * d.val = d.val
    rw [e1]; omega

/-- The scale column's block. -/
theorem sblk_apply (c : Dev nD) (t : Fin cfg2.N) (r : Fin 2000) :
    sblk V c t (ix2 r (0 : Fin 1)) = sarr V c (ix2 (node (halfOf t) (tileOf t) r) (0 : Fin 1)) := by
  show V c main_v56 (((cfg2.win 1).blk t).view.emb (ix2 r (0 : Fin 1))) = V c main_v56 (ix2 (node (halfOf t) (tileOf t) r) (0 : Fin 1))
  refine congrArg (V c main_v56) (funext fun a => Fin.ext ?_)
  obtain ⟨-, -, e0, e1, -⟩ := blockIndex_facts t
  match a with
  | ⟨0, _⟩ =>
    show win2_1.index t (0 : Fin 2) * 2000 + 1 * r.val = (t.val / 10 * 10 + t.val % 10) * 2000 + r.val
    rw [e0]; omega
  | ⟨1, _⟩ =>
    show win2_1.index t (1 : Fin 2) * 1 + 1 * 0 = 0
    rw [e1]

/-- The bias row's block is the bias row. -/
theorem bblk_apply (c : Dev nD) (t : Fin cfg2.N) (d : Fin 128) :
    bblk V c t (ix2 (0 : Fin 1) d) = barr V c (ix2 (0 : Fin 1) d) := by
  show V c main_v57 (((cfg2.win 2).blk t).view.emb (ix2 (0 : Fin 1) d)) = V c main_v57 (ix2 (0 : Fin 1) d)
  refine congrArg (V c main_v57) (funext fun a => Fin.ext ?_)
  obtain ⟨-, -, -, -, e0, e1, -⟩ := blockIndex_facts t
  match a with
  | ⟨0, _⟩ =>
    show win2_2.index t (0 : Fin 2) * 1 + 1 * 0 = 0
    rw [e0]
  | ⟨1, _⟩ =>
    show win2_2.index t (1 : Fin 2) * 128 + 1 * d.val = d.val
    rw [e1]; omega

/-- The membership table's block. -/
theorem ohblk_apply (c : Dev nD) (t : Fin cfg2.N) (r : Fin 2000) (g : Fin 64) :
    ohblk V c t (ix2 r g) = oharr V c (ix2 (node (halfOf t) (tileOf t) r) g) := by
  show V c main_v19 (((cfg2.win 3).blk t).view.emb (ix2 r g)) = V c main_v19 (ix2 (node (halfOf t) (tileOf t) r) g)
  refine congrArg (V c main_v19) (funext fun a => Fin.ext ?_)
  obtain ⟨-, -, -, -, -, -, e0, e1, -⟩ := blockIndex_facts t
  match a with
  | ⟨0, _⟩ =>
    show win2_3.index t (0 : Fin 2) * 2000 + 1 * r.val = (t.val / 10 * 10 + t.val % 10) * 2000 + r.val
    rw [e0]; omega
  | ⟨1, _⟩ =>
    show win2_3.index t (1 : Fin 2) * 64 + 1 * g.val = g.val
    rw [e1]; omega

/-- One tile's contribution to its half's pooled sums: over the tile's rows, membership times layer output. -/
def tileSum (c : Dev nD) (h : Fin 2) (j : Fin 10) (g : Fin 64) (d : Fin 128) : EReal :=
  ∑ r : Fin 2000, oharr V c (ix2 (node h j r) g) * post (Aarr V c) (sarr V c) (barr V c) (ix2 (node h j r) d)

/-- The same with the half and the tile given by number; zero outside the grid. -/
def tileN (c : Dev nD) (hh k : ℕ) (g : Fin 64) (d : Fin 128) : EReal :=
  if h : hh < 2 ∧ k < 10 then tileSum V c ⟨hh, h.1⟩ ⟨k, h.2⟩ g d else 0

theorem tileN_point (c : Dev nD) (t : Fin cfg2.N) (g : Fin 64) (d : Fin 128) :
    tileN V c (t.val / 10) (t.val % 10) g d = tileSum V c (halfOf t) (tileOf t) g d := by
  unfold tileN
  rw [dif_pos ⟨(halfOf t).isLt, (tileOf t).isLt⟩]

/-- At any point the update over the point's blocks adds the point's tile to the block it loaded. -/
theorem update_apply (c : Dev nD) (t : Fin cfg2.N) (acc : FVec Ideal S1x64x128 .f32) (u : Fin 1) (g : Fin 64) (d : Fin 128) :
    k2_pay2 (F := Ideal) (Ablk V c t) (sblk V c t) (bblk V c t) (ohblk V c t) acc (ix3 u g d)
      = acc (ix3 (0 : Fin 1) g d) + tileN V c (t.val / 10) (t.val % 10) g d := by
  rw [pay2_apply, tileN_point]
  refine congrArg (acc (ix3 (0 : Fin 1) g d) + ·) (Finset.sum_congr rfl fun r _ => ?_)
  rw [Ablk_apply, sblk_apply, bblk_apply, ohblk_apply]
  rfl

/-- A half's first point leaves its first tile's sums: the cleared block, updated. -/
theorem point_A (c : Dev nD) (n : ℕ) (hn : n < cfg2.N) (h0 : n % 10 = 0) (u : Fin 1) (g : Fin 64) (d : Fin 128) :
    (outsAt2 V c n hn : FVec Ideal S1x64x128 .f32) (ix3 u g d) = tileN V c (n / 10) (n % 10) g d := by
  refine (congrFun (outsAt2_A V c ⟨n, hn⟩ h0) (ix3 u g d)).trans ?_
  refine (congrFun (piece_A (F := Ideal) c (grid2.coords ⟨n, hn⟩) (ms2_0 ⟨n, hn⟩) (hs2_0 ⟨n, hn⟩) (ms2_1 ⟨n, hn⟩) (hs2_1 ⟨n, hn⟩)
    (ms2_2 ⟨n, hn⟩) (hs2_2 ⟨n, hn⟩) (ms2_3 ⟨n, hn⟩) (hs2_3 ⟨n, hn⟩) (ms2_4 ⟨n, hn⟩) (hs2_4 ⟨n, hn⟩) ((hcond2_0 ⟨n, hn⟩).mpr h0)
    (Ablk V c ⟨n, hn⟩) (sblk V c ⟨n, hn⟩) (bblk V c ⟨n, hn⟩) (ohblk V c ⟨n, hn⟩)) (ix3 u g d)).trans ?_
  rw [update_apply, pay1_apply, zero_add]

/-- Every other point adds its tile to what the point before left. -/
theorem point_B (c : Dev nD) (n : ℕ) (hn : n < cfg2.N) (h0 : ¬n % 10 = 0) (u : Fin 1) (g : Fin 64) (d : Fin 128) :
    (outsAt2 V c n hn : FVec Ideal S1x64x128 .f32) (ix3 u g d)
      = (outsAt2 V c (n - 1) (Nat.lt_of_le_of_lt (Nat.sub_le _ _) hn) : FVec Ideal S1x64x128 .f32) (ix3 (0 : Fin 1) g d)
        + tileN V c (n / 10) (n % 10) g d := by
  refine (congrFun (outsAt2_B V c ⟨n, hn⟩ h0) (ix3 u g d)).trans ?_
  refine (congrFun (piece_B (F := Ideal) c (grid2.coords ⟨n, hn⟩) (ms2_0 ⟨n, hn⟩) (hs2_0 ⟨n, hn⟩) (ms2_1 ⟨n, hn⟩) (hs2_1 ⟨n, hn⟩)
    (ms2_2 ⟨n, hn⟩) (hs2_2 ⟨n, hn⟩) (ms2_3 ⟨n, hn⟩) (hs2_3 ⟨n, hn⟩) (ms2_4 ⟨n, hn⟩) (hs2_4 ⟨n, hn⟩) (fun h => h0 ((hcond2_0 ⟨n, hn⟩).mp h))
    (Ablk V c ⟨n, hn⟩) (sblk V c ⟨n, hn⟩) (bblk V c ⟨n, hn⟩) (ohblk V c ⟨n, hn⟩)
    (outsAt2 V c (n - 1) (Nat.lt_of_le_of_lt (Nat.sub_le _ _) hn))) (ix3 u g d)).trans ?_
  exact update_apply V c ⟨n, hn⟩ (outsAt2 V c (n - 1) (Nat.lt_of_le_of_lt (Nat.sub_le _ _) hn)) u g d

theorem outsAt2_congr (c : Dev nD) {n n' : ℕ} (e : n = n') (hn : n < cfg2.N) (hn' : n' < cfg2.N) :
    outsAt2 V c n hn = outsAt2 V c n' hn' := by subst e; rfl

/-- THE RUNNING SUM. After point `n`, tile `n % 10` of half `n / 10`, the staging block holds the sums over the half's
    tiles so far: by induction on the point, the half's first point starting from the cleared block. -/
theorem running (c : Dev nD) (n : ℕ) : ∀ (hn : n < cfg2.N) (u : Fin 1) (g : Fin 64) (d : Fin 128),
    (outsAt2 V c n hn : FVec Ideal S1x64x128 .f32) (ix3 u g d) = ∑ k ∈ Finset.range (n % 10 + 1), tileN V c (n / 10) k g d := by
  induction n with
  | zero =>
    intro hn u g d
    refine (point_A V c 0 hn rfl u g d).trans ?_
    show _ = ∑ k ∈ Finset.range 1, tileN V c (0 / 10) k g d
    rw [Finset.sum_range_one]
  | succ n ih =>
    intro hn u g d
    by_cases h0 : (n + 1) % 10 = 0
    · refine (point_A V c (n + 1) hn h0 u g d).trans ?_
      rw [h0, Finset.sum_range_one]
    · refine (point_B V c (n + 1) hn h0 u g d).trans ?_
      rw [Finset.sum_range_succ]
      have e1 : n % 10 + 1 = (n + 1) % 10 := by omega
      have e2 : n / 10 = (n + 1) / 10 := by omega
      have hp := ih (Nat.lt_of_succ_lt hn) (0 : Fin 1) g d
      rw [e1, e2] at hp
      rw [outsAt2_congr V c (by omega : n + 1 - 1 = n) _ (Nat.lt_of_succ_lt hn), hp]

/-- All ten tiles of a half are the half's pooled sums. -/
theorem sum_tiles (c : Dev nD) (hh : Fin 2) (g : Fin 64) (d : Fin 128) :
    ∑ k ∈ Finset.range 10, tileN V c hh.val k g d
      = poolParts (oharr V c) (post (Aarr V c) (sarr V c) (barr V c)) (ix3 hh g d) := by
  rw [Finset.sum_range]
  show _ = ∑ j : Fin 10, tileSum V c hh j g d
  refine Finset.sum_congr rfl fun j _ => ?_
  unfold tileN
  rw [dif_pos ⟨hh.isLt, j.isLt⟩]

/-- At a half's last point the staging block holds, at every index, the half's pooled sums where the block sits in the array. -/
theorem lastPoint_holds (c : Dev nD) (t : Fin cfg2.N) (h9 : t.val % 10 = 9) (y : S1x64x128.Idx) :
    (outsAt2 V c t.val t.isLt : FVec Ideal S1x64x128 .f32) y
      = poolParts (oharr V c) (post (Aarr V c) (sarr V c) (barr V c)) (((cfg2.win 4).blk t).view.emb y) := by
  obtain ⟨u, g, d, rfl⟩ : ∃ (u : Fin 1) (g : Fin 64) (d : Fin 128), y = ix3 u g d := ⟨y 0, y 1, y 2, eq_ix3 y⟩
  rw [running V c t.val t.isLt u g d, h9]
  show ∑ k ∈ Finset.range 10, tileN V c (halfOf t).val k g d = _
  rw [sum_tiles]
  refine congrArg (poolParts (oharr V c) (post (Aarr V c) (sarr V c) (barr V c))) (funext fun a => Fin.ext ?_)
  obtain ⟨-, -, -, -, -, -, -, -, e0, e1, e2⟩ := blockIndex_facts t
  have hu : u.val = 0 := by omega
  match a with
  | ⟨0, _⟩ =>
    show t.val / 10 = win2_4.index t (0 : Fin 3) * 1 + 1 * u.val
    rw [e0, hu]; omega
  | ⟨1, _⟩ =>
    show g.val = win2_4.index t (1 : Fin 3) * 64 + 1 * g.val
    rw [e1]; omega
  | ⟨2, _⟩ =>
    show d.val = win2_4.index t (2 : Fin 3) * 128 + 1 * d.val
    rw [e2]; omega

/-- What a half's last point writes back is the half's block of the pooled sums. -/
theorem lastPoint_writes (c : Dev nD) (t : Fin cfg2.N) (hf : (cfg2.win 4).flush t = true) :
    (dat2 (F := Ideal) V c).flushed 4 t
      = ((cfg2.win 4).blk t).view.read (Elt Ideal)
          (poolParts (V c main_v19) (post (V c main_v55) (V c main_v56) (V c main_v57))) := by
  have h9 : t.val % 10 = 9 := (flush2_4 t).mp hf
  show (cfg2.win 4).cut (grid2.coords t) ((dat2 V c).after 4 t) = _
  rw [after2_4]
  funext y
  exact lastPoint_holds V c t h9 y

/-- Every index of the pooled array lies in the block its half's last point writes back. -/
theorem pooled_covered (i : S2x64x128.Idx) :
    ∃ t : Fin cfg2.N, (cfg2.win 4).flush t = true ∧ i ∈ ((cfg2.win 4).blk t).view.set := by
  have h0 : (i 0).val < 2 := (i 0).isLt
  have h1 : (i 1).val < 64 := (i 1).isLt
  have h2 : (i 2).val < 128 := (i 2).isLt
  have hN : cfg2.N = 20 := N_2
  obtain ⟨t, et⟩ : ∃ t : Fin cfg2.N, t.val = 10 * (i 0).val + 9 := ⟨⟨10 * (i 0).val + 9, by omega⟩, rfl⟩
  refine ⟨t, (flush2_4 t).mpr (by omega), ?_⟩
  show i ∈ ((View.whole main_v58).slice (win2_4.rect t)).set
  rw [View.set_slice_whole, Rect.mem_set_unit]
  obtain ⟨-, -, -, -, -, -, -, -, e0, e1, e2⟩ := blockIndex_facts t
  intro a
  match a with
  | ⟨0, _⟩ =>
    show win2_4.index t (0 : Fin 3) * 1 ≤ (i 0).val ∧ (i 0).val < win2_4.index t (0 : Fin 3) * 1 + 1
    rw [e0]; omega
  | ⟨1, _⟩ =>
    show win2_4.index t (1 : Fin 3) * 64 ≤ (i 1).val ∧ (i 1).val < win2_4.index t (1 : Fin 3) * 64 + 64
    rw [e1]; omega
  | ⟨2, _⟩ =>
    show win2_4.index t (2 : Fin 3) * 128 ≤ (i 2).val ∧ (i 2).val < win2_4.index t (2 : Fin 3) * 128 + 128
    rw [e2]; omega

/-- The pooled sums: half `h`'s block holds the sum over that half's tiles and rows of membership times layer output. -/
theorem arr2_4 (c : Dev nD) :
    (dat2 (F := Ideal) V c).arrAt 4 cfg2.N
      = Cert.GcnSpec.poolParts (V c main_v19) (Cert.GcnSpec.post (V c main_v55) (V c main_v56) (V c main_v57)) :=
  (dat2 (F := Ideal) V c).arrAt_eq_of_cover 4 _ (lastPoint_writes V c) (fun i => pooled_covered i)

end Cert.KernelIdeal.Region2

end
-- ==== Proof.HostChain.lean ====
/-
  What the idealized kernel's result buffer holds at the last segment boundary, read back through @main: the last host
  stretch combines the two pooled averages; each pooled sum is a region's output array; each region's inputs are what the
  host stretch before it leaves, from the arguments and the region before. Every step is the program's own operation,
  so the whole is the function `kernelOut` of the argument arrays.
-/
import proofs.«417829_j5978594476289_3_alg».proof.Proof.Gen.KernelIdeal.Frame
import proofs.«417829_j5978594476289_3_alg».proof.Proof.HostDefs
import proofs.«417829_j5978594476289_3_alg».proof.Proof.Region0
import proofs.«417829_j5978594476289_3_alg».proof.Proof.Region1
import proofs.«417829_j5978594476289_3_alg».proof.Proof.Region2
import Idealize.ShloMosaic.Lib.StableHlo.Run

noncomputable section

open scoped BigOperators
open Idealize.ShloMosaic Idealize.ShloMosaic.ValueIdx

open Idealize.ShloMosaic.TcCoe Idealize.SL.Sem Idealize.ShloMosaic.StableHlo

namespace Cert.KernelIdeal.HostChain

open Cert.KernelIdeal Cert.KernelIdeal.Gen Cert.KernelIdeal.HostVal

/-! ## Which buffers a stretch of host operations writes

Each stretch is a literal list of operations and each operation writes exactly its result buffer, so the buffers a stretch
writes are a literal list; a buffer outside that list holds after the stretch what it held before. -/

/-- The result buffers of the operations of `hostOps0`, in order. -/
abbrev wr0 : List (Ref sig .tc) :=
  [main_cst, main_v0, main_cst_0, main_v1, main_v2, main_v3, main_cst_1, main_v4, main_v5, main_v6, main_cst_2, main_v7,
   main_v8, main_cst_3, main_v9, main_v10, main_v11, main_cst_4]

theorem wr0_sub : (hostOps0 : List (HloOp τ sig (Elt Ideal))).Forall fun op =>
    op.writes ⊆ (wr0.map (Proc.devRef (τ := τ) .tc)).toFinset := by
  simp only [hostOps0, wr0, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]

/-- A buffer `hostOps0` does not write is left as it was. -/
theorem keep0 (X : Valuation τ sig (Elt Ideal)) {r : Ref sig .tc} (hr : r ∉ wr0 := by decide) :
    StableHlo.after hostOps0 X (Proc.devRef .tc r) = X (Proc.devRef .tc r) :=
  StableHlo.after_of_writes_sub hostOps0 X wr0_sub hr

/-- The result buffers of the operations of `hostOps0_1`, in order. -/
abbrev wr0_1 : List (Ref sig .tc) := [main_call0_v0, main_call0_v1, main_v12]

theorem wr0_1_sub : (hostOps0_1 : List (HloOp τ sig (Elt Ideal))).Forall fun op =>
    op.writes ⊆ (wr0_1.map (Proc.devRef (τ := τ) .tc)).toFinset := by
  simp only [hostOps0_1, wr0_1, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]

/-- A buffer `hostOps0_1` does not write is left as it was. -/
theorem keep0_1 (X : Valuation τ sig (Elt Ideal)) {r : Ref sig .tc} (hr : r ∉ wr0_1 := by decide) :
    StableHlo.after hostOps0_1 X (Proc.devRef .tc r) = X (Proc.devRef .tc r) :=
  StableHlo.after_of_writes_sub hostOps0_1 X wr0_1_sub hr

/-- The result buffers of the operations of `hostOps0_2`, in order. -/
abbrev wr0_2 : List (Ref sig .tc) := [main_cst_5, main_v13, main_v14, main_cst_6, main_v15, main_v16, main_v17, main_cst_7]

theorem wr0_2_sub : (hostOps0_2 : List (HloOp τ sig (Elt Ideal))).Forall fun op =>
    op.writes ⊆ (wr0_2.map (Proc.devRef (τ := τ) .tc)).toFinset := by
  simp only [hostOps0_2, wr0_2, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]

/-- A buffer `hostOps0_2` does not write is left as it was. -/
theorem keep0_2 (X : Valuation τ sig (Elt Ideal)) {r : Ref sig .tc} (hr : r ∉ wr0_2 := by decide) :
    StableHlo.after hostOps0_2 X (Proc.devRef .tc r) = X (Proc.devRef .tc r) :=
  StableHlo.after_of_writes_sub hostOps0_2 X wr0_2_sub hr

/-- The result buffers of the operations of `hostOps0_3`, in order. -/
abbrev wr0_3 : List (Ref sig .tc) := [main_call1_v0, main_call1_v1, main_v18]

theorem wr0_3_sub : (hostOps0_3 : List (HloOp τ sig (Elt Ideal))).Forall fun op =>
    op.writes ⊆ (wr0_3.map (Proc.devRef (τ := τ) .tc)).toFinset := by
  simp only [hostOps0_3, wr0_3, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]

/-- A buffer `hostOps0_3` does not write is left as it was. -/
theorem keep0_3 (X : Valuation τ sig (Elt Ideal)) {r : Ref sig .tc} (hr : r ∉ wr0_3 := by decide) :
    StableHlo.after hostOps0_3 X (Proc.devRef .tc r) = X (Proc.devRef .tc r) :=
  StableHlo.after_of_writes_sub hostOps0_3 X wr0_3_sub hr

/-- The result buffers of the operations of `hostOps0_4`, in order. -/
abbrev wr0_4 : List (Ref sig .tc) := [main_call2_v0, main_call2_v1, main_call2_v2, main_call2_v3, main_call2_v4, main_v19]

theorem wr0_4_sub : (hostOps0_4 : List (HloOp τ sig (Elt Ideal))).Forall fun op =>
    op.writes ⊆ (wr0_4.map (Proc.devRef (τ := τ) .tc)).toFinset := by
  simp only [hostOps0_4, wr0_4, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]

/-- A buffer `hostOps0_4` does not write is left as it was. -/
theorem keep0_4 (X : Valuation τ sig (Elt Ideal)) {r : Ref sig .tc} (hr : r ∉ wr0_4 := by decide) :
    StableHlo.after hostOps0_4 X (Proc.devRef .tc r) = X (Proc.devRef .tc r) :=
  StableHlo.after_of_writes_sub hostOps0_4 X wr0_4_sub hr

/-- The result buffers of the operations of `hostOps0_5`, in order. -/
abbrev wr0_5 : List (Ref sig .tc) :=
  [main_cst_8, main_v20, main_cst_9, main_v21, main_v22, main_v23, main_cst_10, main_v24, main_v25, main_v26, main_v27]

theorem wr0_5_sub : (hostOps0_5 : List (HloOp τ sig (Elt Ideal))).Forall fun op =>
    op.writes ⊆ (wr0_5.map (Proc.devRef (τ := τ) .tc)).toFinset := by
  simp only [hostOps0_5, wr0_5, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]

/-- A buffer `hostOps0_5` does not write is left as it was. -/
theorem keep0_5 (X : Valuation τ sig (Elt Ideal)) {r : Ref sig .tc} (hr : r ∉ wr0_5 := by decide) :
    StableHlo.after hostOps0_5 X (Proc.devRef .tc r) = X (Proc.devRef .tc r) :=
  StableHlo.after_of_writes_sub hostOps0_5 X wr0_5_sub hr

/-- The result buffers of the operations of `hostOps1`, in order. -/
abbrev wr1 : List (Ref sig .tc) :=
  [main_c, main_v29, main_v30, main_c_11, main_v31, main_v32, main_v33, main_v34, main_v35, main_cst_12, main_v36,
   main_v37, main_v38, main_v39, main_v40, main_v41]

theorem wr1_sub : (hostOps1 : List (HloOp τ sig (Elt Ideal))).Forall fun op =>
    op.writes ⊆ (wr1.map (Proc.devRef (τ := τ) .tc)).toFinset := by
  simp only [hostOps1, wr1, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]

/-- A buffer `hostOps1` does not write is left as it was. -/
theorem keep1 (X : Valuation τ sig (Elt Ideal)) {r : Ref sig .tc} (hr : r ∉ wr1 := by decide) :
    StableHlo.after hostOps1 X (Proc.devRef .tc r) = X (Proc.devRef .tc r) :=
  StableHlo.after_of_writes_sub hostOps1 X wr1_sub hr

/-- The result buffers of the operations of `hostOps2`, in order. -/
abbrev wr2 : List (Ref sig .tc) :=
  [main_cst_13, main_v43, main_v44, main_v45, main_c_14, main_v46, main_v47, main_c_15, main_v48, main_v49, main_v50,
   main_v51, main_v52, main_cst_16, main_v53, main_v54, main_v55, main_v56, main_v57]

theorem wr2_sub : (hostOps2 : List (HloOp τ sig (Elt Ideal))).Forall fun op =>
    op.writes ⊆ (wr2.map (Proc.devRef (τ := τ) .tc)).toFinset := by
  simp only [hostOps2, wr2, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]

/-- A buffer `hostOps2` does not write is left as it was. -/
theorem keep2 (X : Valuation τ sig (Elt Ideal)) {r : Ref sig .tc} (hr : r ∉ wr2 := by decide) :
    StableHlo.after hostOps2 X (Proc.devRef .tc r) = X (Proc.devRef .tc r) :=
  StableHlo.after_of_writes_sub hostOps2 X wr2_sub hr

/-- The result buffers of the operations of `hostOps3`, in order. -/
abbrev wr3 : List (Ref sig .tc) := [main_cst_17, main_v59, main_v60, main_v61, main_cst_18, main_v62, main_v63, main_v64]

theorem wr3_sub : (hostOps3 : List (HloOp τ sig (Elt Ideal))).Forall fun op =>
    op.writes ⊆ (wr3.map (Proc.devRef (τ := τ) .tc)).toFinset := by
  simp only [hostOps3, wr3, List.Forall, StableHlo.nullary_writes, StableHlo.unary_writes, StableHlo.binary_writes,
    StableHlo.ternary_writes, StableHlo.reshape_writes, Finset.singleton_subset_iff, List.mem_toFinset, List.map_cons,
    List.map_nil, List.mem_cons, true_or, or_true, and_self]

/-- A buffer `hostOps3` does not write is left as it was. -/
theorem keep3 (X : Valuation τ sig (Elt Ideal)) {r : Ref sig .tc} (hr : r ∉ wr3 := by decide) :
    StableHlo.after hostOps3 X (Proc.devRef .tc r) = X (Proc.devRef .tc r) :=
  StableHlo.after_of_writes_sub hostOps3 X wr3_sub hr

/-! ## What a stretch leaves in the buffers it writes, over any contents `X` before it

Each statement reads one result buffer after one stretch and names the value by the operations applied to the
contents `X` of the buffers the stretch reads. -/

section Stretch

variable (X : Valuation τ sig (Elt Ideal))

/-- First stretch: the degree of the source list compared with zero. -/
theorem w0_v8 : StableHlo.after hostOps0 X (Proc.devRef .tc main_v8)
    = cmpf (F := Ideal) .ogt (deg (X (Proc.devRef .tc main_arg1)))
        (broadcastInDim S40000 ![] bcast_S_S40000 (constant (F := Ideal) S_ .f32 0x00000000#32)) := by
  after_results
  rfl

/-- First stretch: the reciprocal square root of the source degree, the degree clamped below at one. -/
theorem w0_v11 : StableHlo.after hostOps0 X (Proc.devRef .tc main_v11)
    = Host.rsqrt (F := Ideal) (maximumf (deg (X (Proc.devRef .tc main_arg1)))
        (broadcastInDim S40000 ![] bcast_S_S40000 (constant (F := Ideal) S_ .f32 0x3F800000#32))) := by
  after_results
  rfl

/-- First stretch: the last constant it sets is zero. -/
theorem w0_cst4 : StableHlo.after hostOps0 X (Proc.devRef .tc main_cst_4) = constant (F := Ideal) S_ .f32 0x00000000#32 := by
  after_results

/-- First stretch: the degree of the destination list. -/
theorem w0_v6 : StableHlo.after hostOps0 X (Proc.devRef .tc main_v6) = deg (X (Proc.devRef .tc main_arg2)) := by
  after_results
  rfl

/-- The first inlined selection: where the comparison holds the second operand, elsewhere the broadcast third. -/
theorem w0_1_v12 : StableHlo.after hostOps0_1 X (Proc.devRef .tc main_v12)
    = select (X (Proc.devRef .tc main_v8)) (X (Proc.devRef .tc main_v11))
        (broadcastInDim S40000 ![] bcast_S_S40000 (id (X (Proc.devRef .tc main_cst_4)))) := by
  after_results
  simp only [TRef.ofBuf, TRef.toBuf, cast_eq]

/-- Third stretch: the destination degree compared with zero. -/
theorem w0_2_v14 : StableHlo.after hostOps0_2 X (Proc.devRef .tc main_v14)
    = cmpf (F := Ideal) .ogt (X (Proc.devRef .tc main_v6))
        (broadcastInDim S40000 ![] bcast_S_S40000 (constant (F := Ideal) S_ .f32 0x00000000#32)) := by
  after_results

/-- Third stretch: the reciprocal square root of the destination degree clamped below at one. -/
theorem w0_2_v17 : StableHlo.after hostOps0_2 X (Proc.devRef .tc main_v17)
    = Host.rsqrt (F := Ideal) (maximumf (X (Proc.devRef .tc main_v6))
        (broadcastInDim S40000 ![] bcast_S_S40000 (constant (F := Ideal) S_ .f32 0x3F800000#32))) := by
  after_results

/-- Third stretch: the last constant it sets is zero. -/
theorem w0_2_cst7 : StableHlo.after hostOps0_2 X (Proc.devRef .tc main_cst_7) = constant (F := Ideal) S_ .f32 0x00000000#32 := by
  after_results

/-- The second inlined selection. -/
theorem w0_3_v18 : StableHlo.after hostOps0_3 X (Proc.devRef .tc main_v18)
    = select (X (Proc.devRef .tc main_v14)) (X (Proc.devRef .tc main_v17))
        (broadcastInDim S40000 ![] bcast_S_S40000 (id (X (Proc.devRef .tc main_cst_7)))) := by
  after_results
  simp only [TRef.ofBuf, TRef.toBuf, cast_eq]

/-- The inlined membership table of the graph numbers. -/
theorem w0_4_v19 : StableHlo.after hostOps0_4 X (Proc.devRef .tc main_v19) = onehot (X (Proc.devRef .tc main_arg3)) := by
  after_results
  simp only [TRef.ofBuf, TRef.toBuf, cast_eq]
  rfl

/-- Sixth stretch: the node counts of the graphs. -/
theorem w0_5_v26 : StableHlo.after hostOps0_5 X (Proc.devRef .tc main_v26) = cnt (X (Proc.devRef .tc main_arg3)) := by
  after_results
  rfl

/-- Sixth stretch: the source factor as a column. -/
theorem w0_5_v27 : StableHlo.after hostOps0_5 X (Proc.devRef .tc main_v27) = col (X (Proc.devRef .tc main_v12)) := by
  after_results
  rfl

/-- Between regions 0 and 1: the neighbourhood sum of region 0's output. -/
theorem w1_v38 : StableHlo.after hostOps1 X (Proc.devRef .tc main_v38)
    = aggr (X (Proc.devRef .tc main_arg1)) (X (Proc.devRef .tc main_arg2)) (X (Proc.devRef .tc main_v28)) := by
  after_results_simp
  rfl

theorem w1_v39 : StableHlo.after hostOps1 X (Proc.devRef .tc main_v39) = col (X (Proc.devRef .tc main_v18)) := by
  after_results
  rfl

theorem w1_v40 : StableHlo.after hostOps1 X (Proc.devRef .tc main_v40) = col (X (Proc.devRef .tc main_v12)) := by
  after_results
  rfl

theorem w1_v41 : StableHlo.after hostOps1 X (Proc.devRef .tc main_v41) = row (X (Proc.devRef .tc main_arg5)) := by
  after_results
  rfl

/-- Between regions 1 and 2: the first pooled average, the counts being those of `batch`. -/
theorem w2_v45 (batch : (⟨S40000, .i32⟩ : BufTy).Contents (Elt Ideal)) (h26 : X (Proc.devRef .tc main_v26) = cnt batch) :
    StableHlo.after hostOps2 X (Proc.devRef .tc main_v45) = pooled (X (Proc.devRef .tc main_v42_1)) batch := by
  after_results
  rw [h26]
  rfl

theorem w2_v55 : StableHlo.after hostOps2 X (Proc.devRef .tc main_v55)
    = aggr (X (Proc.devRef .tc main_arg1)) (X (Proc.devRef .tc main_arg2)) (X (Proc.devRef .tc main_v42_0)) := by
  after_results_simp
  rfl

theorem w2_v56 : StableHlo.after hostOps2 X (Proc.devRef .tc main_v56) = col (X (Proc.devRef .tc main_v18)) := by
  after_results
  rfl

theorem w2_v57 : StableHlo.after hostOps2 X (Proc.devRef .tc main_v57) = row (X (Proc.devRef .tc main_arg7)) := by
  after_results
  rfl

/-- After region 2: the first pooled average plus twice the second, the counts being those of `batch`. -/
theorem w3_v64 (batch : (⟨S40000, .i32⟩ : BufTy).Contents (Elt Ideal)) (h26 : X (Proc.devRef .tc main_v26) = cnt batch) :
    StableHlo.after hostOps3 X (Proc.devRef .tc main_v64)
      = combine (X (Proc.devRef .tc main_v45)) (pooled (X (Proc.devRef .tc main_v58)) batch) := by
  after_results
  rw [h26]
  rfl

end Stretch

variable (m : (ℓ : Loc nD τ sig) → Buf (Elt Ideal) ℓ) (ρ : Dev nD → PrngReg)

/-! ## The segment boundaries

From here on `m` is the launch memory and `c` a core; `arg m c r` is argument array `r` as launched. Each statement reads
one buffer at one boundary and is proved from the reads at the boundary before it, through one stretch or one region. -/

section Boundaries

variable (c : Dev nD)

/-- Argument array `r` as launched on core `c`. -/
abbrev arg (r : Ref sig .tc) : Buf (Elt Ideal) ((c.tc : Thread nD τ).loc r) := m ((c.tc : Thread nD τ).loc r)

/-- The first layer's output rows at the launched arguments. -/
abbrev rows1 : (⟨S40000x128, .f32⟩ : BufTy).Contents (Elt Ideal) :=
  layer1 (arg m c main_arg0) (arg m c main_arg1) (arg m c main_arg2) (arg m c main_arg4) (arg m c main_arg5)

/-- The second layer's output rows at the launched arguments. -/
abbrev rows2 : (⟨S40000x128, .f32⟩ : BufTy).Contents (Elt Ideal) :=
  layer2 (rows1 m c) (arg m c main_arg1) (arg m c main_arg2) (arg m c main_arg6) (arg m c main_arg7)

/-! ### Region 0's entry -/

/-- A buffer none of the six stretches before region 0 writes holds at region 0's entry what the launch memory holds. -/
theorem W6_launch {r : Ref sig .tc} (h0 : r ∉ wr0 := by decide) (h1 : r ∉ wr0_1 := by decide) (h2 : r ∉ wr0_2 := by decide)
    (h3 : r ∉ wr0_3 := by decide) (h4 : r ∉ wr0_4 := by decide) (h5 : r ∉ wr0_5 := by decide) :
    W6 m ρ c (Proc.devRef .tc r) = arg m c r :=
  calc W6 m ρ c (Proc.devRef .tc r)
    _ = W5 m ρ c (Proc.devRef .tc r) := keep0_5 _ h5
    _ = W4 m ρ c (Proc.devRef .tc r) := keep0_4 _ h4
    _ = W3 m ρ c (Proc.devRef .tc r) := keep0_3 _ h3
    _ = W2 m ρ c (Proc.devRef .tc r) := keep0_2 _ h2
    _ = W1 m ρ c (Proc.devRef .tc r) := keep0_1 _ h1
    _ = W0 m ρ c (Proc.devRef .tc r) := keep0 _ h0
    _ = arg m c r := rfl

/-- The source factor: the selection of the second stretch over the comparison, the root and the zero of the first. -/
theorem W2_v12 : W2 m ρ c (Proc.devRef .tc main_v12) = isq (arg m c main_arg1) := by
  have h8 : W1 m ρ c (Proc.devRef .tc main_v8) = _ := w0_v8 (W0 m ρ c)
  have h11 : W1 m ρ c (Proc.devRef .tc main_v11) = _ := w0_v11 (W0 m ρ c)
  have h4 : W1 m ρ c (Proc.devRef .tc main_cst_4) = _ := w0_cst4 (W0 m ρ c)
  refine (w0_1_v12 (W1 m ρ c)).trans ?_
  rw [h8, h11, h4]
  rfl

/-- No later stretch before region 0 writes the source factor. -/
theorem W5_v12 : W5 m ρ c (Proc.devRef .tc main_v12) = isq (arg m c main_arg1) :=
  calc W5 m ρ c (Proc.devRef .tc main_v12)
    _ = W4 m ρ c (Proc.devRef .tc main_v12) := keep0_4 _
    _ = W3 m ρ c (Proc.devRef .tc main_v12) := keep0_3 _
    _ = W2 m ρ c (Proc.devRef .tc main_v12) := keep0_2 _
    _ = isq (arg m c main_arg1) := W2_v12 m ρ c

theorem W6_v12 : W6 m ρ c (Proc.devRef .tc main_v12) = isq (arg m c main_arg1) :=
  (keep0_5 (W5 m ρ c)).trans (W5_v12 m ρ c)

/-- The destination degree, set in the first stretch, is still there after the second. -/
theorem W2_v6 : W2 m ρ c (Proc.devRef .tc main_v6) = deg (arg m c main_arg2) :=
  (keep0_1 (W1 m ρ c)).trans (w0_v6 (W0 m ρ c))

/-- The destination factor: the selection of the fourth stretch over the comparison, the root and the zero of the third. -/
theorem W4_v18 : W4 m ρ c (Proc.devRef .tc main_v18) = isq (arg m c main_arg2) := by
  have h14 : W3 m ρ c (Proc.devRef .tc main_v14) = _ := w0_2_v14 (W2 m ρ c)
  have h17 : W3 m ρ c (Proc.devRef .tc main_v17) = _ := w0_2_v17 (W2 m ρ c)
  have h7 : W3 m ρ c (Proc.devRef .tc main_cst_7) = _ := w0_2_cst7 (W2 m ρ c)
  refine (w0_3_v18 (W3 m ρ c)).trans ?_
  rw [h14, h17, h7, W2_v6 m ρ c]
  rfl

theorem W6_v18 : W6 m ρ c (Proc.devRef .tc main_v18) = isq (arg m c main_arg2) :=
  calc W6 m ρ c (Proc.devRef .tc main_v18)
    _ = W5 m ρ c (Proc.devRef .tc main_v18) := keep0_5 _
    _ = W4 m ρ c (Proc.devRef .tc main_v18) := keep0_4 _
    _ = isq (arg m c main_arg2) := W4_v18 m ρ c

/-- The graph numbers are an argument: no stretch writes them. -/
theorem W4_arg3 : W4 m ρ c (Proc.devRef .tc main_arg3) = arg m c main_arg3 :=
  calc W4 m ρ c (Proc.devRef .tc main_arg3)
    _ = W3 m ρ c (Proc.devRef .tc main_arg3) := keep0_3 _
    _ = W2 m ρ c (Proc.devRef .tc main_arg3) := keep0_2 _
    _ = W1 m ρ c (Proc.devRef .tc main_arg3) := keep0_1 _
    _ = W0 m ρ c (Proc.devRef .tc main_arg3) := keep0 _
    _ = arg m c main_arg3 := rfl

theorem W5_arg3 : W5 m ρ c (Proc.devRef .tc main_arg3) = arg m c main_arg3 :=
  (keep0_4 (W4 m ρ c)).trans (W4_arg3 m ρ c)

theorem W6_v19 : W6 m ρ c (Proc.devRef .tc main_v19) = onehot (arg m c main_arg3) :=
  calc W6 m ρ c (Proc.devRef .tc main_v19)
    _ = W5 m ρ c (Proc.devRef .tc main_v19) := keep0_5 _
    _ = onehot (W4 m ρ c (Proc.devRef .tc main_arg3)) := w0_4_v19 _
    _ = onehot (arg m c main_arg3) := by rw [W4_arg3 m ρ c]

theorem W6_v26 : W6 m ρ c (Proc.devRef .tc main_v26) = cnt (arg m c main_arg3) :=
  calc W6 m ρ c (Proc.devRef .tc main_v26)
    _ = cnt (W5 m ρ c (Proc.devRef .tc main_arg3)) := w0_5_v26 _
    _ = cnt (arg m c main_arg3) := by rw [W5_arg3 m ρ c]

theorem W6_v27 : W6 m ρ c (Proc.devRef .tc main_v27) = col (isq (arg m c main_arg1)) :=
  calc W6 m ρ c (Proc.devRef .tc main_v27)
    _ = col (W5 m ρ c (Proc.devRef .tc main_v12)) := w0_5_v27 _
    _ = col (isq (arg m c main_arg1)) := by rw [W5_v12 m ρ c]

/-! ### Region 0 and the stretch after it -/

/-- Region 0's output array: the scaled projection of the features. -/
theorem W7_v28 : W7 m ρ c (Proc.devRef .tc main_v28)
    = Cert.GcnSpec.proj (K := 512) (arg m c main_arg0) (col (isq (arg m c main_arg1))) (arg m c main_arg4) := by
  refine ((W7_arr m ρ c 3).trans (Region0.arr0_3 (V6 m ρ) c)).trans ?_
  rw [show V6 m ρ c main_arg0 = arg m c main_arg0 from W6_launch m ρ c,
    show V6 m ρ c main_v27 = col (isq (arg m c main_arg1)) from W6_v27 m ρ c,
    show V6 m ρ c main_arg4 = arg m c main_arg4 from W6_launch m ρ c]

/-- A buffer that is neither an array of region 0 nor written by the stretch after it is at region 1's entry as at
    region 0's. -/
theorem W8_keep {r : Ref sig .tc} (h : ∀ w, Pipeline.arrRef spec0 w ≠ r := by decide) (h1 : r ∉ wr1 := by decide) :
    W8 m ρ c (Proc.devRef .tc r) = W6 m ρ c (Proc.devRef .tc r) :=
  (keep1 (W7 m ρ c) h1).trans (W7_of_ne m ρ c r h)

/-- If moreover no stretch before region 0 writes it, it is there as launched. -/
theorem W8_launch {r : Ref sig .tc} (h : ∀ w, Pipeline.arrRef spec0 w ≠ r := by decide) (h1 : r ∉ wr1 := by decide)
    (h00 : r ∉ wr0 := by decide) (h01 : r ∉ wr0_1 := by decide) (h02 : r ∉ wr0_2 := by decide)
    (h03 : r ∉ wr0_3 := by decide) (h04 : r ∉ wr0_4 := by decide) (h05 : r ∉ wr0_5 := by decide) :
    W8 m ρ c (Proc.devRef .tc r) = arg m c r :=
  (W8_keep m ρ c h h1).trans (W6_launch m ρ c h00 h01 h02 h03 h04 h05)

/-- The neighbourhood sum of the first projection. -/
theorem W8_v38 : W8 m ρ c (Proc.devRef .tc main_v38)
    = aggr (arg m c main_arg1) (arg m c main_arg2)
        (Cert.GcnSpec.proj (K := 512) (arg m c main_arg0) (col (isq (arg m c main_arg1))) (arg m c main_arg4)) := by
  refine (w1_v38 (W7 m ρ c)).trans ?_
  rw [W7_v28 m ρ c,
    show W7 m ρ c (Proc.devRef .tc main_arg1) = arg m c main_arg1 from
      (W7_of_ne m ρ c main_arg1 (by decide)).trans (W6_launch m ρ c),
    show W7 m ρ c (Proc.devRef .tc main_arg2) = arg m c main_arg2 from
      (W7_of_ne m ρ c main_arg2 (by decide)).trans (W6_launch m ρ c)]

theorem W8_v39 : W8 m ρ c (Proc.devRef .tc main_v39) = col (isq (arg m c main_arg2)) := by
  refine (w1_v39 (W7 m ρ c)).trans ?_
  rw [show W7 m ρ c (Proc.devRef .tc main_v18) = isq (arg m c main_arg2) from
    (W7_of_ne m ρ c main_v18 (by decide)).trans (W6_v18 m ρ c)]

theorem W8_v40 : W8 m ρ c (Proc.devRef .tc main_v40) = col (isq (arg m c main_arg1)) := by
  refine (w1_v40 (W7 m ρ c)).trans ?_
  rw [show W7 m ρ c (Proc.devRef .tc main_v12) = isq (arg m c main_arg1) from
    (W7_of_ne m ρ c main_v12 (by decide)).trans (W6_v12 m ρ c)]

theorem W8_v41 : W8 m ρ c (Proc.devRef .tc main_v41) = row (arg m c main_arg5) := by
  refine (w1_v41 (W7 m ρ c)).trans ?_
  rw [show W7 m ρ c (Proc.devRef .tc main_arg5) = arg m c main_arg5 from
    (W7_of_ne m ρ c main_arg5 (by decide)).trans (W6_launch m ρ c)]

/-- The first layer's output rows, from the three buffers region 1 reads them from. -/
theorem W8_rows1 : Cert.GcnSpec.post (V8 m ρ c main_v38) (V8 m ρ c main_v39) (V8 m ρ c main_v41) = rows1 m c := by
  rw [show V8 m ρ c main_v38 = _ from W8_v38 m ρ c, show V8 m ρ c main_v39 = _ from W8_v39 m ρ c,
    show V8 m ρ c main_v41 = _ from W8_v41 m ρ c]
  rfl

/-! ### Region 1 and the stretch after it -/

/-- Region 1's first output array: the scaled projection of the first layer's rows. -/
theorem W9_v42_0 : W9 m ρ c (Proc.devRef .tc main_v42_0)
    = Cert.GcnSpec.proj (K := 128) (rows1 m c) (col (isq (arg m c main_arg1))) (arg m c main_arg6) := by
  refine ((W9_arr m ρ c 6).trans (Region1.arr1_6 (V8 m ρ) c)).trans ?_
  rw [W8_rows1 m ρ c, show V8 m ρ c main_v40 = _ from W8_v40 m ρ c,
    show V8 m ρ c main_arg6 = arg m c main_arg6 from W8_launch m ρ c]

/-- Region 1's second output array: the two halves' pooled sums of the first layer's rows. -/
theorem W9_v42_1 : W9 m ρ c (Proc.devRef .tc main_v42_1)
    = Cert.GcnSpec.poolParts (onehot (arg m c main_arg3)) (rows1 m c) := by
  refine ((W9_arr m ρ c 7).trans (Region1.arr1_7 (V8 m ρ) c)).trans ?_
  rw [W8_rows1 m ρ c, show V8 m ρ c main_v19 = onehot (arg m c main_arg3) from (W8_keep m ρ c).trans (W6_v19 m ρ c)]

/-- The membership table is an input array of region 1, which leaves it as entered. -/
theorem W9_v19 : W9 m ρ c (Proc.devRef .tc main_v19) = onehot (arg m c main_arg3) :=
  ((W9_arr m ρ c 3).trans (((dat1 (V8 m ρ) c).arrAt_in 3 rfl _).trans (A_eq1 (V8 m ρ) c 3))).trans
    ((W8_keep m ρ c).trans (W6_v19 m ρ c))

theorem W9_v26 : W9 m ρ c (Proc.devRef .tc main_v26) = cnt (arg m c main_arg3) :=
  (W9_of_ne m ρ c main_v26 (by decide)).trans ((W8_keep m ρ c).trans (W6_v26 m ρ c))

theorem W9_v18 : W9 m ρ c (Proc.devRef .tc main_v18) = isq (arg m c main_arg2) :=
  (W9_of_ne m ρ c main_v18 (by decide)).trans ((W8_keep m ρ c).trans (W6_v18 m ρ c))

/-- An argument that region 1 does not take as an array is at its exit as launched. -/
theorem W9_launch {r : Ref sig .tc} (h9 : ∀ w, Pipeline.arrRef spec1 w ≠ r := by decide)
    (h : ∀ w, Pipeline.arrRef spec0 w ≠ r := by decide) (h1 : r ∉ wr1 := by decide)
    (h00 : r ∉ wr0 := by decide) (h01 : r ∉ wr0_1 := by decide) (h02 : r ∉ wr0_2 := by decide)
    (h03 : r ∉ wr0_3 := by decide) (h04 : r ∉ wr0_4 := by decide) (h05 : r ∉ wr0_5 := by decide) :
    W9 m ρ c (Proc.devRef .tc r) = arg m c r :=
  (W9_of_ne m ρ c r h9).trans (W8_launch m ρ c h h1 h00 h01 h02 h03 h04 h05)

/-- The first pooled average. -/
theorem W10_v45 : W10 m ρ c (Proc.devRef .tc main_v45)
    = pooled (Cert.GcnSpec.poolParts (onehot (arg m c main_arg3)) (rows1 m c)) (arg m c main_arg3) := by
  refine (w2_v45 (W9 m ρ c) (arg m c main_arg3) (W9_v26 m ρ c)).trans ?_
  rw [W9_v42_1 m ρ c]

/-- The neighbourhood sum of the second projection. -/
theorem W10_v55 : W10 m ρ c (Proc.devRef .tc main_v55)
    = aggr (arg m c main_arg1) (arg m c main_arg2)
        (Cert.GcnSpec.proj (K := 128) (rows1 m c) (col (isq (arg m c main_arg1))) (arg m c main_arg6)) := by
  refine (w2_v55 (W9 m ρ c)).trans ?_
  rw [W9_v42_0 m ρ c, show W9 m ρ c (Proc.devRef .tc main_arg1) = arg m c main_arg1 from W9_launch m ρ c,
    show W9 m ρ c (Proc.devRef .tc main_arg2) = arg m c main_arg2 from W9_launch m ρ c]

theorem W10_v56 : W10 m ρ c (Proc.devRef .tc main_v56) = col (isq (arg m c main_arg2)) := by
  refine (w2_v56 (W9 m ρ c)).trans ?_
  rw [W9_v18 m ρ c]

theorem W10_v57 : W10 m ρ c (Proc.devRef .tc main_v57) = row (arg m c main_arg7) := by
  refine (w2_v57 (W9 m ρ c)).trans ?_
  rw [show W9 m ρ c (Proc.devRef .tc main_arg7) = arg m c main_arg7 from W9_launch m ρ c]

theorem W10_v19 : W10 m ρ c (Proc.devRef .tc main_v19) = onehot (arg m c main_arg3) :=
  (keep2 (W9 m ρ c)).trans (W9_v19 m ρ c)

theorem W10_v26 : W10 m ρ c (Proc.devRef .tc main_v26) = cnt (arg m c main_arg3) :=
  (keep2 (W9 m ρ c)).trans (W9_v26 m ρ c)

/-- The second layer's output rows, from the three buffers region 2 reads them from. -/
theorem W10_rows2 : Cert.GcnSpec.post (V10 m ρ c main_v55) (V10 m ρ c main_v56) (V10 m ρ c main_v57) = rows2 m c := by
  rw [show V10 m ρ c main_v55 = _ from W10_v55 m ρ c, show V10 m ρ c main_v56 = _ from W10_v56 m ρ c,
    show V10 m ρ c main_v57 = _ from W10_v57 m ρ c]
  rfl

/-! ### Region 2 and the last stretch -/

/-- Region 2's output array: the two halves' pooled sums of the second layer's rows. -/
theorem W11_v58 : W11 m ρ c (Proc.devRef .tc main_v58)
    = Cert.GcnSpec.poolParts (onehot (arg m c main_arg3)) (rows2 m c) := by
  refine ((W11_arr m ρ c 4).trans (Region2.arr2_4 (V10 m ρ) c)).trans ?_
  rw [W10_rows2 m ρ c, show V10 m ρ c main_v19 = _ from W10_v19 m ρ c]

/-- Region 2 takes neither the first pooled average nor the counts as an array. -/
theorem W11_v45 : W11 m ρ c (Proc.devRef .tc main_v45)
    = pooled (Cert.GcnSpec.poolParts (onehot (arg m c main_arg3)) (rows1 m c)) (arg m c main_arg3) :=
  (W11_of_ne m ρ c main_v45 (by decide)).trans (W10_v45 m ρ c)

theorem W11_v26 : W11 m ρ c (Proc.devRef .tc main_v26) = cnt (arg m c main_arg3) :=
  (W11_of_ne m ρ c main_v26 (by decide)).trans (W10_v26 m ρ c)

/-- The result buffer at the last boundary: the first pooled average plus twice the second, which is the network. -/
theorem W12_v64_arg : W12 m ρ c (Proc.devRef .tc main_v64)
    = kernelOut (arg m c main_arg0) (arg m c main_arg1) (arg m c main_arg2) (arg m c main_arg3)
        (arg m c main_arg4) (arg m c main_arg5) (arg m c main_arg6) (arg m c main_arg7) := by
  refine (w3_v64 (W11 m ρ c) (arg m c main_arg3) (W11_v26 m ρ c)).trans ?_
  rw [W11_v45 m ρ c, W11_v58 m ρ c]
  rfl

end Boundaries

/-- At the last boundary the result buffer holds the network's value at the argument arrays. -/
theorem W12_v64 (c : Dev nD) :
    W12 (F := Ideal) m ρ c (Proc.devRef .tc main_v64)
      = kernelOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) :=
  W12_v64_arg m ρ c

end Cert.KernelIdeal.HostChain

end
-- ==== Proof.Pool.lean ====
/-
  Pooling by a membership table is pooling by graph number. The kernel sums, per half, `oh n g · H n d` over the half's nodes,
  with `oh n g = 1` exactly when node `n`'s graph number is `g`, and then adds the two halves; the reference adds row `n` of
  `H` into row `batch n` of a zero array, skipping a node whose number is not one of the 64 rows. Both are, at graph `g` and
  column `d`, the sum of `H n d` over the nodes `n` numbered `g`: `1 · a = a`, `0 · a = 0` (also at the infinities), and a
  sum may be taken in any order.
-/
import proofs.«417829_j5978594476289_3_alg».proof.KernelIdeal
import proofs.«417829_j5978594476289_3_alg».proof.ReferenceIdeal
import proofs.«417829_j5978594476289_3_alg».proof.Proof.Gen.KernelIdeal
import proofs.«417829_j5978594476289_3_alg».proof.Proof.Gen.ReferenceIdeal
import proofs.«417829_j5978594476289_3_alg».proof.Proof.GcnSpec
import proofs.«417829_j5978594476289_3_alg».proof.Proof.HostDefs
import Idealize.ShloMosaic.PureOps.Ideal.Laws
import Idealize.ShloMosaic.Lib.ValueIdx
import Idealize.ShloMosaic.Lib.ValueLayout
import Idealize.ShloMosaic.Lib.StableHlo.Predicate

noncomputable section

open scoped BigOperators
open Idealize.ShloMosaic Idealize.ShloMosaic.ValueIdx

namespace Cert.Pool

/-! ## The kernel's side: the sum of the two halves, and the membership table at an entry -/

/-- Adding a two-slab array from zero over its first axis gives, at `(g, d)`, zero plus the sum of the two slabs'
    entries at `(g, d)`. -/
theorem reduce_apply (P : FVec Ideal ⟨3, ![2, 64, 128]⟩ .f32) (g : Fin 64) (d : Fin 128) :
    Host.reduceAdd (F := Ideal) P (constant (F := Ideal) Cert.KernelIdeal.S_ .f32 0x00000000#32)
        Cert.KernelIdeal.Facts₀.reducesTo_S2x64x128_S64x128_d0 Cert.KernelIdeal.Facts₀.h_S_ (ix2 g d)
      = 0 + ∑ h : Fin 2, P (ix3 h g d) := by
  show Ideal.hostReduceAdd _ P (Ideal.ofBits .f32 0x00000000#32) (ix2 g d) = _
  rw [Ideal.hostReduceAdd_single _ (by decide : Shape.Reduces ⟨3, ![2, 64, 128]⟩ [0] ⟨2, ![64, 128]⟩), Ideal.ofBits_zero_f32]
  congr 1
  refine Finset.sum_congr rfl fun h _ => congrArg P ?_
  -- the index with the summed coordinate put back in front is (h, g, d)
  funext a
  match a with
  | ⟨0, _⟩ => rfl
  | ⟨1, _⟩ => rfl
  | ⟨2, _⟩ => rfl

/-- A 32-bit word is the word of a small natural number exactly when its signed value is that number. -/
theorem eq_ofNat_iff_toInt (w : BitVec 32) (g : Nat) (hg : g < 64) : w = BitVec.ofNat 32 g ↔ w.toInt = (g : Int) := by
  have h := StableHlo.Predicate.toInt_ofNat_small g (by omega)
  constructor
  · rintro rfl; exact h
  · intro hw; exact BitVec.eq_of_toInt_eq (hw.trans h.symm)

/-- The membership table at `(n, g)`: 1 when node `n`'s graph number, read signed, is `g`, else 0 (a negative number or
    one beyond 63 is no `g`'s). -/
theorem onehot_apply (batch : (⟨Cert.KernelIdeal.S40000, .i32⟩ : BufTy).Contents (Elt Ideal)) (n : Fin 40000) (g : Fin 64) :
    Cert.KernelIdeal.HostVal.onehot batch (ix2 n g) = if (batch (ix1 n)).toInt = (g.val : Int) then 1 else 0 := by
  -- the compared words at (n, g) are node n's graph number and the word of g
  have hA : Cert.KernelIdeal.HostVal.onehot batch (ix2 n g)
      = (((IntOp.cmpi .eq (batch (ix1 n)) (BitVec.ofNat 32 g.val)).toNat : ℝ) : EReal) := by
    show (((IntOp.cmpi .eq (batch _) (BitVec.ofNat 32 g.val)).toNat : ℝ) : EReal) = _
    congr 6
    funext a
    match a with
    | ⟨0, _⟩ => rfl
  rw [hA]
  by_cases hb : (batch (ix1 n)).toInt = (g.val : Int)
  · rw [if_pos hb, (eq_ofNat_iff_toInt _ _ g.isLt).2 hb]
    simp [IntOp.cmpi]
  · rw [if_neg hb]
    have hne : ¬ batch (ix1 n) = BitVec.ofNat 32 g.val := fun h => hb ((eq_ofNat_iff_toInt _ _ g.isLt).1 h)
    simp [IntOp.cmpi, hne]

/-! ## The reference's side: where an update row lands -/

/-- The graph numbers as a one-column array, read at row `n`. -/
theorem col_apply (batch : (⟨Cert.KernelIdeal.S40000, .i32⟩ : BufTy).Contents (Elt Ideal)) (n : Fin 40000) :
    broadcastInDim Cert.ReferenceIdeal.S40000x1 ![0] Cert.ReferenceIdeal.Facts₀.bcast_S40000_S40000x1_0 batch (ix2 n 0)
      = batch (ix1 n) := by
  unfold broadcastInDim
  congr 1
  funext a
  match a with
  | ⟨0, _⟩ => rfl

open Cert.ReferenceIdeal in
/-- Entry `(n, d')` of the update array lands at `(g, d)` exactly when row `n`'s start index, read signed, is `g` and the
    column is kept: the row coordinate is the start index (not clamped: outside 0 … 63 the update lands nowhere), the
    column coordinate is the update's own. -/
theorem resultIdx_iff (idx : IVec Cert.ReferenceIdeal.S40000x1 32) (n : Fin 40000) (d' : Fin 128) (g : Fin 64) (d : Fin 128)
    (t : Int) (ht : (idx (ix2 n 0)).toInt = t) :
    scatter_S64x128_S40000x1_S40000x128_1_0_0_1.resultIdx? (ix2 n d') idx = some (ix2 g d) ↔ t = (g.val : Int) ∧ d' = d := by
  subst ht
  -- on the row axis the window starts at the start index and has no extent; on the column axis it starts at 0 and
  -- its coordinate is the update's column
  have hs0 : scatter_S64x128_S40000x1_S40000x128_1_0_0_1.start (ix2 n d') idx 0 = (idx (ix2 n 0)).toInt := by
    unfold ScatterDims.start
    rw [dif_pos (show (0 : Fin 2) ∈ scatter_S64x128_S40000x1_S40000x128_1_0_0_1.scatterDimsToOperandDims from List.mem_singleton.mpr rfl)]
    have hsi : scatter_S64x128_S40000x1_S40000x128_1_0_0_1.siIdx (ix2 n d')
        ⟨List.idxOf (0 : Fin 2) scatter_S64x128_S40000x1_S40000x128_1_0_0_1.scatterDimsToOperandDims,
          List.idxOf_lt_length_iff.2 (List.mem_singleton.mpr rfl)⟩ = ix2 n 0 := by
      funext b; refine Fin.ext ?_
      match b with
      | ⟨0, _⟩ => rfl
      | ⟨1, _⟩ => rfl
    rw [hsi]
  have hs1 : scatter_S64x128_S40000x1_S40000x128_1_0_0_1.start (ix2 n d') idx 1 = 0 := by
    unfold ScatterDims.start
    rw [dif_neg (show ¬ (1 : Fin 2) ∈ scatter_S64x128_S40000x1_S40000x128_1_0_0_1.scatterDimsToOperandDims from by decide)]
  have hw0 : scatter_S64x128_S40000x1_S40000x128_1_0_0_1.window (ix2 n d') 0 = 0 := by
    unfold ScatterDims.window
    rw [dif_neg (show ¬ (0 : Fin 2) ∈ scatter_S64x128_S40000x1_S40000x128_1_0_0_1.sKept from by decide)]
  have hw1 : scatter_S64x128_S40000x1_S40000x128_1_0_0_1.window (ix2 n d') 1 = d'.val := by
    unfold ScatterDims.window
    rw [dif_pos (show (1 : Fin 2) ∈ scatter_S64x128_S40000x1_S40000x128_1_0_0_1.sKept from by decide)]
    rfl
  unfold ScatterDims.resultIdx?
  constructor
  · intro he
    split at he
    · next h =>
      have hf := Option.some.inj he
      have h0 : (scatter_S64x128_S40000x1_S40000x128_1_0_0_1.start (ix2 n d') idx 0 + scatter_S64x128_S40000x1_S40000x128_1_0_0_1.window (ix2 n d') 0).toNat = g.val :=
        congrArg Fin.val (congrFun hf 0)
      have h1 : (scatter_S64x128_S40000x1_S40000x128_1_0_0_1.start (ix2 n d') idx 1 + scatter_S64x128_S40000x1_S40000x128_1_0_0_1.window (ix2 n d') 1).toNat = d.val :=
        congrArg Fin.val (congrFun hf 1)
      have c0 := (h 0).1
      rw [hs0, hw0] at h0 c0
      rw [hs1, hw1] at h1
      exact ⟨by omega, Fin.ext (by omega)⟩
    · exact absurd he (by simp)
  · rintro ⟨ht, rfl⟩
    have hg := g.isLt
    have hd := d'.isLt
    have hall : ∀ a, 0 ≤ scatter_S64x128_S40000x1_S40000x128_1_0_0_1.start (ix2 n d') idx a + scatter_S64x128_S40000x1_S40000x128_1_0_0_1.window (ix2 n d') a ∧
        scatter_S64x128_S40000x1_S40000x128_1_0_0_1.start (ix2 n d') idx a + scatter_S64x128_S40000x1_S40000x128_1_0_0_1.window (ix2 n d') a < S64x128.size a := by
      intro a
      match a with
      | ⟨0, _⟩ =>
        show 0 ≤ scatter_S64x128_S40000x1_S40000x128_1_0_0_1.start (ix2 n d') idx 0 + scatter_S64x128_S40000x1_S40000x128_1_0_0_1.window (ix2 n d') 0 ∧
          scatter_S64x128_S40000x1_S40000x128_1_0_0_1.start (ix2 n d') idx 0 + scatter_S64x128_S40000x1_S40000x128_1_0_0_1.window (ix2 n d') 0 < (64 : Nat)
        rw [hs0, hw0, ht]; omega
      | ⟨1, _⟩ =>
        show 0 ≤ scatter_S64x128_S40000x1_S40000x128_1_0_0_1.start (ix2 n d') idx 1 + scatter_S64x128_S40000x1_S40000x128_1_0_0_1.window (ix2 n d') 1 ∧
          scatter_S64x128_S40000x1_S40000x128_1_0_0_1.start (ix2 n d') idx 1 + scatter_S64x128_S40000x1_S40000x128_1_0_0_1.window (ix2 n d') 1 < (128 : Nat)
        rw [hs1, hw1]; omega
    rw [dif_pos hall]
    congr 1
    funext a
    refine Fin.ext ?_
    match a with
    | ⟨0, _⟩ =>
      show (scatter_S64x128_S40000x1_S40000x128_1_0_0_1.start (ix2 n d') idx 0 + scatter_S64x128_S40000x1_S40000x128_1_0_0_1.window (ix2 n d') 0).toNat = g.val
      rw [hs0, hw0, ht]; omega
    | ⟨1, _⟩ =>
      show (scatter_S64x128_S40000x1_S40000x128_1_0_0_1.start (ix2 n d') idx 1 + scatter_S64x128_S40000x1_S40000x128_1_0_0_1.window (ix2 n d') 1).toNat = d'.val
      rw [hs1, hw1]; omega

/-- The reference's sum by graph number at `(g, d)`: zero plus, over the nodes, `H n d` where node `n`'s number is `g`. -/
theorem scatter_apply (batch : (⟨Cert.KernelIdeal.S40000, .i32⟩ : BufTy).Contents (Elt Ideal))
    (H : (⟨Cert.KernelIdeal.S40000x128, .f32⟩ : BufTy).Contents (Elt Ideal)) (g : Fin 64) (d : Fin 128) :
    Host.scatterAdd (F := Ideal) Cert.ReferenceIdeal.scatter_S64x128_S40000x1_S40000x128_1_0_0_1
        (broadcastInDim Cert.ReferenceIdeal.S64x128 ![] Cert.ReferenceIdeal.Facts₀.bcast_S_S64x128
          (constant (F := Ideal) Cert.ReferenceIdeal.S_ .f32 0x00000000#32))
        (broadcastInDim Cert.ReferenceIdeal.S40000x1 ![0] Cert.ReferenceIdeal.Facts₀.bcast_S40000_S40000x1_0 batch) H (ix2 g d)
      = 0 + ∑ n : Fin 40000, if (batch (ix1 n)).toInt = (g.val : Int) then H (ix2 n d) else 0 := by
  show Ideal.hostScatterAdd _ _ _ H (ix2 g d) = _
  unfold Ideal.hostScatterAdd
  refine congrArg₂ (fun a b : EReal => a + b) Ideal.ofBits_zero_f32 ?_
  · -- the sum over the update entries that land at (g, d), taken row by row: in row n only column d can land there
    rw [Finset.sum_filter, sum_idx2]
    refine Finset.sum_congr rfl fun n _ => ?_
    refine (Finset.sum_congr rfl fun d' _ =>
      if_congr (resultIdx_iff _ n d' g d _ (congrArg BitVec.toInt (col_apply batch n))) rfl rfl).trans ?_
    by_cases hb : (batch (ix1 n)).toInt = (g.val : Int)
    · have hcol : ∀ d' : Fin 128, (if (batch (ix1 n)).toInt = (g.val : Int) ∧ d' = d then H (ix2 n d') else 0)
          = if d' = d then H (ix2 n d') else 0 := fun d' => if_congr (and_iff_right hb) rfl rfl
      rw [Finset.sum_congr rfl fun d' _ => hcol d', Finset.sum_ite_eq' Finset.univ d (fun d' => H (ix2 n d')),
        if_pos (Finset.mem_univ d), if_pos hb]
    · rw [if_neg hb]
      exact Finset.sum_eq_zero fun d' _ => if_neg (fun h => hb h.1)

/-- The two halves' membership-weighted sums, added from zero, are the reference's sum by graph number into zeros. -/
theorem pooled_sum_eq_scatter
    (batch : (⟨Cert.KernelIdeal.S40000, .i32⟩ : BufTy).Contents (Elt Ideal))
    (H : (⟨Cert.KernelIdeal.S40000x128, .f32⟩ : BufTy).Contents (Elt Ideal)) :
    Host.reduceAdd (F := Ideal) (Cert.GcnSpec.poolParts (Cert.KernelIdeal.HostVal.onehot batch) H)
        (constant (F := Ideal) Cert.KernelIdeal.S_ .f32 0x00000000#32)
        Cert.KernelIdeal.Facts₀.reducesTo_S2x64x128_S64x128_d0 Cert.KernelIdeal.Facts₀.h_S_
      = Host.scatterAdd (F := Ideal) Cert.ReferenceIdeal.scatter_S64x128_S40000x1_S40000x128_1_0_0_1
          (broadcastInDim Cert.ReferenceIdeal.S64x128 ![] Cert.ReferenceIdeal.Facts₀.bcast_S_S64x128
            (constant (F := Ideal) Cert.ReferenceIdeal.S_ .f32 0x00000000#32))
          (broadcastInDim Cert.ReferenceIdeal.S40000x1 ![0] Cert.ReferenceIdeal.Facts₀.bcast_S40000_S40000x1_0 batch) H := by
  funext i
  obtain ⟨g, d, rfl⟩ : ∃ g d, i = ix2 g d := ⟨i 0, i 1, eq_ix2 i⟩
  rw [reduce_apply, Cert.GcnSpec.poolParts_sum, scatter_apply]
  refine congrArg (fun t : EReal => 0 + t) (Finset.sum_congr rfl fun n _ => ?_)
  rw [onehot_apply]
  -- one times a value is the value and zero times it is zero, at the infinities too
  by_cases hb : (batch (ix1 n)).toInt = (g.val : Int)
  · rw [if_pos hb, if_pos hb, one_mul]
  · rw [if_neg hb, if_neg hb, zero_mul]

end Cert.Pool

end
-- ==== Proof.Bridge.lean ====
/-
  The kernel's network and the reference's are one function of the argument arrays, over the extended reals. Layer by
  layer: the scaled projection is the same sum of products; the neighbourhood sum is the same two operations on it; scaling,
  bias and clamp agree entry by entry; pooling by the membership table is pooling by graph number; and the first average
  plus twice the second is the first plus the second plus the second.
-/
import proofs.«417829_j5978594476289_3_alg».proof.Proof.HostDefs
import proofs.«417829_j5978594476289_3_alg».proof.Proof.Pool
import proofs.«417829_j5978594476289_3_alg».proof.Proof.RefRead
import Idealize.ShloMosaic.Lib.ValueLayout
import Idealize.ShloMosaic.Lib.Pipeline.Value

noncomputable section

open scoped BigOperators
open Idealize.ShloMosaic Idealize.ShloMosaic.ValueIdx

namespace Cert.Bridge

open Cert.KernelIdeal.HostVal Cert.ReferenceIdeal

/-! ## Small readings -/

/-- A per-node vector laid out as one column reads, at row `n`, the vector at `n`. -/
theorem col_apply (v : (⟨Cert.KernelIdeal.S40000, .f32⟩ : BufTy).Contents (Elt Ideal)) (n : Fin 40000) (u : Fin 1) : col v (ix2 n u) = v (ix1 n) := by
  unfold col
  exact shapeCast_apply v _ _ _ (by
    have hu : u.val = 0 := by omega
    rw [Shape.rowMajor_val_two, Shape.rowMajor_val_one]
    show n.val = n.val * 1 + u.val
    omega)

/-- A bias vector laid out as one row reads, at column `d`, the vector at `d`. -/
theorem row_apply (b : (⟨Cert.KernelIdeal.S128, .f32⟩ : BufTy).Contents (Elt Ideal)) (u : Fin 1) (d : Fin 128) : row b (ix2 u d) = b (ix1 d) := by
  unfold row
  exact shapeCast_a_1a_apply b _ u d

/-- The word of the float 2.0 denotes the real number 2. -/
theorem ofBits_two : Ideal.ofBits .f32 0x40000000#32 = 2 := by
  have h : Ideal.ofBits .f32 0x40000000#32 = ((2 : ℝ) : EReal) := by
    simp [Ideal.ofBits, Ideal.ieee, -EReal.coe_mul]; norm_num
  exact h

/-- The degree factor is the reference's, whichever endpoint list it is taken of: the same operations. -/
theorem isq_eq_v12 (e : (⟨Cert.KernelIdeal.S640000, .i32⟩ : BufTy).Contents (Elt Ideal)) : isq e = ReadP.val_main_v12 (F := Ideal) e := rfl
theorem isq_eq_v18 (e : (⟨Cert.KernelIdeal.S640000, .i32⟩ : BufTy).Contents (Elt Ideal)) : isq e = ReadP.val_main_v18 (F := Ideal) e := rfl

/-! ## The first layer -/

/-- The first projection: at node `n` and column `d` both are the sum over `k` of `x n k · s n · W k d`. -/
theorem proj1_eq (x0 : (⟨Cert.KernelIdeal.S40000x512, .f32⟩ : BufTy).Contents (Elt Ideal)) (x1 : (⟨Cert.KernelIdeal.S640000, .i32⟩ : BufTy).Contents (Elt Ideal)) (x4 : (⟨Cert.KernelIdeal.S512x128, .f32⟩ : BufTy).Contents (Elt Ideal)) :
    Cert.GcnSpec.proj (K := 512) x0 (col (isq x1)) x4 = ReadP.val_main_v22 (F := Ideal) x0 x1 x4 := by
  funext i
  obtain ⟨n, d, rfl⟩ : ∃ (n : Fin 40000) (d : Fin 128), i = ix2 n d := ⟨i 0, i 1, eq_ix2 i⟩
  rw [ReadP.val_main_v22_apply]
  unfold Cert.GcnSpec.proj
  refine Finset.sum_congr rfl fun k _ => ?_
  have e1 : ReadP.lidx_main_v22 (ix2 n d) k = ix2 n k :=
    funext fun a => Fin.ext (by match a with | ⟨0, _⟩ => rfl | ⟨1, _⟩ => rfl)
  have e2 : ReadP.ridx_main_v22 (ix2 n d) k = ix2 k d :=
    funext fun a => Fin.ext (by match a with | ⟨0, _⟩ => rfl | ⟨1, _⟩ => rfl)
  have e3 : ReadP.idx_main_v19 (ReadP.idx_main_v20 (ix2 n k)) = ix1 n :=
    funext fun a => Fin.ext (by match a with | ⟨0, _⟩ => rfl)
  rw [e1, e2, ReadP.val_main_v21_apply, ReadP.val_main_v20_apply, ReadP.val_main_v19_apply, e3, ← isq_eq_v12]
  show x0 (ix2 n k) * col (isq x1) (ix2 n 0) * x4 (ix2 k d) = x0 (ix2 n k) * isq x1 (ix1 n) * x4 (ix2 k d)
  rw [col_apply]

/-- The neighbourhood sum of the first projection: the same gather and scatter. -/
theorem aggr1_eq (x0 : (⟨Cert.KernelIdeal.S40000x512, .f32⟩ : BufTy).Contents (Elt Ideal)) (x1 x2 : (⟨Cert.KernelIdeal.S640000, .i32⟩ : BufTy).Contents (Elt Ideal)) (x4 : (⟨Cert.KernelIdeal.S512x128, .f32⟩ : BufTy).Contents (Elt Ideal)) :
    aggr x1 x2 (ReadP.val_main_v22 (F := Ideal) x0 x1 x4) = ReadP.val_main_v32 (F := Ideal) x0 x1 x2 x4 := rfl

/-- The first layer's rows: scale, bias and clamp agree entry by entry. -/
theorem layer1_eq (x0 : (⟨Cert.KernelIdeal.S40000x512, .f32⟩ : BufTy).Contents (Elt Ideal)) (x1 x2 : (⟨Cert.KernelIdeal.S640000, .i32⟩ : BufTy).Contents (Elt Ideal)) (x4 : (⟨Cert.KernelIdeal.S512x128, .f32⟩ : BufTy).Contents (Elt Ideal))
    (x5 : (⟨Cert.KernelIdeal.S128, .f32⟩ : BufTy).Contents (Elt Ideal)) : layer1 x0 x1 x2 x4 x5 = ReadP.val_main_v39 (F := Ideal) x0 x1 x2 x4 x5 := by
  unfold layer1
  rw [proj1_eq, aggr1_eq]
  funext i
  obtain ⟨n, d, rfl⟩ : ∃ (n : Fin 40000) (d : Fin 128), i = ix2 n d := ⟨i 0, i 1, eq_ix2 i⟩
  have e1 : ReadP.idx_main_v33 (ReadP.idx_main_v34 (ix2 n d)) = ix1 n :=
    funext fun a => Fin.ext (by match a with | ⟨0, _⟩ => rfl)
  have e2 : ReadP.idx_main_v36 (ReadP.idx_main_v37 (ix2 n d)) = ix1 d :=
    funext fun a => Fin.ext (by match a with | ⟨0, _⟩ => rfl)
  rw [ReadP.val_main_v39_apply, ReadP.val_main_v38_apply, ReadP.val_main_v35_apply, ReadP.val_main_v34_apply,
    ReadP.val_main_v33_apply, ReadP.val_main_v37_apply, ReadP.val_main_v36_apply, ReadP.val_main_call2_v0_apply,
    ReadP.val_main_call2_cst_apply, e1, e2, ← isq_eq_v18]
  unfold Cert.GcnSpec.post
  show max (ReadP.val_main_v32 (F := Ideal) x0 x1 x2 x4 (ix2 n d) * col (isq x2) (ix2 n 0) + row x5 (ix2 0 d)) 0
      = max (ReadP.val_main_v32 (F := Ideal) x0 x1 x2 x4 (ix2 n d) * isq x2 (ix1 n) + x5 (ix1 d)) (Ideal.ofBits .f32 0x00000000#32)
  rw [col_apply, row_apply, Ideal.ofBits_zero_f32]

/-- The first pooled average: the membership-weighted sums are the sums by graph number; the counts are the same operations. -/
theorem pooled1_eq (x0 : (⟨Cert.KernelIdeal.S40000x512, .f32⟩ : BufTy).Contents (Elt Ideal)) (x1 x2 : (⟨Cert.KernelIdeal.S640000, .i32⟩ : BufTy).Contents (Elt Ideal)) (x3 : (⟨Cert.KernelIdeal.S40000, .i32⟩ : BufTy).Contents (Elt Ideal))
    (x4 : (⟨Cert.KernelIdeal.S512x128, .f32⟩ : BufTy).Contents (Elt Ideal)) (x5 : (⟨Cert.KernelIdeal.S128, .f32⟩ : BufTy).Contents (Elt Ideal)) :
    pooled (Cert.GcnSpec.poolParts (onehot x3) (ReadP.val_main_v39 (F := Ideal) x0 x1 x2 x4 x5)) x3
      = ReadP.val_main_v51 (F := Ideal) x0 x1 x2 x3 x4 x5 := by
  unfold pooled
  rw [Cert.Pool.pooled_sum_eq_scatter]
  rfl

/-! ## The second layer -/

/-- The second projection: at node `n` and column `d` both are the sum over `k` of `h n k · s n · W k d`. -/
theorem proj2_eq (x0 : (⟨Cert.KernelIdeal.S40000x512, .f32⟩ : BufTy).Contents (Elt Ideal)) (x1 x2 : (⟨Cert.KernelIdeal.S640000, .i32⟩ : BufTy).Contents (Elt Ideal)) (x4 : (⟨Cert.KernelIdeal.S512x128, .f32⟩ : BufTy).Contents (Elt Ideal))
    (x5 : (⟨Cert.KernelIdeal.S128, .f32⟩ : BufTy).Contents (Elt Ideal)) (x6 : (⟨Cert.KernelIdeal.S128x128, .f32⟩ : BufTy).Contents (Elt Ideal)) :
    Cert.GcnSpec.proj (K := 128) (ReadP.val_main_v39 (F := Ideal) x0 x1 x2 x4 x5) (col (isq x1)) x6
      = ReadP.val_main_v55 (F := Ideal) x0 x1 x2 x4 x5 x6 := by
  funext i
  obtain ⟨n, d, rfl⟩ : ∃ (n : Fin 40000) (d : Fin 128), i = ix2 n d := ⟨i 0, i 1, eq_ix2 i⟩
  rw [ReadP.val_main_v55_apply]
  unfold Cert.GcnSpec.proj
  refine Finset.sum_congr rfl fun k _ => ?_
  have e1 : ReadP.lidx_main_v55 (ix2 n d) k = ix2 n k :=
    funext fun a => Fin.ext (by match a with | ⟨0, _⟩ => rfl | ⟨1, _⟩ => rfl)
  have e2 : ReadP.ridx_main_v55 (ix2 n d) k = ix2 k d :=
    funext fun a => Fin.ext (by match a with | ⟨0, _⟩ => rfl | ⟨1, _⟩ => rfl)
  have e3 : ReadP.idx_main_v52 (ReadP.idx_main_v53 (ix2 n k)) = ix1 n :=
    funext fun a => Fin.ext (by match a with | ⟨0, _⟩ => rfl)
  rw [e1, e2, ReadP.val_main_v54_apply, ReadP.val_main_v53_apply, ReadP.val_main_v52_apply, e3, ← isq_eq_v12]
  show ReadP.val_main_v39 (F := Ideal) x0 x1 x2 x4 x5 (ix2 n k) * col (isq x1) (ix2 n 0) * x6 (ix2 k d)
      = ReadP.val_main_v39 (F := Ideal) x0 x1 x2 x4 x5 (ix2 n k) * isq x1 (ix1 n) * x6 (ix2 k d)
  rw [col_apply]

/-- The neighbourhood sum of the second projection: the same gather and scatter. -/
theorem aggr2_eq (x0 : (⟨Cert.KernelIdeal.S40000x512, .f32⟩ : BufTy).Contents (Elt Ideal)) (x1 x2 : (⟨Cert.KernelIdeal.S640000, .i32⟩ : BufTy).Contents (Elt Ideal)) (x4 : (⟨Cert.KernelIdeal.S512x128, .f32⟩ : BufTy).Contents (Elt Ideal))
    (x5 : (⟨Cert.KernelIdeal.S128, .f32⟩ : BufTy).Contents (Elt Ideal)) (x6 : (⟨Cert.KernelIdeal.S128x128, .f32⟩ : BufTy).Contents (Elt Ideal)) :
    aggr x1 x2 (ReadP.val_main_v55 (F := Ideal) x0 x1 x2 x4 x5 x6) = ReadP.val_main_v65 (F := Ideal) x0 x1 x2 x4 x5 x6 := rfl

/-- The second layer's rows. -/
theorem layer2_eq (x0 : (⟨Cert.KernelIdeal.S40000x512, .f32⟩ : BufTy).Contents (Elt Ideal)) (x1 x2 : (⟨Cert.KernelIdeal.S640000, .i32⟩ : BufTy).Contents (Elt Ideal)) (x4 : (⟨Cert.KernelIdeal.S512x128, .f32⟩ : BufTy).Contents (Elt Ideal))
    (x5 : (⟨Cert.KernelIdeal.S128, .f32⟩ : BufTy).Contents (Elt Ideal)) (x6 : (⟨Cert.KernelIdeal.S128x128, .f32⟩ : BufTy).Contents (Elt Ideal)) (x7 : (⟨Cert.KernelIdeal.S128, .f32⟩ : BufTy).Contents (Elt Ideal)) :
    layer2 (ReadP.val_main_v39 (F := Ideal) x0 x1 x2 x4 x5) x1 x2 x6 x7 = ReadP.val_main_v72 (F := Ideal) x0 x1 x2 x4 x5 x6 x7 := by
  unfold layer2
  rw [proj2_eq, aggr2_eq]
  funext i
  obtain ⟨n, d, rfl⟩ : ∃ (n : Fin 40000) (d : Fin 128), i = ix2 n d := ⟨i 0, i 1, eq_ix2 i⟩
  have e1 : ReadP.idx_main_v66 (ReadP.idx_main_v67 (ix2 n d)) = ix1 n :=
    funext fun a => Fin.ext (by match a with | ⟨0, _⟩ => rfl)
  have e2 : ReadP.idx_main_v69 (ReadP.idx_main_v70 (ix2 n d)) = ix1 d :=
    funext fun a => Fin.ext (by match a with | ⟨0, _⟩ => rfl)
  rw [ReadP.val_main_v72_apply, ReadP.val_main_v71_apply, ReadP.val_main_v68_apply, ReadP.val_main_v67_apply,
    ReadP.val_main_v66_apply, ReadP.val_main_v70_apply, ReadP.val_main_v69_apply, ReadP.val_main_call3_v0_apply,
    ReadP.val_main_call3_cst_apply, e1, e2, ← isq_eq_v18]
  unfold Cert.GcnSpec.post
  show max (ReadP.val_main_v65 (F := Ideal) x0 x1 x2 x4 x5 x6 (ix2 n d) * col (isq x2) (ix2 n 0) + row x7 (ix2 0 d)) 0
      = max (ReadP.val_main_v65 (F := Ideal) x0 x1 x2 x4 x5 x6 (ix2 n d) * isq x2 (ix1 n) + x7 (ix1 d)) (Ideal.ofBits .f32 0x00000000#32)
  rw [col_apply, row_apply, Ideal.ofBits_zero_f32]

/-- The second pooled average, which the reference forms twice. -/
theorem pooled2_eq (x0 : (⟨Cert.KernelIdeal.S40000x512, .f32⟩ : BufTy).Contents (Elt Ideal)) (x1 x2 : (⟨Cert.KernelIdeal.S640000, .i32⟩ : BufTy).Contents (Elt Ideal)) (x3 : (⟨Cert.KernelIdeal.S40000, .i32⟩ : BufTy).Contents (Elt Ideal))
    (x4 : (⟨Cert.KernelIdeal.S512x128, .f32⟩ : BufTy).Contents (Elt Ideal)) (x5 : (⟨Cert.KernelIdeal.S128, .f32⟩ : BufTy).Contents (Elt Ideal)) (x6 : (⟨Cert.KernelIdeal.S128x128, .f32⟩ : BufTy).Contents (Elt Ideal)) (x7 : (⟨Cert.KernelIdeal.S128, .f32⟩ : BufTy).Contents (Elt Ideal)) :
    pooled (Cert.GcnSpec.poolParts (onehot x3) (ReadP.val_main_v72 (F := Ideal) x0 x1 x2 x4 x5 x6 x7)) x3
      = ReadP.val_main_v84 (F := Ideal) x0 x1 x2 x3 x4 x5 x6 x7 := by
  unfold pooled
  rw [Cert.Pool.pooled_sum_eq_scatter]
  rfl

/-- The reference's third average is its second: the same operations on the same rows. -/
theorem v96_eq_v84 (x0 : (⟨Cert.KernelIdeal.S40000x512, .f32⟩ : BufTy).Contents (Elt Ideal)) (x1 x2 : (⟨Cert.KernelIdeal.S640000, .i32⟩ : BufTy).Contents (Elt Ideal)) (x3 : (⟨Cert.KernelIdeal.S40000, .i32⟩ : BufTy).Contents (Elt Ideal))
    (x4 : (⟨Cert.KernelIdeal.S512x128, .f32⟩ : BufTy).Contents (Elt Ideal)) (x5 : (⟨Cert.KernelIdeal.S128, .f32⟩ : BufTy).Contents (Elt Ideal)) (x6 : (⟨Cert.KernelIdeal.S128x128, .f32⟩ : BufTy).Contents (Elt Ideal)) (x7 : (⟨Cert.KernelIdeal.S128, .f32⟩ : BufTy).Contents (Elt Ideal)) :
    ReadP.val_main_v96 (F := Ideal) x0 x1 x2 x3 x4 x5 x6 x7 = ReadP.val_main_v84 (F := Ideal) x0 x1 x2 x3 x4 x5 x6 x7 := rfl

/-! ## The sum of the averages -/

/-- The first average plus twice the second is the first plus the second plus the second, entry by entry, at every
    extended real. -/
theorem combine_eq (s a : FVec Ideal Cert.KernelIdeal.S64x128 .f32) :
    combine s a = (addf (addf s a) a : FVec Ideal Cert.KernelIdeal.S64x128 .f32) := by
  funext i
  unfold combine
  have hb : (broadcastInDim Cert.KernelIdeal.S64x128 ![] Cert.KernelIdeal.Facts₀.bcast_S_S64x128
      (constant (F := Ideal) Cert.KernelIdeal.S_ .f32 0x40000000#32)) i = Ideal.ofBits .f32 0x40000000#32 :=
    broadcastInDim_apply _ _ _ i (fun a => a.elim0) (fun a => a.elim0)
  show s i + (broadcastInDim Cert.KernelIdeal.S64x128 ![] Cert.KernelIdeal.Facts₀.bcast_S_S64x128
      (constant (F := Ideal) Cert.KernelIdeal.S_ .f32 0x40000000#32)) i * a i = s i + a i + a i
  rw [hb, ofBits_two, Cert.GcnSpec.two_mul_ereal, add_assoc]

/-! ## The whole -/

/-- The kernel's value is the reference's last stage, at any argument arrays. -/
theorem kernelOut_eq_ref
    (x0 : (⟨Cert.KernelIdeal.S40000x512, .f32⟩ : BufTy).Contents (Elt Ideal)) (x1 x2 : (⟨Cert.KernelIdeal.S640000, .i32⟩ : BufTy).Contents (Elt Ideal)) (x3 : (⟨Cert.KernelIdeal.S40000, .i32⟩ : BufTy).Contents (Elt Ideal))
    (x4 : (⟨Cert.KernelIdeal.S512x128, .f32⟩ : BufTy).Contents (Elt Ideal)) (x5 : (⟨Cert.KernelIdeal.S128, .f32⟩ : BufTy).Contents (Elt Ideal)) (x6 : (⟨Cert.KernelIdeal.S128x128, .f32⟩ : BufTy).Contents (Elt Ideal)) (x7 : (⟨Cert.KernelIdeal.S128, .f32⟩ : BufTy).Contents (Elt Ideal)) :
    kernelOut x0 x1 x2 x3 x4 x5 x6 x7 = ReadP.val_main_v98 (F := Ideal) x0 x1 x2 x3 x4 x5 x6 x7 := by
  unfold kernelOut
  rw [layer1_eq, layer2_eq, pooled1_eq, pooled2_eq, combine_eq]
  unfold ReadP.val_main_v98 ReadP.val_main_v97
  rw [v96_eq_v84]

end Cert.Bridge

end
-- ==== Proof.lean ====
/-
  The certificate of a two-layer graph convolution with graph-average pooling, kernel against reference.

  Both programs compute, from node features `x`, edge lists `src`, `dst`, graph numbers `batch` and two weight/bias
  pairs: the degree factors `s_out`, `s_in` (degree to the power −1/2, 0 for an isolated node); per layer the rows
  `h = max ((Σ over edges of ((h_prev · s_out) · W) at the source, added at the destination) · s_in + b, 0)`; per layer the
  average of the rows of each graph; and the first layer's average plus the second's, twice.

  The kernel does the two projections and the pooling in three grids of row tiles: a projection tile is a block of rows of
  the whole product; a pooling tile adds `ohᵀ · h` of its rows, with `oh` the 0/1 table "node belongs to graph", into a running
  sum per half of the nodes, and the two halves are added afterwards. Over the extended reals these are the reference's
  sums in another order: a finite sum may be taken in any order, `1 · a = a` and `0 · a = 0` at every value, a change of
  float format is the identity, and `s + 2 · a = s + a + a`. No finiteness of the inputs is used: the precondition is
  never opened. Integer inputs are arbitrary: a graph number outside 0 … 63 matches no column of the table and lands
  outside the reference's scatter alike.

  The three frames are the generated ones (the reference's is its run with the result forgotten); the idealization
  rewrote nothing, so `preserves` is `True`; `algebraic` names the common value as a function of the kernel's arguments.
-/
import proofs.«417829_j5978594476289_3_alg».proof.Defs
import proofs.«417829_j5978594476289_3_alg».proof.Proof.Gen.Kernel
import proofs.«417829_j5978594476289_3_alg».proof.Proof.Gen.Kernel.Skeleton
import proofs.«417829_j5978594476289_3_alg».proof.Proof.Gen.Kernel.Launch
import proofs.«417829_j5978594476289_3_alg».proof.Proof.Gen.Kernel.Points
import proofs.«417829_j5978594476289_3_alg».proof.Proof.Gen.Kernel.Frame
import proofs.«417829_j5978594476289_3_alg».proof.Proof.Gen.KernelIdeal
import proofs.«417829_j5978594476289_3_alg».proof.Proof.Gen.KernelIdeal.Skeleton
import proofs.«417829_j5978594476289_3_alg».proof.Proof.Gen.KernelIdeal.Launch
import proofs.«417829_j5978594476289_3_alg».proof.Proof.Gen.KernelIdeal.Points
import proofs.«417829_j5978594476289_3_alg».proof.Proof.Gen.KernelIdeal.Frame
import proofs.«417829_j5978594476289_3_alg».proof.Proof.Gen.ReferenceIdeal
import proofs.«417829_j5978594476289_3_alg».proof.Proof.RefRun
import proofs.«417829_j5978594476289_3_alg».proof.Proof.RefRead
import proofs.«417829_j5978594476289_3_alg».proof.Proof.Gen.Pre_finite_inputs
import proofs.«417829_j5978594476289_3_alg».proof.Proof.KernelRun
import proofs.«417829_j5978594476289_3_alg».proof.Proof.HostChain
import proofs.«417829_j5978594476289_3_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is host operations only: its run names the result too, which a frame forgets. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs end with the network's value at those arguments: the kernel's
    result buffer read back through its segments, the reference's composed term read stage by stage, one function. -/
theorem algebraic : Cert.algebraic_KernelIdeal_ReferenceIdeal := by
  intro m ρ m' ρ' _ hagree
  refine ⟨fun c => Cert.KernelIdeal.HostVal.kernelOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.HostChain.W12_v64 m ρ c), (h c).2⟩)
      (Cert.KernelIdeal.GenP.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v98_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact (Cert.Bridge.kernelOut_eq_ref _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
